-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S32000x4096 : S_.BroadcastsInDim S32000x4096 (![] : Fin 0 → Fin S32000x4096.rank)
  reducesTo_S32000x4096_S_d0_1 : S32000x4096.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : IVec S2048 32) (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  let main_c_6 : IVec S_ 32 := constantI S_ 32 0#32
  let main_v19 : IVec S2048 32 := broadcastInDim S2048 ![] bcast_S_S2048 main_c_6
  let main_v20 : IVec S2048 1 := cmpi .sge main_arg4 main_v19
  let main_c_7 : IVec S_ 32 := constantI S_ 32 32000#32
  let main_v21 : IVec S2048 32 := broadcastInDim S2048 ![] bcast_S_S2048 main_c_7
  let main_v22 : IVec S2048 1 := cmpi .slt main_arg4 main_v21
  let main_v23 : IVec S2048 1 := andi main_v20 main_v22
  let main_c_8 : IVec S_ 32 := constantI S_ 32 4294967196#32
  let main_v24 : IVec S2048 32 := broadcastInDim S2048 ![] bcast_S_S2048 main_c_8
  let main_v25 : IVec S2048 1 := cmpi .eq main_arg4 main_v24
  let main_v26 : IVec S2048 1 := ori main_v23 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v18 main_v27
  main_v28

def fn {F : FTy → Type} [FloatOps F] (main_arg0 : FVec F S2048x2048 .f32) (main_arg1 : FVec F S32000x2048 .f32) (main_arg2 : FVec F S2048x4096 .f32) (main_arg3 : FVec F S32000x4096 .f32) (main_arg4 : IVec S2048 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S32000x4096 .f32 := Host.absf main_arg3
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_arg4 main_v13 main_v16
-- ==== Kernel.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S2048x1 : Shape := ⟨2, ![2048, 1]⟩
abbrev S512x2048 : Shape := ⟨2, ![512, 2048]⟩
abbrev S256x2048 : Shape := ⟨2, ![256, 2048]⟩
abbrev S512x4096 : Shape := ⟨2, ![512, 4096]⟩
abbrev S256x4096 : Shape := ⟨2, ![256, 4096]⟩
abbrev S512x1 : Shape := ⟨2, ![512, 1]⟩
abbrev S512x256 : Shape := ⟨2, ![512, 256]⟩
abbrev S512 : Shape := ⟨1, ![512]⟩
abbrev S_ : Shape := ⟨0, ![]⟩

abbrev nBuf : Space → Nat
  | .hbm => 13
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S2048x4096, .f32⟩
  | .hbm, ⟨3, _⟩ => ⟨S32000x4096, .f32⟩
  | .hbm, ⟨4, _⟩ => ⟨S2048, .i32⟩
  | .hbm, ⟨5, _⟩ => ⟨S2048x1, .i32⟩
  | .hbm, ⟨6, _⟩ => ⟨S2048x2048, .bf16⟩
  | .hbm, ⟨7, _⟩ => ⟨S2048x4096, .bf16⟩
  | .hbm, ⟨8, _⟩ => ⟨S2048x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x2048, .bf16⟩
  | .local _ .vmem, ⟨1, _⟩ => ⟨S512x2048, .bf16⟩
  | .local _ .vmem, ⟨2, _⟩ => ⟨S256x2048, .f32⟩
  | .local _ .vmem, ⟨3, _⟩ => ⟨S256x2048, .f32⟩
  | .local _ .vmem, ⟨4, _⟩ => ⟨S512x4096, .bf16⟩
  | .local _ .vmem, ⟨5, _⟩ => ⟨S512x4096, .bf16⟩
  | .local _ .vmem, ⟨6, _⟩ => ⟨S256x4096, .f32⟩
  | .local _ .vmem, ⟨7, _⟩ => ⟨S256x4096, .f32⟩
  | .local _ .vmem, ⟨8, _⟩ => ⟨S512x1, .i32⟩
  | .local _ .vmem, ⟨9, _⟩ => ⟨S512x1, .i32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 125], ![false, false]⟩

def k0_cond2 (i : grid0.Coords) : BitVec 1 :=
  let arg1 : BitVec 32 := BitVec.ofNat 32 (i 1).val
  let c124_i32 : BitVec 32 := 124#32
  let v74 : BitVec 1 := Scalar.cmpi .eq arg1 c124_i32
  let v75 : BitVec 32 := Scalar.extui v74
  let c0_i32_42 : BitVec 32 := 0#32
  let v76 : BitVec 1 := Scalar.cmpi .ne v75 c0_i32_42
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2048_S2048x1 : S2048.ShapeCasts S2048x1
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x2048_S256x2048_0_0 : ∀ a, (![0, 0] : Fin 2 → Nat) a + S256x2048.size a ≤ S256x2048.size a
  h_S256x2048 : 0 < S256x2048.numel
  inb_S256x4096_S256x4096_0_0 : ∀ a, (![0, 0] : Fin 2 → Nat) a + S256x4096.size a ≤ S256x4096.size a
  h_S256x4096 : 0 < S256x4096.numel
  iota_S512x256_d1_w32 : S512x256.Iotas .tc 32 [1]
  broadcasts_S512x1_S512x256 : S512x1.Broadcasts S512x256
  reduces_S512x256_S512 : S512x256.Reduces [1] S512
  shapeCasts_S512_S512x1 : S512.ShapeCasts S512x1
  natLt_1_32 : 1 < 32
  reducesTo_S2048x1_S_d0_1 : S2048x1.ReducesTo [0, 1] S_
  h_S_ : 0 < S_.numel
  dot_S512x2048_S256x2048_S512x256_1_1_0_0_n_n_wf : DotDims.WF S512x2048 S256x2048 S512x256 [1] [1] [0] [0] [] []
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .bf16 = 32 ∨ (Rect.block (s := S2048x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S32000x2048.size a
  hwx0_1 : ∀ i : grid0.Coords, EltTy.bits .f32 = 32 ∨ (Rect.block (s := S32000x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S2048x4096.size a
  hwx0_2 : ∀ i : grid0.Coords, EltTy.bits .bf16 = 32 ∨ (Rect.block (s := S2048x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S32000x4096.size a
  hwx0_3 : ∀ i : grid0.Coords, EltTy.bits .f32 = 32 ∨ (Rect.block (s := S32000x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S2048x1.size a
  hwx0_4 : ∀ i : grid0.Coords, EltTy.bits .i32 = 32 ∨ (Rect.block (s := S2048x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S2048x1.size a
  hwx0_5 : ∀ i : grid0.Coords, EltTy.bits .f32 = 32 ∨ (Rect.block (s := S2048x1) S512x1.size (cc0_transform_5 i) (hinb0_5 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S2048x32000 : Shape := ⟨2, ![2048, 32000]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 97
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S2048x4096, .f32⟩
  | .hbm, ⟨3, _⟩ => ⟨S32000x4096, .f32⟩
  | .hbm, ⟨4, _⟩ => ⟨S2048, .i32⟩
  | .hbm, ⟨5, _⟩ => ⟨S2048x32000, .f32⟩
  | .hbm, ⟨6, _⟩ => ⟨S2048x32000, .f32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048x1, .f32⟩
  | .hbm, ⟨16, _⟩ => ⟨S2048x32000, .f32⟩
  | .hbm, ⟨17, _⟩ => ⟨S2048x32000, .f32⟩
  | .hbm, ⟨18, _⟩ => ⟨S2048x32000, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S2048x1, .f32⟩
  | .hbm, ⟨23, _⟩ => ⟨S2048x32000, .f32⟩
  | .hbm, ⟨24, _⟩ => ⟨S2048x32000, .f32⟩
  | .hbm, ⟨25, _⟩ => ⟨S_, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048x1, .i32⟩
  | .hbm, ⟨30, _⟩ => ⟨S_, .i32⟩
  | .hbm, ⟨31, _⟩ => ⟨S2048x1, .i32⟩
  | .hbm, ⟨32, _⟩ => ⟨S2048x1, .i1⟩
  | .hbm, ⟨33, _⟩ => ⟨S_, .i32⟩
  | .hbm, ⟨34, _⟩ => ⟨S2048x1, .i32⟩
  | .hbm, ⟨35, _⟩ => ⟨S2048x1, .i32⟩
  | .hbm, ⟨36, _⟩ => ⟨S2048x1, .i32⟩
  | .hbm, ⟨37, _⟩ => ⟨S2048x1x1, .i32⟩
  | .hbm, ⟨38, _⟩ => ⟨S1, .i32⟩
  | .hbm, ⟨39, _⟩ => ⟨S_, .i32⟩
  | .hbm, ⟨40, _⟩ => ⟨S2048x1x1, .i32⟩
  | .hbm, ⟨41, _⟩ => ⟨S2048x1x1, .i1⟩
  | .hbm, ⟨42, _⟩ => ⟨S1x1x1, .i32⟩
  | .hbm, ⟨43, _⟩ => ⟨S2048x1x1, .i32⟩
  | .hbm, ⟨44, _⟩ => ⟨S2048x1x1, .i1⟩
  | .hbm, ⟨45, _⟩ => ⟨S2048x1x1, .i1⟩
  | .hbm, ⟨46, _⟩ => ⟨S_, .i1⟩
  | .hbm, ⟨47, _⟩ => ⟨S2048x1, .i1⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S2048, .f32⟩
  | .hbm, ⟨53, _⟩ => ⟨S2048, .f32⟩
  | .hbm, ⟨54, _⟩ => ⟨S_, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2048x32000, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S2048x32000, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S2048x32000, .f32⟩
  | .hbm, ⟨79, _⟩ => ⟨S2048x32000, .f32⟩
  | .hbm, ⟨80, _⟩ => ⟨S2048x32000, .f32⟩
  | .hbm, ⟨81, _⟩ => ⟨S2048x32000, .f32⟩
  | .hbm, ⟨82, _⟩ => ⟨S2048x32000, .f32⟩
  | .hbm, ⟨83, _⟩ => ⟨S_, .f32⟩
  | .hbm, ⟨84, _⟩ => ⟨S2048, .f32⟩
  | .hbm, ⟨85, _⟩ => ⟨S_, .f32⟩
  | .hbm, ⟨86, _⟩ => ⟨S2048, .f32⟩
  | .hbm, ⟨87, _⟩ => ⟨S2048, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v4 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_v5 : Ref sig .tc := ⟨.hbm, 28, rfl⟩
abbrev main_v6 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst : Ref sig .tc := ⟨.hbm, 54, rfl⟩
abbrev main_call3_v0 : Ref sig .tc := ⟨.hbm, 55, rfl⟩
abbrev main_call3_v1 : Ref sig .tc := ⟨.hbm, 56, rfl⟩
abbrev main_v10 : Ref sig .tc := ⟨.hbm, 57, rfl⟩
abbrev main_cst_1 : Ref sig .tc := ⟨.hbm, 58, rfl⟩
abbrev main_v11 : Ref sig .tc := ⟨.hbm, 59, rfl⟩
abbrev main_cst_2 : Ref sig .tc := ⟨.hbm, 60, rfl⟩
abbrev main_v12 : Ref sig .tc := ⟨.hbm, 61, rfl⟩
abbrev main_call4_v0 : Ref sig .tc := ⟨.hbm, 62, rfl⟩
abbrev main_call4_cst : Ref sig .tc := ⟨.hbm, 63, rfl⟩
abbrev main_call4_v1 : Ref sig .tc := ⟨.hbm, 64, rfl⟩
abbrev main_call4_v2 : Ref sig .tc := ⟨.hbm, 65, rfl⟩
abbrev main_v13 : Ref sig .tc := ⟨.hbm, 66, rfl⟩
abbrev main_cst_3 : Ref sig .tc := ⟨.hbm, 67, rfl⟩
abbrev main_v14 : Ref sig .tc := ⟨.hbm, 68, rfl⟩
abbrev main_v15 : Ref sig .tc := ⟨.hbm, 69, rfl⟩
abbrev main_call5_v0 : Ref sig .tc := ⟨.hbm, 70, rfl⟩
abbrev main_call5_cst : Ref sig .tc := ⟨.hbm, 71, rfl⟩
abbrev main_call5_v1 : Ref sig .tc := ⟨.hbm, 72, rfl⟩
abbrev main_call5_v2 : Ref sig .tc := ⟨.hbm, 73, rfl⟩
abbrev main_v16 : Ref sig .tc := ⟨.hbm, 74, rfl⟩
abbrev main_cst_4 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_cst_5 : Ref sig .tc := ⟨.hbm, 83, rfl⟩
abbrev main_v24 : Ref sig .tc := ⟨.hbm, 84, rfl⟩
abbrev main_cst_6 : Ref sig .tc := ⟨.hbm, 85, rfl⟩
abbrev main_v25 : Ref sig .tc := ⟨.hbm, 86, rfl⟩
abbrev main_v26 : Ref sig .tc := ⟨.hbm, 87, rfl⟩
abbrev main_cst_7 : Ref sig .tc := ⟨.hbm, 88, rfl⟩
abbrev main_v27 : Ref sig .tc := ⟨.hbm, 89, rfl⟩
abbrev main_cst_8 : Ref sig .tc := ⟨.hbm, 90, rfl⟩
abbrev main_v28 : Ref sig .tc := ⟨.hbm, 91, rfl⟩
abbrev main_cst_9 : Ref sig .tc := ⟨.hbm, 92, rfl⟩
abbrev main_v29 : Ref sig .tc := ⟨.hbm, 93, rfl⟩
abbrev main_cst_10 : Ref sig .tc := ⟨.hbm, 94, rfl⟩
abbrev main_v30 : Ref sig .tc := ⟨.hbm, 95, rfl⟩
abbrev main_v31 : Ref sig .tc := ⟨.hbm, 96, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  reducesTo_S2048x32000_S2048_d1 : S2048x32000.ReducesTo [1] S2048
  h_S_ : 0 < S_.numel
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  dot_S2048x2048_S32000x2048_S2048x32000_1_1_0_0_n_n_wf : DotDims.WF S2048x2048 S32000x2048 S2048x32000 [1] [1] [0] [0] [] []
  dot_S2048x4096_S32000x4096_S2048x32000_1_1_0_0_n_n_wf : DotDims.WF S2048x4096 S32000x4096 S2048x32000 [1] [1] [0] [0] [] []
  gather_S2048x32000_S2048x1x1_S2048x1_n_1_0_0_1_2_11_wf : GatherDims.WF S2048x32000 S2048x1x1 S2048x1 [] [1] [0] [1] [0] 2 ![1, 1]

variable [Facts₀]

def dot_S2048x2048_S32000x2048_S2048x32000_1_1_0_0_n_n : DotDims S2048x2048 S32000x2048 S2048x32000 where
  lhsContracting := [1]
  rhsContracting := [1]
  lhsNonContracting := [0]
  rhsNonContracting := [0]
  lhsBatch := []
  rhsBatch := []
  wf := dot_S2048x2048_S32000x2048_S2048x32000_1_1_0_0_n_n_wf
def dot_S2048x4096_S32000x4096_S2048x32000_1_1_0_0_n_n : DotDims S2048x4096 S32000x4096 S2048x32000 where
  lhsContracting := [1]
  rhsContracting := [1]
  lhsNonContracting := [0]
  rhsNonContracting := [0]
  lhsBatch := []
  rhsBatch := []
  wf := dot_S2048x4096_S32000x4096_S2048x32000_1_1_0_0_n_n_wf
def gather_S2048x32000_S2048x1x1_S2048x1_n_1_0_0_1_2_11 : GatherDims S2048x32000 S2048x1x1 S2048x1 where
  offsetDims := []
  collapsedSliceDims := [1]
  operandBatchingDims := [0]
  startIndicesBatchingDims := [0]
  startIndexMap := [1]
  indexVectorDim := 2
  sliceSizes := ![1, 1]
  wf := gather_S2048x32000_S2048x1x1_S2048x1_n_1_0_0_1_2_11_wf

class Facts : Prop extends Facts₀ where

variable [Facts]
-- ==== Proof.Spec.lean ====
/-
  The mathematics both programs compute, stated once over the extended reals and over no program.

  For a batch of 2048 rows, a vocabulary of 32000 columns, a student hidden size 2048 and a teacher hidden
  size 4096: the student and teacher logits of row `b` are the contractions `s b v = ∑ h, x b h · w v h`
  over the hidden axis. Per row the loss is half a cross-entropy term (`−log softmax(s b)` at the row's
  label, switched off where the label is the ignore value −100) plus half `1 − cos(s b, t b)`, the cosine
  taken with both norms clamped below by a small ε; the result is the mean of the row losses.

  One side (`rowLoss`, `fusedMean`) walks the vocabulary in 125 tiles of 256 columns and keeps six running
  statistics per row — the running maximum, the sum of exponentials rescaled to that maximum, the logit met
  at the label, and the three sums of squares and products — and reads the loss off them after the last
  tile. The other side (`ceRow`, `cosRow`, `plainMean`) takes each statistic over the whole row at once and
  averages the two terms separately.
-/
import Idealize.ShloMosaic.PureOps.Ideal
import Idealize.ShloMosaic.Lib.ValueIdx

noncomputable section

namespace Cert.Distill

open Idealize.ShloMosaic Idealize.ShloMosaic.ValueIdx

/-- Vocabulary column `k · 256 + j`: position `j` of tile `k` (total in `k`; for `k < 125` no wrap happens). -/
def col (k : ℕ) (j : Fin 256) : Fin 32000 := ⟨(k * 256 + j.val) % 32000, Nat.mod_lt _ (by norm_num)⟩

/-- Batch row `i · 512 + p`: row `p` of row block `i` (total in `i`; for `i < 4` no wrap happens). -/
def row (i : ℕ) (p : Fin 512) : Fin 2048 := ⟨(i * 512 + p.val) % 2048, Nat.mod_lt _ (by norm_num)⟩

/-- The column a label word names (total; for a word below 32000 it is the word itself). -/
def labelCol (w : BitVec 32) : Fin 32000 := ⟨w.toNat % 32000, Nat.mod_lt _ (by norm_num)⟩

/-- The ignore label, −100 as a 32-bit word. -/
def ignoreWord : BitVec 32 := 4294967196#32

/-- The logit of batch row `b` against vocabulary row `v`: the contraction over the hidden axis. -/
def logit {K : ℕ} (x : (⟨2, ![2048, K]⟩ : Shape).Idx → EReal) (w : (⟨2, ![32000, K]⟩ : Shape).Idx → EReal)
    (b : Fin 2048) (v : Fin 32000) : EReal :=
  ∑ h : Fin K, x (ix2 b h) * w (ix2 v h)

/-- The constants, as the words both programs carry. -/
def eps : EReal := Ideal.ofBits .f32 0x2B8CBCCC#32
def half : EReal := Ideal.ofBits .f32 0x3F000000#32
def one : EReal := Ideal.ofBits .f32 0x3F800000#32
def count : EReal := Ideal.ofBits .f32 0x45000000#32

/-- 1 where the label is a class, 0 where it is the ignore value. -/
def validF (w : BitVec 32) : EReal := if w = ignoreWord then 0 else 1

/-- A row's six running statistics. -/
structure Stats where
  /-- the running maximum of the student logits -/
  mx : EReal
  /-- the running sum of `exp (logit − mx)` -/
  se : EReal
  /-- the student logit at the label, accumulated -/
  tg : EReal
  /-- the running sum of squared student logits -/
  ss : EReal
  /-- the running sum of squared teacher logits -/
  tt : EReal
  /-- the running sum of products of student and teacher logits -/
  st : EReal

/-- Before the first tile: maximum −∞, every sum zero. -/
def Stats.init : Stats := ⟨⊥, 0, 0, 0, 0, 0⟩

/-- One tile of 256 columns folded in: `s`, `t` its student and teacher logits, `hit j` whether column `j`
    of the tile is the row's label. The old sum of exponentials is rescaled from the old maximum to the new. -/
def Stats.step (s t : Fin 256 → EReal) (hit : Fin 256 → Bool) (σ : Stats) : Stats :=
  { mx := max σ.mx ((Finset.univ : Finset (Fin 256)).fold max ⊥ s)
    se := σ.se * Ideal.exp (σ.mx - max σ.mx ((Finset.univ : Finset (Fin 256)).fold max ⊥ s))
            + ∑ j, Ideal.exp (s j - max σ.mx ((Finset.univ : Finset (Fin 256)).fold max ⊥ s))
    tg := σ.tg + ∑ j, if hit j then s j else 0
    ss := σ.ss + ∑ j, s j * s j
    tt := σ.tt + ∑ j, t j * t j
    st := σ.st + ∑ j, s j * t j }

/-- The statistics after the first `k` tiles. -/
def stats (S T : ℕ → Fin 256 → EReal) (H : ℕ → Fin 256 → Bool) : ℕ → Stats
  | 0 => Stats.init
  | k + 1 => (stats S T H k).step (S k) (T k) (H k)

/-- The row loss read off the statistics: `½ · (−(tg − mx − log se)) · valid + ½ · (1 − st / (max √ss ε · max √tt ε))`. -/
def Stats.loss (σ : Stats) (valid : EReal) : EReal :=
  half * ((0 - ((σ.tg - σ.mx) - Ideal.log σ.se)) * valid)
    + half * (one - Ideal.div σ.st (max (Ideal.sqrt σ.ss) eps * max (Ideal.sqrt σ.tt) eps))

section
variable (x : (⟨2, ![2048, 2048]⟩ : Shape).Idx → EReal) (ws : (⟨2, ![32000, 2048]⟩ : Shape).Idx → EReal)
  (y : (⟨2, ![2048, 4096]⟩ : Shape).Idx → EReal) (wt : (⟨2, ![32000, 4096]⟩ : Shape).Idx → EReal)
  (lab : (⟨1, ![2048]⟩ : Shape).Idx → BitVec 32)

/-- The tiled side's loss of row `b`: the statistics after all 125 tiles, read off. -/
def rowLoss (b : Fin 2048) : EReal :=
  (stats (fun k j => logit x ws b (col k j)) (fun k j => logit y wt b (col k j))
    (fun k j => decide (BitVec.ofNat 32 (k * 256 + j.val) = lab (ix1 b))) 125).loss (validF (lab (ix1 b)))

/-- The tiled side's result: the mean of the row losses. -/
def fusedMean : EReal := Ideal.div (∑ b : Fin 2048, rowLoss x ws y wt lab b) count

/-- A row's maximum, as the fold of `max` from −∞. -/
def rowMax (s : Fin 32000 → EReal) : EReal := (Finset.univ : Finset (Fin 32000)).fold max ⊥ s

/-- The whole-row cross-entropy term: `−log softmax(s)` at the label's column, 0 where the label is ignored. -/
def ceRow (s : Fin 32000 → EReal) (w : BitVec 32) : EReal :=
  if w = ignoreWord then 0
  else -((s (labelCol w) - rowMax s) - Ideal.log (∑ v, Ideal.exp (s v - rowMax s)))

/-- The whole-row cosine term: `1 − ∑ v, (s v / max ‖s‖ ε) · (t v / max ‖t‖ ε)`. -/
def cosRow (s t : Fin 32000 → EReal) : EReal :=
  one - ∑ v, Ideal.div (s v) (max (Ideal.sqrt (∑ u, s u * s u)) eps)
            * Ideal.div (t v) (max (Ideal.sqrt (∑ u, t u * t u)) eps)

/-- The whole-row side's result: half the mean cross-entropy term plus half the mean cosine term. -/
def plainMean : EReal :=
  half * Ideal.div (∑ b : Fin 2048, ceRow (logit x ws b) (lab (ix1 b))) count
    + half * Ideal.div (∑ b : Fin 2048, cosRow (logit x ws b) (logit y wt b)) count

end

end Cert.Distill

end
-- ==== Proof.RowClosed.lean ====
/-
  A row's six running statistics, folded tile by tile, are the whole-row quantities when every logit is a
  real number.

  Three ingredients. (1) Tiles to the whole row: for k < 125 the column k · 256 + j is below 32000, so
  (k, j) ↦ col k j is a bijection of 125 × 256 pairs onto the 32000 columns; a sum, or a maximum, taken tile
  by tile is the sum, or the maximum, over the row. (2) The four plain sums only accumulate, so after k tiles
  each is the double sum over the first k tiles. (3) The running maximum after at least one tile is a real
  number m, and the running sum of exponentials is the real number Σ exp (s − m) over the tiles met so far:
  passing from m to m' = max m c multiplies every old term by exp (m − m'), and
  exp (s − m) · exp (m − m') = exp (s − m'); before the first tile the maximum is −∞ and the sum is 0, and
  0 · exp (−∞ − c) = 0. The label's statistic is a sum of an indicator: a word below 32000 is met by exactly
  one column, the ignore word by none.
-/
import proofs.«400147_j50714973831635_2_alg».proof.Proof.Spec
import Mathlib.Data.EReal.Operations
import Mathlib.Data.Finset.Fold
import Mathlib.Data.Finset.Lattice.Fold
import Mathlib.Data.Finset.Range
import Mathlib.Data.Fintype.EquivFin
import Mathlib.Data.Fintype.BigOperators
import Mathlib.Order.MinMax
import Mathlib.Algebra.BigOperators.Group.Finset.Basic
import Mathlib.Algebra.BigOperators.Fin
import Mathlib.Algebra.BigOperators.Ring.Finset
import Mathlib.Algebra.BigOperators.Group.Finset.Piecewise
import Mathlib.Analysis.Complex.Exponential

noncomputable section

namespace Cert.Distill

open Idealize.ShloMosaic Finset

namespace RowStats

/-! ### Tiles to the whole row -/

/-- Below tile 125 the column index does not wrap. -/
theorem col_val {k : ℕ} (hk : k < 125) (j : Fin 256) : (col k j).val = k * 256 + j.val := by
  have hj := j.isLt
  show (k * 256 + j.val) % 32000 = k * 256 + j.val
  exact Nat.mod_eq_of_lt (by omega)

/-- The pairs (tile, position) are in bijection with the columns. -/
theorem tile_bijective : Function.Bijective (fun p : Fin 125 × Fin 256 => col p.1.val p.2) := by
  rw [Fintype.bijective_iff_injective_and_card]
  refine ⟨?_, by simp⟩
  rintro ⟨k, j⟩ ⟨k', j'⟩ h
  have h1 := congrArg Fin.val h
  simp only [col_val k.isLt, col_val k'.isLt] at h1
  have hj := j.isLt
  have hj' := j'.isLt
  refine Prod.ext (Fin.ext ?_) (Fin.ext ?_) <;> simp only <;> omega

/-- A sum taken tile by tile is the sum over the row. -/
theorem sum_tiles {M : Type*} [AddCommMonoid M] (f : Fin 32000 → M) :
    ∑ k ∈ range 125, ∑ j : Fin 256, f (col k j) = ∑ v, f v := by
  rw [← Fin.sum_univ_eq_sum_range (fun k => ∑ j : Fin 256, f (col k j)) 125, ← Fintype.sum_prod_type']
  exact Fintype.sum_bijective _ tile_bijective _ _ (fun _ => rfl)

/-- A maximum taken tile by tile is the maximum over the row. -/
theorem max_tiles (f : Fin 32000 → EReal) :
    (range 125).fold max ⊥ (fun k => (univ : Finset (Fin 256)).fold max ⊥ (fun j => f (col k j)))
      = rowMax f := by
  apply le_antisymm
  · rw [fold_max_le]
    refine ⟨bot_le, fun k _ => ?_⟩
    rw [fold_max_le]
    refine ⟨bot_le, fun j _ => ?_⟩
    exact (le_fold_max _).2 (Or.inr ⟨_, mem_univ _, le_rfl⟩)
  · rw [rowMax, fold_max_le]
    refine ⟨bot_le, fun v _ => ?_⟩
    have hv := v.isLt
    have hcol : col (v.val / 256) ⟨v.val % 256, Nat.mod_lt _ (by norm_num)⟩ = v := by
      apply Fin.ext
      rw [col_val (by omega)]
      show v.val / 256 * 256 + v.val % 256 = v.val
      omega
    refine (le_fold_max _).2 (Or.inr ⟨v.val / 256, mem_range.2 (by omega), ?_⟩)
    refine (le_fold_max _).2 (Or.inr ⟨⟨v.val % 256, Nat.mod_lt _ (by norm_num)⟩, mem_univ _, ?_⟩)
    rw [hcol]

/-! ### The statistics that only accumulate -/

section Plain
variable (S T : ℕ → Fin 256 → EReal) (H : ℕ → Fin 256 → Bool)

theorem stats_mx (k : ℕ) :
    (stats S T H k).mx = (range k).fold max ⊥ (fun i => (univ : Finset (Fin 256)).fold max ⊥ (S i)) := by
  induction k with
  | zero => rfl
  | succ k ih =>
    rw [range_add_one, fold_insert notMem_range_self, ← ih, max_comm]
    rfl

theorem stats_tg (k : ℕ) :
    (stats S T H k).tg = ∑ i ∈ range k, ∑ j, if H i j then S i j else 0 := by
  induction k with
  | zero => rfl
  | succ k ih => rw [sum_range_succ, ← ih]; rfl

theorem stats_ss (k : ℕ) : (stats S T H k).ss = ∑ i ∈ range k, ∑ j, S i j * S i j := by
  induction k with
  | zero => rfl
  | succ k ih => rw [sum_range_succ, ← ih]; rfl

theorem stats_tt (k : ℕ) : (stats S T H k).tt = ∑ i ∈ range k, ∑ j, T i j * T i j := by
  induction k with
  | zero => rfl
  | succ k ih => rw [sum_range_succ, ← ih]; rfl

theorem stats_st (k : ℕ) : (stats S T H k).st = ∑ i ∈ range k, ∑ j, S i j * T i j := by
  induction k with
  | zero => rfl
  | succ k ih => rw [sum_range_succ, ← ih]; rfl

end Plain

/-! ### The label -/

theorem ignoreWord_toNat : ignoreWord.toNat = 4294967196 := rfl

/-- The indicator of the label picks the label's column, or nothing for the ignore word. -/
theorem label_sum (g : Fin 32000 → EReal) (w : BitVec 32) (hw : w.toNat < 32000 ∨ w = ignoreWord) :
    ∑ v : Fin 32000, (if BitVec.ofNat 32 v.val = w then g v else 0)
      = if w = ignoreWord then 0 else g (labelCol w) := by
  rcases hw with hw | hw
  · have hne : w ≠ ignoreWord := by
      intro h
      rw [h, ignoreWord_toNat] at hw
      omega
    have key : ∀ v : Fin 32000, BitVec.ofNat 32 v.val = w ↔ v = labelCol w := by
      intro v
      have hv := v.isLt
      constructor
      · intro h
        have h1 := congrArg BitVec.toNat h
        rw [BitVec.toNat_ofNat, Nat.mod_eq_of_lt (by omega)] at h1
        apply Fin.ext
        show v.val = w.toNat % 32000
        omega
      · intro h
        rw [h]
        show BitVec.ofNat 32 (w.toNat % 32000) = w
        rw [Nat.mod_eq_of_lt hw]
        exact BitVec.eq_of_toNat_eq (by rw [BitVec.toNat_ofNat]; exact Nat.mod_eq_of_lt w.isLt)
    rw [if_neg hne]
    simp only [key]
    rw [sum_ite_eq' univ (labelCol w) g, if_pos (mem_univ _)]
  · subst hw
    rw [if_pos rfl]
    apply sum_eq_zero
    intro v _
    have hv := v.isLt
    rw [if_neg]
    intro h
    have h1 := congrArg BitVec.toNat h
    rw [BitVec.toNat_ofNat, Nat.mod_eq_of_lt (by omega), ignoreWord_toNat] at h1
    omega

/-! ### The running maximum and the rescaled sum of exponentials -/

/-- The coercion of a finite sum of reals. -/
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- The maximum of a tile of reals is a real. -/
theorem tile_max_real (a : Fin 256 → ℝ) :
    ∃ c : ℝ, (univ : Finset (Fin 256)).fold max ⊥ (fun j => (a j : EReal)) = (c : EReal) := by
  have hne : (univ : Finset (Fin 256)).Nonempty := ⟨0, mem_univ _⟩
  refine ⟨univ.sup' hne a, le_antisymm ?_ ?_⟩
  · rw [fold_max_le]
    exact ⟨bot_le, fun j hj => EReal.coe_le_coe_iff.2 (le_sup' a hj)⟩
  · obtain ⟨i, hi, h⟩ := exists_mem_eq_sup' hne a
    rw [h]
    exact (le_fold_max _).2 (Or.inr ⟨i, hi, le_rfl⟩)

/-- The first tile: from maximum −∞ and sum 0. -/
theorem step_init (a : Fin 256 → ℝ) (t : Fin 256 → EReal) (hit : Fin 256 → Bool) (c : ℝ)
    (hc : (univ : Finset (Fin 256)).fold max ⊥ (fun j => (a j : EReal)) = (c : EReal)) :
    (Stats.init.step (fun j => (a j : EReal)) t hit).mx = (c : EReal)
    ∧ (Stats.init.step (fun j => (a j : EReal)) t hit).se = ((∑ j, Real.exp (a j - c) : ℝ) : EReal) := by
  constructor
  · show max ⊥ _ = _
    rw [hc, max_bot_left]
  · show (0 : EReal) * Ideal.exp (⊥ - max ⊥ _) + ∑ j, Ideal.exp ((a j : EReal) - max ⊥ _) = _
    rw [hc, max_bot_left, zero_mul, zero_add, coe_sum]
    refine sum_congr rfl fun j _ => ?_
    rw [← EReal.coe_sub, Ideal.exp_coe]

/-- A later tile: from a real maximum m and a real sum A. -/
theorem step_real (a : Fin 256 → ℝ) (t : Fin 256 → EReal) (hit : Fin 256 → Bool) (σ : Stats) (m A c : ℝ)
    (hm : σ.mx = (m : EReal)) (hA : σ.se = (A : EReal))
    (hc : (univ : Finset (Fin 256)).fold max ⊥ (fun j => (a j : EReal)) = (c : EReal)) :
    (σ.step (fun j => (a j : EReal)) t hit).mx = ((max m c : ℝ) : EReal)
    ∧ (σ.step (fun j => (a j : EReal)) t hit).se
        = ((A * Real.exp (m - max m c) + ∑ j, Real.exp (a j - max m c) : ℝ) : EReal) := by
  have hmax : max (m : EReal) (c : EReal) = ((max m c : ℝ) : EReal) :=
    (EReal.coe_strictMono.monotone.map_max).symm
  constructor
  · show max σ.mx _ = _
    rw [hc, hm, hmax]
  · show σ.se * Ideal.exp (σ.mx - max σ.mx _) + ∑ j, Ideal.exp ((a j : EReal) - max σ.mx _) = _
    rw [hc, hm, hA, hmax, EReal.coe_add, EReal.coe_mul, coe_sum, ← EReal.coe_sub, Ideal.exp_coe]
    refine congrArg (_ + ·) (sum_congr rfl fun j _ => ?_)
    rw [← EReal.coe_sub, Ideal.exp_coe]

/-- After at least one tile the maximum is a real m and the sum of exponentials is Σ exp (s − m) over the
    tiles met. -/
theorem stats_se (a : ℕ → Fin 256 → ℝ) (T : ℕ → Fin 256 → EReal) (H : ℕ → Fin 256 → Bool) (k : ℕ) :
    ∃ m : ℝ, (stats (fun i j => (a i j : EReal)) T H (k + 1)).mx = (m : EReal)
      ∧ (stats (fun i j => (a i j : EReal)) T H (k + 1)).se
          = ((∑ i ∈ range (k + 1), ∑ j, Real.exp (a i j - m) : ℝ) : EReal) := by
  induction k with
  | zero =>
    obtain ⟨c, hc⟩ := tile_max_real (a 0)
    have h := step_init (a 0) (T 0) (H 0) c hc
    refine ⟨c, h.1, h.2.trans (congrArg Real.toEReal ?_)⟩
    simp only [sum_range_succ, sum_range_zero, zero_add]
  | succ k ih =>
    obtain ⟨m, hm, hA⟩ := ih
    obtain ⟨c, hc⟩ := tile_max_real (a (k + 1))
    have h := step_real (a (k + 1)) (T (k + 1)) (H (k + 1)) _ m _ c hm hA hc
    refine ⟨max m c, h.1, ?_⟩
    refine h.2.trans (congrArg Real.toEReal ?_)
    rw [sum_range_succ _ (k + 1), sum_mul]
    congr 1
    refine sum_congr rfl fun i _ => ?_
    rw [sum_mul]
    refine sum_congr rfl fun j _ => ?_
    rw [← Real.exp_add]
    congr 1
    ring

end RowStats

/-! ### The six statistics of a row of reals -/

open RowStats in
theorem stats_closed (s t : Fin 32000 → ℝ) (w : BitVec 32) (hw : w.toNat < 32000 ∨ w = ignoreWord) :
    let σ := stats (fun k j => ((s (col k j) : ℝ) : EReal)) (fun k j => ((t (col k j) : ℝ) : EReal)) (fun k j => decide (BitVec.ofNat 32 (k * 256 + j.val) = w)) 125
    σ.mx = rowMax (fun v => ((s v : ℝ) : EReal))
    ∧ σ.se = ∑ v, Ideal.exp (((s v : ℝ) : EReal) - rowMax (fun v => ((s v : ℝ) : EReal)))
    ∧ σ.tg = (if w = ignoreWord then 0 else ((s (labelCol w) : ℝ) : EReal))
    ∧ σ.ss = ∑ v, ((s v : ℝ) : EReal) * ((s v : ℝ) : EReal)
    ∧ σ.tt = ∑ v, ((t v : ℝ) : EReal) * ((t v : ℝ) : EReal)
    ∧ σ.st = ∑ v, ((s v : ℝ) : EReal) * ((t v : ℝ) : EReal) := by
  intro σ
  have hmx : σ.mx = rowMax (fun v => ((s v : ℝ) : EReal)) :=
    (stats_mx _ _ _ 125).trans (max_tiles (fun v => ((s v : ℝ) : EReal)))
  refine ⟨hmx, ?_, ?_, ?_, ?_, ?_⟩
  · obtain ⟨m, hm, hse⟩ := stats_se (fun k j => s (col k j)) (fun k j => ((t (col k j) : ℝ) : EReal))
      (fun k j => decide (BitVec.ofNat 32 (k * 256 + j.val) = w)) 124
    have hrow : rowMax (fun v => ((s v : ℝ) : EReal)) = (m : EReal) := hmx.symm.trans hm
    rw [hrow, ← sum_tiles (fun v => Ideal.exp (((s v : ℝ) : EReal) - (m : EReal)))]
    refine hse.trans ?_
    rw [coe_sum]
    refine sum_congr rfl fun i _ => ?_
    rw [coe_sum]
    refine sum_congr rfl fun j _ => ?_
    rw [← EReal.coe_sub, Ideal.exp_coe]
  · rw [← label_sum (fun v => ((s v : ℝ) : EReal)) w hw,
      ← sum_tiles (fun v => if BitVec.ofNat 32 v.val = w then ((s v : ℝ) : EReal) else 0)]
    refine (stats_tg _ _ _ 125).trans (sum_congr rfl fun i hi => sum_congr rfl fun j _ => ?_)
    rw [col_val (mem_range.1 hi)]
    simp only [decide_eq_true_eq]
  · exact (stats_ss _ _ _ 125).trans (sum_tiles (fun v => ((s v : ℝ) : EReal) * ((s v : ℝ) : EReal)))
  · exact (stats_tt _ _ _ 125).trans (sum_tiles (fun v => ((t v : ℝ) : EReal) * ((t v : ℝ) : EReal)))
  · exact (stats_st _ _ _ 125).trans (sum_tiles (fun v => ((s v : ℝ) : EReal) * ((t v : ℝ) : EReal)))

end Cert.Distill

end
-- ==== Proof.MeanAlgebra.lean ====
/-
  The tiled mean equals the whole-row mean, given the closed form of a row's statistics.

  With every input entry a real number every logit is a real. A row whose six statistics are the
  whole-row maximum, the sum of exponentials relative to it, the logit at the label and the three sums of
  squares and products has loss half the whole-row cross-entropy term plus half the whole-row cosine
  term: the validity factor 1 leaves 0 − X = −X and the factor 0 gives 0; the two clamped norms are
  positive reals, so dividing the sum of products by their product is summing the products of the
  normalised entries. The factors ½ and 1/2048 are nonnegative reals, and such a factor distributes over
  any sum of extended reals, so the mean of the sums is the sum of the means.
-/
import proofs.«400147_j50714973831635_2_alg».proof.Proof.Spec
import Mathlib.Data.EReal.Operations
import Mathlib.Algebra.BigOperators.Ring.Finset
import Mathlib.Algebra.Order.BigOperators.Group.Finset
import Mathlib.Tactic.FieldSimp
import Mathlib.Tactic.Positivity
import Mathlib.Tactic.Choose

noncomputable section

namespace Cert.Distill

open Idealize.ShloMosaic Idealize.ShloMosaic.ValueIdx

open scoped BigOperators

/-! ### Real numbers inside the extended reals -/

/-- The embedding of the reals commutes with a finite sum. -/
theorem coe_sum_real {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A nonnegative real factor moves through a finite sum of extended reals: multiplying by it never
    turns a defined sum into a difference of infinities. -/
theorem coe_mul_sum_of_nonneg {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-! ### The constants -/

/-- The constant one half is the real 1/2: significand 2²³ at exponent −24. -/
theorem half_eq : half = ((1 / 2 : ℝ) : EReal) := by
  simp [half, Ideal.ofBits, Ideal.ieee]
  exact_mod_cast (by norm_num : (8388608 : ℝ) * (2 ^ 24)⁻¹ = 2⁻¹)

/-- The row count is the real 2048: significand 2²³ at exponent −12. -/
theorem count_eq : count = ((2048 : ℝ) : EReal) := by
  simp [count, Ideal.ofBits, Ideal.ieee]
  exact_mod_cast (by norm_num : (8388608 : ℝ) * (2 ^ 12)⁻¹ = 2048)

/-- The clamp ε is a positive real: the dyadic rational 9223372 / 2⁶³. -/
theorem eps_pos_real : ∃ e : ℝ, 0 < e ∧ eps = (e : EReal) := by
  refine ⟨9223372 * (2 ^ 63)⁻¹, by positivity, ?_⟩
  simp [eps, Ideal.ofBits, Ideal.ieee]

/-! ### The logits are reals -/

/-- With real inputs every logit is a real: a finite sum of products of reals. -/
theorem logit_real {K : ℕ} (x : (⟨2, ![2048, K]⟩ : Shape).Idx → EReal)
    (w : (⟨2, ![32000, K]⟩ : Shape).Idx → EReal)
    (hx : ∀ i, ∃ r : ℝ, x i = (r : EReal)) (hw : ∀ i, ∃ r : ℝ, w i = (r : EReal)) :
    ∃ S : Fin 2048 → Fin 32000 → ℝ, ∀ b v, logit x w b v = ((S b v : ℝ) : EReal) := by
  choose xr hxr using hx
  choose wr hwr using hw
  refine ⟨fun b v => ∑ h : Fin K, xr (ix2 b h) * wr (ix2 v h), fun b v => ?_⟩
  unfold logit
  rw [coe_sum_real]
  exact Finset.sum_congr rfl fun h _ => by rw [hxr, hwr, EReal.coe_mul]

/-! ### The cosine term -/

/-- A sum of products of reals, taken in the extended reals, is the real sum. -/
theorem sum_coe_mul_coe {ι : Type*} [Fintype ι] (s t : ι → ℝ) :
    (∑ v, ((s v : ℝ) : EReal) * ((t v : ℝ) : EReal)) = ((∑ v, s v * t v : ℝ) : EReal) := by
  rw [coe_sum_real]
  exact Finset.sum_congr rfl fun v _ => (EReal.coe_mul _ _).symm

/-- The clamped norm of a real row is a positive real: the sum of squares is a nonnegative real, so its
    root is a real, and the maximum with the positive ε is positive. -/
theorem clamped_norm_real {ι : Type*} [Fintype ι] (s : ι → ℝ) :
    ∃ a : ℝ, 0 < a ∧
      max (Ideal.sqrt (∑ v, ((s v : ℝ) : EReal) * ((s v : ℝ) : EReal))) eps = (a : EReal) := by
  obtain ⟨e, he, hE⟩ := eps_pos_real
  have h0 : 0 ≤ ∑ v, s v * s v := Finset.sum_nonneg fun v _ => mul_self_nonneg (s v)
  refine ⟨max (Real.sqrt (∑ v, s v * s v)) e, lt_max_of_lt_right he, ?_⟩
  rw [sum_coe_mul_coe, Ideal.sqrt_coe, if_neg (not_lt.mpr h0), hE]
  exact (EReal.coe_strictMono.monotone.map_max).symm

/-- Dividing the sum of products by the product of the two clamped norms is summing the products of the
    normalised entries: both norms are positive reals, so this is distributivity over the reals. -/
theorem cos_term (s t : Fin 32000 → ℝ) :
    Ideal.div (∑ v, ((s v : ℝ) : EReal) * ((t v : ℝ) : EReal))
        (max (Ideal.sqrt (∑ v, ((s v : ℝ) : EReal) * ((s v : ℝ) : EReal))) eps
          * max (Ideal.sqrt (∑ v, ((t v : ℝ) : EReal) * ((t v : ℝ) : EReal))) eps)
      = ∑ v, Ideal.div ((s v : ℝ) : EReal)
                (max (Ideal.sqrt (∑ u, ((s u : ℝ) : EReal) * ((s u : ℝ) : EReal))) eps)
            * Ideal.div ((t v : ℝ) : EReal)
                (max (Ideal.sqrt (∑ u, ((t u : ℝ) : EReal) * ((t u : ℝ) : EReal))) eps) := by
  obtain ⟨a, ha, hA⟩ := clamped_norm_real s
  obtain ⟨b, hb, hB⟩ := clamped_norm_real t
  rw [hA, hB, ← EReal.coe_mul, Ideal.div_coe (mul_pos ha hb).ne', sum_coe_mul_coe, ← EReal.coe_mul,
    Finset.sum_mul, coe_sum_real]
  refine Fintype.sum_congr _ _ fun v => ?_
  rw [Ideal.div_coe ha.ne', Ideal.div_coe hb.ne', ← EReal.coe_mul, ← EReal.coe_mul, ← EReal.coe_mul]
  exact congrArg Real.toEReal (by field_simp)

/-! ### The cross-entropy term -/

/-- The statistics' cross-entropy expression times the validity factor is the whole-row term: where the
    label is ignored the factor is 0 and so is the product; elsewhere the factor is 1 and 0 − X = −X. -/
theorem ce_term (s : Fin 32000 → EReal) (w : BitVec 32) :
    (0 - (((if w = ignoreWord then 0 else s (labelCol w)) - rowMax s)
        - Ideal.log (∑ v, Ideal.exp (s v - rowMax s)))) * validF w = ceRow s w := by
  unfold ceRow validF
  by_cases h : w = ignoreWord
  · simp only [if_pos h, mul_zero]
  · simp only [if_neg h, mul_one, zero_sub]

/-! ### One row -/

/-- A row whose six statistics have their closed forms has loss half the whole-row cross-entropy term
    plus half the whole-row cosine term. -/
theorem loss_closed (s t : Fin 32000 → ℝ) (w : BitVec 32) (σ : Stats)
    (h : σ.mx = rowMax (fun v => ((s v : ℝ) : EReal))
      ∧ σ.se = ∑ v, Ideal.exp (((s v : ℝ) : EReal) - rowMax (fun v => ((s v : ℝ) : EReal)))
      ∧ σ.tg = (if w = ignoreWord then 0 else ((s (labelCol w) : ℝ) : EReal))
      ∧ σ.ss = ∑ v, ((s v : ℝ) : EReal) * ((s v : ℝ) : EReal)
      ∧ σ.tt = ∑ v, ((t v : ℝ) : EReal) * ((t v : ℝ) : EReal)
      ∧ σ.st = ∑ v, ((s v : ℝ) : EReal) * ((t v : ℝ) : EReal)) :
    σ.loss (validF w) = half * ceRow (fun v => ((s v : ℝ) : EReal)) w
      + half * cosRow (fun v => ((s v : ℝ) : EReal)) (fun v => ((t v : ℝ) : EReal)) := by
  obtain ⟨h1, h2, h3, h4, h5, h6⟩ := h
  have hce := ce_term (fun v => ((s v : ℝ) : EReal)) w
  beta_reduce at hce
  unfold Stats.loss cosRow
  rw [h1, h2, h3, h4, h5, h6, cos_term, hce]

/-! ### The mean -/

/-- The mean of the sums is the sum of the means: the factors ½ and 1/2048 are nonnegative reals, and
    a nonnegative real factor distributes over any sum of extended reals. -/
theorem mean_split (h c : Fin 2048 → EReal) :
    Ideal.div (∑ b, (half * h b + half * c b)) count
      = half * Ideal.div (∑ b, h b) count + half * Ideal.div (∑ b, c b) count := by
  have h2048 : (2048 : ℝ) ≠ 0 := by norm_num
  have hk : (0 : EReal) ≤ ((1 / 2048 : ℝ) : EReal) := by
    exact_mod_cast (by norm_num : (0 : ℝ) ≤ 1 / 2048)
  have hh : (0 : ℝ) ≤ 1 / 2 := by norm_num
  rw [count_eq, Ideal.div_coe h2048, Ideal.div_coe h2048, Ideal.div_coe h2048, half_eq,
    Finset.sum_add_distrib, ← coe_mul_sum_of_nonneg _ _ hh, ← coe_mul_sum_of_nonneg _ _ hh,
    EReal.right_distrib_of_nonneg_of_ne_top hk (EReal.coe_ne_top _), mul_assoc, mul_assoc]

/-! ### The two sides agree -/

/-- The tiled mean equals the whole-row mean. Every logit is a real; each row's statistics have their
    closed forms, so its loss is half the cross-entropy term plus half the cosine term; and the mean of
    those sums is the sum of the two means. -/
theorem fusedMean_eq_plainMean (x : (⟨2, ![2048, 2048]⟩ : Shape).Idx → EReal)
    (ws : (⟨2, ![32000, 2048]⟩ : Shape).Idx → EReal) (y : (⟨2, ![2048, 4096]⟩ : Shape).Idx → EReal)
    (wt : (⟨2, ![32000, 4096]⟩ : Shape).Idx → EReal) (lab : (⟨1, ![2048]⟩ : Shape).Idx → BitVec 32)
    (hx : ∀ i, ∃ r : ℝ, x i = (r : EReal)) (hws : ∀ i, ∃ r : ℝ, ws i = (r : EReal))
    (hy : ∀ i, ∃ r : ℝ, y i = (r : EReal)) (hwt : ∀ i, ∃ r : ℝ, wt i = (r : EReal))
    (hlab : ∀ b : Fin 2048, (lab (ix1 b)).toNat < 32000 ∨ lab (ix1 b) = ignoreWord)
    (hclosed : ∀ (s t : Fin 32000 → ℝ) (w : BitVec 32), (w.toNat < 32000 ∨ w = ignoreWord) →
      let σ := stats (fun k j => ((s (col k j) : ℝ) : EReal)) (fun k j => ((t (col k j) : ℝ) : EReal))
        (fun k j => decide (BitVec.ofNat 32 (k * 256 + j.val) = w)) 125
      σ.mx = rowMax (fun v => ((s v : ℝ) : EReal))
      ∧ σ.se = ∑ v, Ideal.exp (((s v : ℝ) : EReal) - rowMax (fun v => ((s v : ℝ) : EReal)))
      ∧ σ.tg = (if w = ignoreWord then 0 else ((s (labelCol w) : ℝ) : EReal))
      ∧ σ.ss = ∑ v, ((s v : ℝ) : EReal) * ((s v : ℝ) : EReal)
      ∧ σ.tt = ∑ v, ((t v : ℝ) : EReal) * ((t v : ℝ) : EReal)
      ∧ σ.st = ∑ v, ((s v : ℝ) : EReal) * ((t v : ℝ) : EReal)) :
    fusedMean x ws y wt lab = plainMean x ws y wt lab := by
  obtain ⟨S, hS⟩ := logit_real x ws hx hws
  obtain ⟨T, hT⟩ := logit_real y wt hy hwt
  have hrow : ∀ b : Fin 2048, rowLoss x ws y wt lab b
      = half * ceRow (logit x ws b) (lab (ix1 b)) + half * cosRow (logit x ws b) (logit y wt b) := by
    intro b
    have hs : logit x ws b = fun v => ((S b v : ℝ) : EReal) := funext (hS b)
    have ht : logit y wt b = fun v => ((T b v : ℝ) : EReal) := funext (hT b)
    unfold rowLoss
    rw [hs, ht]
    exact loss_closed (S b) (T b) (lab (ix1 b)) _ (hclosed (S b) (T b) (lab (ix1 b)) (hlab b))
  unfold fusedMean plainMean
  rw [Fintype.sum_congr _ _ hrow]
  exact mean_split _ _

end Cert.Distill

end
-- ==== Proof.PreFacts.lean ====
/-
  What the input precondition says, entry by entry.

  The precondition is a single truth value: the conjunction of five "for all entries" statements. Four of
  them say, of a float array, that every entry's absolute value is strictly below +∞; the fifth says, of the
  label vector, that every label is either a class number (0 ≤ label < 32000, read as a signed word) or the
  ignore value −100.

  Over the extended reals an entry is a point of [−∞, +∞] and its absolute value is max e (−e). That maximum is
  +∞ exactly at the two infinities, so "|e| < +∞" leaves only the real numbers. For a 32-bit word, being
  non-negative as a signed number means the top bit is clear, and then the signed and the unsigned readings
  coincide: a signed 0 ≤ w < 32000 is an unsigned w < 32000.

  From "the precondition is true" this module derives: every entry of each of the four float arrays is a real
  number, and every label word is below 32000 or is the ignore word.
-/
import proofs.«400147_j50714973831635_2_alg».proof.Pre_finite_inputs
import proofs.«400147_j50714973831635_2_alg».proof.Proof.Spec
import Idealize.ShloMosaic.Lib.ReduceAll
import Idealize.ShloMosaic.Lib.StableHlo.Predicate
import Idealize.ShloMosaic.Lib.ValueIdx

namespace Cert.Distill.Pre

open Idealize.ShloMosaic Idealize.ShloMosaic.ValueIdx

/-! ## One extended real -/

/-- An extended real whose absolute value max e (−e) is below +∞ is a real number: at −∞ the negation is +∞,
    at +∞ the point itself is, and in both cases the maximum is +∞. -/
theorem real_of_abs_lt_top (e : EReal) (h : max e (-e) < ⊤) : ∃ r : ℝ, e = (r : EReal) := by
  induction e using EReal.rec with
  | bot => simp at h
  | coe r => exact ⟨r, rfl⟩
  | top => simp at h

/-- The single-precision pattern with sign 0, exponent all ones and significand 0 denotes +∞. -/
theorem inf_word : Ideal.ofBits .f32 0x7F800000#32 = (⊤ : EReal) := by
  simp [Ideal.ofBits, Ideal.ieee]

/-! ## One float array -/

/-- If the conjunction over all entries of "|a i| < +∞" is true, then every entry of `a` is a real number. Stated
    for an array of any shape, reduced over whichever axes bring it down to a single truth value. -/
theorem real_of_all {s : Shape} {axes : List (Fin s.rank)} (a : FVec Ideal s .f32)
    (hb : (⟨0, ![]⟩ : Shape).BroadcastsInDim s (![] : Fin 0 → Fin s.rank))
    (hr : s.ReducesTo axes ⟨0, ![]⟩) (h0 : 0 < (⟨0, ![]⟩ : Shape).numel) (init : IVec ⟨0, ![]⟩ 1)
    (h : Host.reduce IntOp.andi
        (cmpf .olt (Host.absf a) (broadcastInDim s ![] hb (constant (F := Ideal) ⟨0, ![]⟩ .f32 0x7F800000#32)))
        init hr h0 ix0 = 1#1)
    (i : s.Idx) : ∃ r : ℝ, a i = (r : EReal) := by
  -- the result has a single position, so every entry of the array takes part in the conjunction
  have e := Host.reduce_andi_eq_one _ init hr h0 ix0 h i (funext fun d => d.elim0)
  -- at entry i the compared pair is |a i| and the constant, and the comparison is the order's
  have e' : BitVec.ofBool (decide (max (a i) (-(a i)) < Ideal.ofBits .f32 0x7F800000#32)) = 1#1 := e
  rw [inf_word, StableHlo.Predicate.ofBool_eq_one_iff, decide_eq_true_eq] at e'
  exact real_of_abs_lt_top _ e'

/-! ## One label word -/

/-- A word for which "(0 ≤ w and w < 32000, both signed) or w = −100" is true is below 32000 as an unsigned number,
    or is the ignore word. A signed w ≥ 0 has its top bit clear, so its signed value is its unsigned value. -/
theorem label_of_bits (w : BitVec 32)
    (h : IntOp.ori (IntOp.andi (IntOp.cmpi .sge w 0#32) (IntOp.cmpi .slt w 32000#32))
        (IntOp.cmpi .eq w 4294967196#32) = 1#1) :
    w.toNat < 32000 ∨ w = Cert.Distill.ignoreWord := by
  rcases IntOp.ori_eq_one.1 h with h1 | h2
  · left
    obtain ⟨ha, hb⟩ := IntOp.andi_eq_one.1 h1
    simp only [IntOp.cmpi, StableHlo.Predicate.ofBool_eq_one_iff, BitVec.sle, BitVec.slt, decide_eq_true_eq] at ha hb
    have e0 : (0#32 : BitVec 32).toInt = 0 := by decide
    have e1 : (32000#32 : BitVec 32).toInt = 32000 := by decide
    rw [e0] at ha
    rw [e1] at hb
    -- the signed value is the unsigned one below 2³¹ and the unsigned one minus 2³² from there on
    have hc := BitVec.toInt_eq_toNat_cond w
    split_ifs at hc <;> omega
  · right
    exact StableHlo.Predicate.cmpi_eq_iff.1 h2

/-! ## The precondition -/

/-- The precondition, true, gives: every entry of the student activations, the student weights, the teacher
    activations and the teacher weights is a real number, and every label is below 32000 or the ignore word. -/
theorem of_pre [Cert.Pre_finite_inputs.Facts] (x : FVec Ideal Cert.Pre_finite_inputs.S2048x2048 .f32) (ws : FVec Ideal Cert.Pre_finite_inputs.S32000x2048 .f32) (y : FVec Ideal Cert.Pre_finite_inputs.S2048x4096 .f32) (wt : FVec Ideal Cert.Pre_finite_inputs.S32000x4096 .f32) (lab : IVec Cert.Pre_finite_inputs.S2048 32)
    (h : Cert.Pre_finite_inputs.fn (F := Ideal) x ws y wt lab = fun _ => 1#1) :
    (∀ i, ∃ r : ℝ, x i = (r : EReal)) ∧ (∀ i, ∃ r : ℝ, ws i = (r : EReal)) ∧ (∀ i, ∃ r : ℝ, y i = (r : EReal)) ∧ (∀ i, ∃ r : ℝ, wt i = (r : EReal))
    ∧ (∀ b : Fin 2048, (lab (ValueIdx.ix1 b)).toNat < 32000 ∨ lab (ValueIdx.ix1 b) = Cert.Distill.ignoreWord) := by
  -- the truth value at its one position, written out as the conjunction ((((p₁ ∧ p₂) ∧ p₃) ∧ p₄) ∧ p₅)
  have h0 := congrFun h ix0
  dsimp only [Cert.Pre_finite_inputs.fn, Cert.Pre_finite_inputs.fn_part1] at h0
  obtain ⟨h1234, h5⟩ := IntOp.andi_eq_one.1 (show IntOp.andi _ _ = 1#1 from h0)
  obtain ⟨h123, h4⟩ := IntOp.andi_eq_one.1 (show IntOp.andi _ _ = 1#1 from h1234)
  obtain ⟨h12, h3⟩ := IntOp.andi_eq_one.1 (show IntOp.andi _ _ = 1#1 from h123)
  obtain ⟨h1, h2⟩ := IntOp.andi_eq_one.1 (show IntOp.andi _ _ = 1#1 from h12)
  refine ⟨real_of_all x _ _ _ _ h1, real_of_all ws _ _ _ _ h2, real_of_all y _ _ _ _ h3, real_of_all wt _ _ _ _ h4,
    fun b => ?_⟩
  -- the fifth conjunct at label b: the three comparisons against the constants 0, 32000 and −100
  have e := Host.reduce_andi_eq_one _ _ _ _ ix0 h5 (ix1 b) (funext fun d => d.elim0)
  exact label_of_bits _ e

end Cert.Distill.Pre
-- ==== Proof.RefStages.lean ====
/-
  The host program's result, read off its operations stretch by stretch.

  @main is a straight line of 92 operations. It is cut here into thirteen stretches, at the places where it enters or leaves a called
  function (the log-softmax, the two selects, the take along the vocabulary axis, the two norms), and the buffers are
  followed through them: each stretch's result is the corresponding stage function of the arguments, given that the
  few buffers it reads from earlier stretches hold their stage functions, and a buffer no operation of a stretch
  writes keeps its contents across it. Composed, the last buffer holds the last stage of the arguments.
-/
import proofs.«400147_j50714973831635_2_alg».proof.Proof.RefRead
import Idealize.ShloMosaic.Lib.Pipeline.Frame

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Operations 0–4 of @main: the two contractions and the validity mask. -/
abbrev ops1 : List (HloOp τ sig (Elt F)) :=
  [ binary main_arg0 main_arg1 main_v0 ((fun l r => Host.dotGeneral dot_S2048x2048_S32000x2048_S2048x32000_1_1_0_0_n_n none l r) : (⟨S2048x2048, .f32⟩ : BufTy).Contents (Elt F) → (⟨S32000x2048, .f32⟩ : BufTy).Contents (Elt F) → (⟨S2048x32000, .f32⟩ : BufTy).Contents (Elt F)),
    binary main_arg2 main_arg3 main_v1 ((fun l r => Host.dotGeneral dot_S2048x4096_S32000x4096_S2048x32000_1_1_0_0_n_n none l r) : (⟨S2048x4096, .f32⟩ : BufTy).Contents (Elt F) → (⟨S32000x4096, .f32⟩ : BufTy).Contents (Elt F) → (⟨S2048x32000, .f32⟩ : BufTy).Contents (Elt F)),
    nullary main_c (constantI S_ 32 4294967196#32),
    unary main_c main_v2 (broadcastInDim S2048 ![] bcast_S_S2048 : (⟨S_, .i32⟩ : BufTy).Contents (Elt F) → (⟨S2048, .i32⟩ : BufTy).Contents (Elt F)),
    binary main_arg4 main_v2 main_v3 (cmpi .ne : (⟨S2048, .i32⟩ : BufTy).Contents (Elt F) → (⟨S2048, .i32⟩ : BufTy).Contents (Elt F) → (⟨S2048, .i1⟩ : BufTy).Contents (Elt F)) ]

/-- Operations 5–19 of @main: the log-softmax of the student logits. -/
abbrev ops2 : List (HloOp τ sig (Elt F)) :=
  [ TRef.nullary (TRef.of (T := ⟨S_, .f32⟩) main_call0_cst) (constant S_ .f32 0xFF800000#32),
    TRef.binary (TRef.of (T := ⟨S2048x32000, .f32⟩) main_v0) (TRef.of (T := ⟨S_, .f32⟩) main_call0_cst) (TRef.of (T := ⟨S2048, .f32⟩) main_call0_v0) (fun x v => Host.reduce FloatOps.maximumf x v reducesTo_S2048x32000_S2048_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S2048, .f32⟩) main_call0_v1) (broadcastInDim S2048 ![] bcast_S_S2048),
    TRef.binary (TRef.of (T := ⟨S2048, .f32⟩) main_call0_v1) (TRef.of (T := ⟨S2048, .f32⟩) main_call0_v0) (TRef.of (T := ⟨S2048, .f32⟩) main_call0_v2) maximumf,
    TRef.unary (TRef.of (T := ⟨S2048, .f32⟩) main_call0_v2) (TRef.of (T := ⟨S2048x1, .f32⟩) main_call0_v3) (broadcastInDim S2048x1 ![0] bcast_S2048_S2048x1_0),
    TRef.unary (TRef.of (T := ⟨S2048x1, .f32⟩) main_call0_v3) (TRef.of (T := ⟨S2048x32000, .f32⟩) main_call0_v4) (broadcastInDim S2048x32000 ![0, 1] bcast_S2048x1_S2048x32000_0_1),
    TRef.binary (TRef.of (T := ⟨S2048x32000, .f32⟩) main_v0) (TRef.of (T := ⟨S2048x32000, .f32⟩) main_call0_v4) (TRef.of (T := ⟨S2048x32000, .f32⟩) main_call0_v5) subf,
    TRef.unary (TRef.of (T := ⟨S2048x32000, .f32⟩) main_call0_v5) (TRef.of (T := ⟨S2048x32000, .f32⟩) main_call0_v6) Host.exp,
    TRef.nullary (TRef.of (T := ⟨S_, .f32⟩) main_call0_cst_1) (constant S_ .f32 0x00000000#32),
    TRef.binary (TRef.of (T := ⟨S2048x32000, .f32⟩) main_call0_v6) (TRef.of (T := ⟨S_, .f32⟩) main_call0_cst_1) (TRef.of (T := ⟨S2048, .f32⟩) main_call0_v7) (fun x v => Host.reduceAdd x v reducesTo_S2048x32000_S2048_d1 h_S_),
    TRef.unary (TRef.of (T := ⟨S2048, .f32⟩) main_call0_v7) (TRef.of (T := ⟨S2048x1, .f32⟩) main_call0_v8) (broadcastInDim S2048x1 ![0] bcast_S2048_S2048x1_0),
    TRef.unary (TRef.of (T := ⟨S2048x1, .f32⟩) main_call0_v8) (TRef.of (T := ⟨S2048x1, .f32⟩) main_call0_v9) Host.log,
    TRef.unary (TRef.of (T := ⟨S2048x1, .f32⟩) main_call0_v9) (TRef.of (T := ⟨S2048x32000, .f32⟩) main_call0_v10) (broadcastInDim S2048x32000 ![0, 1] bcast_S2048x1_S2048x32000_0_1),
    TRef.binary (TRef.of (T := ⟨S2048x32000, .f32⟩) main_call0_v5) (TRef.of (T := ⟨S2048x32000, .f32⟩) main_call0_v10) (TRef.of (T := ⟨S2048x32000, .f32⟩) main_v4) subf ]

/-- Operations 20–20 of @main: the zero label. -/
abbrev ops3 : List (HloOp τ sig (Elt F)) :=
  [ nullary main_c_0 (constantI S_ 32 0#32) ]

/-- Operations 21–23 of @main: the safe label. -/
abbrev ops4 : List (HloOp τ sig (Elt F)) :=
  [ TRef.unary (TRef.of (T := ⟨S_, .i32⟩) main_c_0) (TRef.of (T := ⟨S_, .i32⟩) main_call1_v0) id,
    TRef.unary (TRef.of (T := ⟨S_, .i32⟩) main_call1_v0) (TRef.of (T := ⟨S2048, .i32⟩) main_call1_v1) (broadcastInDim S2048 ![] bcast_S_S2048),
    TRef.ternary (TRef.of (T := ⟨S2048, .i1⟩) main_v3) (TRef.of (T := ⟨S2048, .i32⟩) main_arg4) (TRef.of (T := ⟨S2048, .i32⟩) main_call1_v1) (TRef.of (T := ⟨S2048, .i32⟩) main_v5) select ]

/-- Operations 24–24 of @main: the safe label as a column. -/
abbrev ops5 : List (HloOp τ sig (Elt F)) :=
  [ unary main_v5 main_v6 (broadcastInDim S2048x1 ![0] bcast_S2048_S2048x1_0 : (⟨S2048, .i32⟩ : BufTy).Contents (Elt F) → (⟨S2048x1, .i32⟩ : BufTy).Contents (Elt F)) ]

/-- Operations 25–46 of @main: the take along the vocabulary axis. -/
abbrev ops6 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S2048x1, .i32⟩) main_call2_v0) (broadcastInDim S2048x1 ![] bcast_S_S2048x1),
    TRef.binary (TRef.of (T := ⟨S2048x1, .i32⟩) main_v6) (TRef.of (T := ⟨S2048x1, .i32⟩) main_call2_v0) (TRef.of (T := ⟨S2048x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S2048x1, .i32⟩) main_call2_v2) (broadcastInDim S2048x1 ![] bcast_S_S2048x1),
    TRef.binary (TRef.of (T := ⟨S2048x1, .i32⟩) main_v6) (TRef.of (T := ⟨S2048x1, .i32⟩) main_call2_v2) (TRef.of (T := ⟨S2048x1, .i32⟩) main_call2_v3) addi,
    TRef.ternary (TRef.of (T := ⟨S2048x1, .i1⟩) main_call2_v1) (TRef.of (T := ⟨S2048x1, .i32⟩) main_call2_v3) (TRef.of (T := ⟨S2048x1, .i32⟩) main_v6) (TRef.of (T := ⟨S2048x1, .i32⟩) main_call2_v4) select,
    TRef.reshape (TRef.of (T := ⟨S2048x1, .i32⟩) main_call2_v4) (TRef.of (T := ⟨S2048x1x1, .i32⟩) main_call2_v5) rfl shapeCasts_S2048x1_S2048x1x1,
    TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S2048x1x1, .i32⟩) main_call2_v6) (broadcastInDim S2048x1x1 ![] bcast_S_S2048x1x1),
    TRef.binary (TRef.of (T := ⟨S2048x1x1, .i32⟩) main_call2_v5) (TRef.of (T := ⟨S2048x1x1, .i32⟩) main_call2_v6) (TRef.of (T := ⟨S2048x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S2048x1x1, .i32⟩) main_call2_v9) (broadcastInDim S2048x1x1 ![0, 1, 2] bcast_S1x1x1_S2048x1x1_0_1_2),
    TRef.binary (TRef.of (T := ⟨S2048x1x1, .i32⟩) main_call2_v5) (TRef.of (T := ⟨S2048x1x1, .i32⟩) main_call2_v9) (TRef.of (T := ⟨S2048x1x1, .i1⟩) main_call2_v10) (cmpi .sle),
    TRef.binary (TRef.of (T := ⟨S2048x1x1, .i1⟩) main_call2_v7) (TRef.of (T := ⟨S2048x1x1, .i1⟩) main_call2_v10) (TRef.of (T := ⟨S2048x1x1, .i1⟩) main_call2_v11) andi,
    TRef.nullary (TRef.of (T := ⟨S_, .i1⟩) main_call2_c_3) (constantI S_ 1 1#1),
    TRef.binary (TRef.of (T := ⟨S2048x1x1, .i1⟩) main_call2_v11) (TRef.of (T := ⟨S_, .i1⟩) main_call2_c_3) (TRef.of (T := ⟨S2048x1, .i1⟩) main_call2_v12) (fun x v => Host.reduce IntOp.andi x v reducesTo_S2048x1x1_S2048x1_d2 h_S_),
    TRef.binary (TRef.of (T := ⟨S2048x32000, .f32⟩) main_v4) (TRef.of (T := ⟨S2048x1x1, .i32⟩) main_call2_v5) (TRef.of (T := ⟨S2048x1, .f32⟩) main_call2_v13) (fun x i => Host.gather gather_S2048x32000_S2048x1x1_S2048x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S2048x1, .f32⟩) main_call2_v14) (broadcastInDim S2048x1 ![] bcast_S_S2048x1),
    TRef.ternary (TRef.of (T := ⟨S2048x1, .i1⟩) main_call2_v12) (TRef.of (T := ⟨S2048x1, .f32⟩) main_call2_v13) (TRef.of (T := ⟨S2048x1, .f32⟩) main_call2_v14) (TRef.of (T := ⟨S2048x1, .f32⟩) main_v7) select ]

/-- Operations 47–49 of @main: the negated log-probability and a zero. -/
abbrev ops7 : List (HloOp τ sig (Elt F)) :=
  [ reshape main_v7 main_v8 rfl shapeCasts_S2048x1_S2048,
    unary main_v8 main_v9 (Host.negf : (⟨S2048, .f32⟩ : BufTy).Contents (Elt F) → (⟨S2048, .f32⟩ : BufTy).Contents (Elt F)),
    nullary main_cst (constant S_ .f32 0x00000000#32) ]

/-- Operations 50–52 of @main: the cross-entropy term zeroed at ignored labels. -/
abbrev ops8 : List (HloOp τ sig (Elt F)) :=
  [ TRef.unary (TRef.of (T := ⟨S_, .f32⟩) main_cst) (TRef.of (T := ⟨S_, .f32⟩) main_call3_v0) id,
    TRef.unary (TRef.of (T := ⟨S_, .f32⟩) main_call3_v0) (TRef.of (T := ⟨S2048, .f32⟩) main_call3_v1) (broadcastInDim S2048 ![] bcast_S_S2048),
    TRef.ternary (TRef.of (T := ⟨S2048, .i1⟩) main_v3) (TRef.of (T := ⟨S2048, .f32⟩) main_v9) (TRef.of (T := ⟨S2048, .f32⟩) main_call3_v1) (TRef.of (T := ⟨S2048, .f32⟩) main_v10) select ]

/-- Operations 53–56 of @main: the mean cross-entropy term. -/
abbrev ops9 : List (HloOp τ sig (Elt F)) :=
  [ nullary main_cst_1 (constant S_ .f32 0x00000000#32),
    binary main_v10 main_cst_1 main_v11 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_2 (constant S_ .f32 0x45000000#32),
    binary main_v11 main_cst_2 main_v12 (Host.divf : (⟨S_, .f32⟩ : BufTy).Contents (Elt F) → (⟨S_, .f32⟩ : BufTy).Contents (Elt F) → (⟨S_, .f32⟩ : BufTy).Contents (Elt F)) ]

/-- Operations 57–61 of @main: the student rows' norms. -/
abbrev ops10 : List (HloOp τ sig (Elt F)) :=
  [ TRef.binary (TRef.of (T := ⟨S2048x32000, .f32⟩) main_v0) (TRef.of (T := ⟨S2048x32000, .f32⟩) main_v0) (TRef.of (T := ⟨S2048x32000, .f32⟩) main_call4_v0) mulf,
    TRef.nullary (TRef.of (T := ⟨S_, .f32⟩) main_call4_cst) (constant S_ .f32 0x00000000#32),
    TRef.binary (TRef.of (T := ⟨S2048x32000, .f32⟩) main_call4_v0) (TRef.of (T := ⟨S_, .f32⟩) main_call4_cst) (TRef.of (T := ⟨S2048, .f32⟩) main_call4_v1) (fun x v => Host.reduceAdd x v reducesTo_S2048x32000_S2048_d1 h_S_),
    TRef.unary (TRef.of (T := ⟨S2048, .f32⟩) main_call4_v1) (TRef.of (T := ⟨S2048x1, .f32⟩) main_call4_v2) (broadcastInDim S2048x1 ![0] bcast_S2048_S2048x1_0),
    TRef.unary (TRef.of (T := ⟨S2048x1, .f32⟩) main_call4_v2) (TRef.of (T := ⟨S2048x1, .f32⟩) main_v13) Host.sqrt ]

/-- Operations 62–64 of @main: the student norms clamped. -/
abbrev ops11 : List (HloOp τ sig (Elt F)) :=
  [ nullary main_cst_3 (constant S_ .f32 0x2B8CBCCC#32),
    unary main_cst_3 main_v14 (broadcastInDim S2048x1 ![] bcast_S_S2048x1 : (⟨S_, .f32⟩ : BufTy).Contents (Elt F) → (⟨S2048x1, .f32⟩ : BufTy).Contents (Elt F)),
    binary main_v13 main_v14 main_v15 (maximumf : (⟨S2048x1, .f32⟩ : BufTy).Contents (Elt F) → (⟨S2048x1, .f32⟩ : BufTy).Contents (Elt F) → (⟨S2048x1, .f32⟩ : BufTy).Contents (Elt F)) ]

/-- Operations 65–69 of @main: the teacher rows' norms. -/
abbrev ops12 : List (HloOp τ sig (Elt F)) :=
  [ TRef.binary (TRef.of (T := ⟨S2048x32000, .f32⟩) main_v1) (TRef.of (T := ⟨S2048x32000, .f32⟩) main_v1) (TRef.of (T := ⟨S2048x32000, .f32⟩) main_call5_v0) mulf,
    TRef.nullary (TRef.of (T := ⟨S_, .f32⟩) main_call5_cst) (constant S_ .f32 0x00000000#32),
    TRef.binary (TRef.of (T := ⟨S2048x32000, .f32⟩) main_call5_v0) (TRef.of (T := ⟨S_, .f32⟩) main_call5_cst) (TRef.of (T := ⟨S2048, .f32⟩) main_call5_v1) (fun x v => Host.reduceAdd x v reducesTo_S2048x32000_S2048_d1 h_S_),
    TRef.unary (TRef.of (T := ⟨S2048, .f32⟩) main_call5_v1) (TRef.of (T := ⟨S2048x1, .f32⟩) main_call5_v2) (broadcastInDim S2048x1 ![0] bcast_S2048_S2048x1_0),
    TRef.unary (TRef.of (T := ⟨S2048x1, .f32⟩) main_call5_v2) (TRef.of (T := ⟨S2048x1, .f32⟩) main_v16) Host.sqrt ]

/-- Operations 70–91 of @main: the clamped teacher norms, the cosine term and the final combination. -/
abbrev ops13 : List (HloOp τ sig (Elt F)) :=
  [ nullary main_cst_4 (constant S_ .f32 0x2B8CBCCC#32),
    unary main_cst_4 main_v17 (broadcastInDim S2048x1 ![] bcast_S_S2048x1 : (⟨S_, .f32⟩ : BufTy).Contents (Elt F) → (⟨S2048x1, .f32⟩ : BufTy).Contents (Elt F)),
    binary main_v16 main_v17 main_v18 (maximumf : (⟨S2048x1, .f32⟩ : BufTy).Contents (Elt F) → (⟨S2048x1, .f32⟩ : BufTy).Contents (Elt F) → (⟨S2048x1, .f32⟩ : BufTy).Contents (Elt F)),
    unary main_v15 main_v19 (broadcastInDim S2048x32000 ![0, 1] bcast_S2048x1_S2048x32000_0_1 : (⟨S2048x1, .f32⟩ : BufTy).Contents (Elt F) → (⟨S2048x32000, .f32⟩ : BufTy).Contents (Elt F)),
    binary main_v0 main_v19 main_v20 (Host.divf : (⟨S2048x32000, .f32⟩ : BufTy).Contents (Elt F) → (⟨S2048x32000, .f32⟩ : BufTy).Contents (Elt F) → (⟨S2048x32000, .f32⟩ : BufTy).Contents (Elt F)),
    unary main_v18 main_v21 (broadcastInDim S2048x32000 ![0, 1] bcast_S2048x1_S2048x32000_0_1 : (⟨S2048x1, .f32⟩ : BufTy).Contents (Elt F) → (⟨S2048x32000, .f32⟩ : BufTy).Contents (Elt F)),
    binary main_v1 main_v21 main_v22 (Host.divf : (⟨S2048x32000, .f32⟩ : BufTy).Contents (Elt F) → (⟨S2048x32000, .f32⟩ : BufTy).Contents (Elt F) → (⟨S2048x32000, .f32⟩ : BufTy).Contents (Elt F)),
    binary main_v20 main_v22 main_v23 (mulf : (⟨S2048x32000, .f32⟩ : BufTy).Contents (Elt F) → (⟨S2048x32000, .f32⟩ : BufTy).Contents (Elt F) → (⟨S2048x32000, .f32⟩ : BufTy).Contents (Elt F)),
    nullary main_cst_5 (constant S_ .f32 0x00000000#32),
    binary main_v23 main_cst_5 main_v24 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_cst_6 (constant S_ .f32 0x3F800000#32),
    unary main_cst_6 main_v25 (broadcastInDim S2048 ![] bcast_S_S2048 : (⟨S_, .f32⟩ : BufTy).Contents (Elt F) → (⟨S2048, .f32⟩ : BufTy).Contents (Elt F)),
    binary main_v25 main_v24 main_v26 (subf : (⟨S2048, .f32⟩ : BufTy).Contents (Elt F) → (⟨S2048, .f32⟩ : BufTy).Contents (Elt F) → (⟨S2048, .f32⟩ : BufTy).Contents (Elt F)),
    nullary main_cst_7 (constant S_ .f32 0x00000000#32),
    binary main_v26 main_cst_7 main_v27 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_8 (constant S_ .f32 0x45000000#32),
    binary main_v27 main_cst_8 main_v28 (Host.divf : (⟨S_, .f32⟩ : BufTy).Contents (Elt F) → (⟨S_, .f32⟩ : BufTy).Contents (Elt F) → (⟨S_, .f32⟩ : BufTy).Contents (Elt F)),
    nullary main_cst_9 (constant S_ .f32 0x3F000000#32),
    binary main_cst_9 main_v12 main_v29 (mulf : (⟨S_, .f32⟩ : BufTy).Contents (Elt F) → (⟨S_, .f32⟩ : BufTy).Contents (Elt F) → (⟨S_, .f32⟩ : BufTy).Contents (Elt F)),
    nullary main_cst_10 (constant S_ .f32 0x3F000000#32),
    binary main_cst_10 main_v28 main_v30 (mulf : (⟨S_, .f32⟩ : BufTy).Contents (Elt F) → (⟨S_, .f32⟩ : BufTy).Contents (Elt F) → (⟨S_, .f32⟩ : BufTy).Contents (Elt F)),
    binary main_v29 main_v30 main_v31 (addf : (⟨S_, .f32⟩ : BufTy).Contents (Elt F) → (⟨S_, .f32⟩ : BufTy).Contents (Elt F) → (⟨S_, .f32⟩ : BufTy).Contents (Elt F)) ]

/-- Contents carried to a buffer's own type and back are the contents. -/
theorem ofBuf_toBuf {T : BufTy} (x : TRef sig T) (v : T.Contents (Elt F)) : x.ofBuf (x.toBuf v) = v := by
  obtain ⟨r, rfl, h1, h2⟩ := x
  rfl

set_option maxHeartbeats 4000000 in
/-- The thirteen stretches, in order, are the program's operations. -/
theorem ops_split : (ops : List (HloOp τ sig (Elt F))) = ops1 ++ (ops2 ++ (ops3 ++ (ops4 ++ (ops5 ++ (ops6 ++ (ops7 ++ (ops8 ++ (ops9 ++ (ops10 ++ (ops11 ++ (ops12 ++ (ops13)))))))))))) := rfl

/-! ## What each stretch leaves alone -/

section
variable (V : Valuation τ sig (Elt F))

theorem k1_arg4 : after (ops1 (F := F)) V (Proc.devRef .tc main_arg4) = V (Proc.devRef .tc main_arg4) := by
  after_results_simp

theorem k2_v0 : after (ops2 (F := F)) V (Proc.devRef .tc main_v0) = V (Proc.devRef .tc main_v0) := by
  after_results_simp

theorem k2_v1 : after (ops2 (F := F)) V (Proc.devRef .tc main_v1) = V (Proc.devRef .tc main_v1) := by
  after_results_simp

theorem k2_v3 : after (ops2 (F := F)) V (Proc.devRef .tc main_v3) = V (Proc.devRef .tc main_v3) := by
  after_results_simp

theorem k2_arg4 : after (ops2 (F := F)) V (Proc.devRef .tc main_arg4) = V (Proc.devRef .tc main_arg4) := by
  after_results_simp

theorem k3_v0 : after (ops3 (F := F)) V (Proc.devRef .tc main_v0) = V (Proc.devRef .tc main_v0) := by
  after_results_simp

theorem k3_v1 : after (ops3 (F := F)) V (Proc.devRef .tc main_v1) = V (Proc.devRef .tc main_v1) := by
  after_results_simp

theorem k3_v3 : after (ops3 (F := F)) V (Proc.devRef .tc main_v3) = V (Proc.devRef .tc main_v3) := by
  after_results_simp

theorem k3_arg4 : after (ops3 (F := F)) V (Proc.devRef .tc main_arg4) = V (Proc.devRef .tc main_arg4) := by
  after_results_simp

theorem k3_v4 : after (ops3 (F := F)) V (Proc.devRef .tc main_v4) = V (Proc.devRef .tc main_v4) := by
  after_results_simp

theorem k4_v0 : after (ops4 (F := F)) V (Proc.devRef .tc main_v0) = V (Proc.devRef .tc main_v0) := by
  after_results_simp

theorem k4_v1 : after (ops4 (F := F)) V (Proc.devRef .tc main_v1) = V (Proc.devRef .tc main_v1) := by
  after_results_simp

theorem k4_v3 : after (ops4 (F := F)) V (Proc.devRef .tc main_v3) = V (Proc.devRef .tc main_v3) := by
  after_results_simp

theorem k4_v4 : after (ops4 (F := F)) V (Proc.devRef .tc main_v4) = V (Proc.devRef .tc main_v4) := by
  after_results_simp

theorem k5_v0 : after (ops5 (F := F)) V (Proc.devRef .tc main_v0) = V (Proc.devRef .tc main_v0) := by
  after_results_simp

theorem k5_v1 : after (ops5 (F := F)) V (Proc.devRef .tc main_v1) = V (Proc.devRef .tc main_v1) := by
  after_results_simp

theorem k5_v3 : after (ops5 (F := F)) V (Proc.devRef .tc main_v3) = V (Proc.devRef .tc main_v3) := by
  after_results_simp

theorem k5_v4 : after (ops5 (F := F)) V (Proc.devRef .tc main_v4) = V (Proc.devRef .tc main_v4) := by
  after_results_simp

theorem k6_v0 : after (ops6 (F := F)) V (Proc.devRef .tc main_v0) = V (Proc.devRef .tc main_v0) := by
  after_results_simp

theorem k6_v1 : after (ops6 (F := F)) V (Proc.devRef .tc main_v1) = V (Proc.devRef .tc main_v1) := by
  after_results_simp

theorem k6_v3 : after (ops6 (F := F)) V (Proc.devRef .tc main_v3) = V (Proc.devRef .tc main_v3) := by
  after_results_simp

theorem k7_v0 : after (ops7 (F := F)) V (Proc.devRef .tc main_v0) = V (Proc.devRef .tc main_v0) := by
  after_results_simp

theorem k7_v1 : after (ops7 (F := F)) V (Proc.devRef .tc main_v1) = V (Proc.devRef .tc main_v1) := by
  after_results_simp

theorem k7_v3 : after (ops7 (F := F)) V (Proc.devRef .tc main_v3) = V (Proc.devRef .tc main_v3) := by
  after_results_simp

theorem k8_v0 : after (ops8 (F := F)) V (Proc.devRef .tc main_v0) = V (Proc.devRef .tc main_v0) := by
  after_results_simp

theorem k8_v1 : after (ops8 (F := F)) V (Proc.devRef .tc main_v1) = V (Proc.devRef .tc main_v1) := by
  after_results_simp

theorem k9_v0 : after (ops9 (F := F)) V (Proc.devRef .tc main_v0) = V (Proc.devRef .tc main_v0) := by
  after_results_simp

theorem k9_v1 : after (ops9 (F := F)) V (Proc.devRef .tc main_v1) = V (Proc.devRef .tc main_v1) := by
  after_results_simp

theorem k10_v0 : after (ops10 (F := F)) V (Proc.devRef .tc main_v0) = V (Proc.devRef .tc main_v0) := by
  after_results_simp

theorem k10_v1 : after (ops10 (F := F)) V (Proc.devRef .tc main_v1) = V (Proc.devRef .tc main_v1) := by
  after_results_simp

theorem k10_v12 : after (ops10 (F := F)) V (Proc.devRef .tc main_v12) = V (Proc.devRef .tc main_v12) := by
  after_results_simp

theorem k11_v0 : after (ops11 (F := F)) V (Proc.devRef .tc main_v0) = V (Proc.devRef .tc main_v0) := by
  after_results_simp

theorem k11_v1 : after (ops11 (F := F)) V (Proc.devRef .tc main_v1) = V (Proc.devRef .tc main_v1) := by
  after_results_simp

theorem k11_v12 : after (ops11 (F := F)) V (Proc.devRef .tc main_v12) = V (Proc.devRef .tc main_v12) := by
  after_results_simp

theorem k12_v0 : after (ops12 (F := F)) V (Proc.devRef .tc main_v0) = V (Proc.devRef .tc main_v0) := by
  after_results_simp

theorem k12_v1 : after (ops12 (F := F)) V (Proc.devRef .tc main_v1) = V (Proc.devRef .tc main_v1) := by
  after_results_simp

theorem k12_v12 : after (ops12 (F := F)) V (Proc.devRef .tc main_v12) = V (Proc.devRef .tc main_v12) := by
  after_results_simp

theorem k12_v15 : after (ops12 (F := F)) V (Proc.devRef .tc main_v15) = V (Proc.devRef .tc main_v15) := by
  after_results_simp

end

section
variable (V : Valuation τ sig (Elt F))
  (x0 : (⟨S2048x2048, .f32⟩ : BufTy).Contents (Elt F)) (x1 : (⟨S32000x2048, .f32⟩ : BufTy).Contents (Elt F))
  (x2 : (⟨S2048x4096, .f32⟩ : BufTy).Contents (Elt F)) (x3 : (⟨S32000x4096, .f32⟩ : BufTy).Contents (Elt F))
  (x4 : (⟨S2048, .i32⟩ : BufTy).Contents (Elt F))
include V x0 x1 x2 x3 x4

/-! ## What each stretch writes, given what it reads

A stretch of @main's own lines is read directly. A stretch inside a called function carries every value to its buffer's
own type and back; there the facts are stated with that carrying made explicit, the pairs cancel, and the plain form
follows because carrying along a type equation that holds by computation is the identity. -/

theorem w1_v0 (h_arg0 : V (Proc.devRef .tc main_arg0) = x0) (h_arg1 : V (Proc.devRef .tc main_arg1) = x1) (h_arg2 : V (Proc.devRef .tc main_arg2) = x2) (h_arg3 : V (Proc.devRef .tc main_arg3) = x3) (h_arg4 : V (Proc.devRef .tc main_arg4) = x4) :
    after (ops1 (F := F)) V (Proc.devRef .tc main_v0) = val_main_v0 (F := F) x0 x1 := by
  after_results_simp
  try rw [h_arg0]
  try rw [h_arg1]
  try rw [h_arg2]
  try rw [h_arg3]
  try rw [h_arg4]
  rfl

theorem w1_v1 (h_arg0 : V (Proc.devRef .tc main_arg0) = x0) (h_arg1 : V (Proc.devRef .tc main_arg1) = x1) (h_arg2 : V (Proc.devRef .tc main_arg2) = x2) (h_arg3 : V (Proc.devRef .tc main_arg3) = x3) (h_arg4 : V (Proc.devRef .tc main_arg4) = x4) :
    after (ops1 (F := F)) V (Proc.devRef .tc main_v1) = val_main_v1 (F := F) x2 x3 := by
  after_results_simp
  try rw [h_arg0]
  try rw [h_arg1]
  try rw [h_arg2]
  try rw [h_arg3]
  try rw [h_arg4]
  rfl

theorem w1_v3 (h_arg0 : V (Proc.devRef .tc main_arg0) = x0) (h_arg1 : V (Proc.devRef .tc main_arg1) = x1) (h_arg2 : V (Proc.devRef .tc main_arg2) = x2) (h_arg3 : V (Proc.devRef .tc main_arg3) = x3) (h_arg4 : V (Proc.devRef .tc main_arg4) = x4) :
    after (ops1 (F := F)) V (Proc.devRef .tc main_v3) = val_main_v3 (F := F) x4 := by
  after_results_simp
  try rw [h_arg0]
  try rw [h_arg1]
  try rw [h_arg2]
  try rw [h_arg3]
  try rw [h_arg4]
  rfl

theorem w2_v4_carried (h_v0 : V (Proc.devRef .tc main_v0) = (TRef.of (T := ⟨S2048x32000, .f32⟩) main_v0).toBuf (val_main_v0 (F := F) x0 x1)) :
    after (ops2 (F := F)) V (Proc.devRef .tc main_v4) = (TRef.of (T := ⟨S2048x32000, .f32⟩) main_v4).toBuf (val_main_v4 (F := F) x0 x1) := by
  after_results_simp
  try rw [h_v0]
  simp only [ofBuf_toBuf]
  refine congrArg _ ?_
  rfl

theorem w2_v4 (h_v0 : V (Proc.devRef .tc main_v0) = val_main_v0 (F := F) x0 x1) :
    after (ops2 (F := F)) V (Proc.devRef .tc main_v4) = val_main_v4 (F := F) x0 x1 :=
  w2_v4_carried V x0 x1 x2 x3 x4 h_v0

theorem w3_c_0  :
    after (ops3 (F := F)) V (Proc.devRef .tc main_c_0) = val_main_c_0 (F := F) := by
  after_results_simp
  rfl

theorem w4_v5_carried (h_c_0 : V (Proc.devRef .tc main_c_0) = (TRef.of (T := ⟨S_, .i32⟩) main_c_0).toBuf (val_main_c_0 (F := F)))
    (h_v3 : V (Proc.devRef .tc main_v3) = (TRef.of (T := ⟨S2048, .i1⟩) main_v3).toBuf (val_main_v3 (F := F) x4))
    (h_arg4 : V (Proc.devRef .tc main_arg4) = (TRef.of (T := ⟨S2048, .i32⟩) main_arg4).toBuf (x4)) :
    after (ops4 (F := F)) V (Proc.devRef .tc main_v5) = (TRef.of (T := ⟨S2048, .i32⟩) main_v5).toBuf (val_main_v5 (F := F) x4) := by
  after_results_simp
  try rw [h_c_0]
  try rw [h_v3]
  try rw [h_arg4]
  simp only [ofBuf_toBuf]
  refine congrArg _ ?_
  rfl

theorem w4_v5 (h_c_0 : V (Proc.devRef .tc main_c_0) = val_main_c_0 (F := F)) (h_v3 : V (Proc.devRef .tc main_v3) = val_main_v3 (F := F) x4) (h_arg4 : V (Proc.devRef .tc main_arg4) = x4) :
    after (ops4 (F := F)) V (Proc.devRef .tc main_v5) = val_main_v5 (F := F) x4 :=
  w4_v5_carried V x0 x1 x2 x3 x4 h_c_0 h_v3 h_arg4

theorem w5_v6 (h_v5 : V (Proc.devRef .tc main_v5) = val_main_v5 (F := F) x4) :
    after (ops5 (F := F)) V (Proc.devRef .tc main_v6) = val_main_v6 (F := F) x4 := by
  after_results_simp
  try rw [h_v5]
  rfl

theorem w6_v7_carried (h_v4 : V (Proc.devRef .tc main_v4) = (TRef.of (T := ⟨S2048x32000, .f32⟩) main_v4).toBuf (val_main_v4 (F := F) x0 x1))
    (h_v6 : V (Proc.devRef .tc main_v6) = (TRef.of (T := ⟨S2048x1, .i32⟩) main_v6).toBuf (val_main_v6 (F := F) x4)) :
    after (ops6 (F := F)) V (Proc.devRef .tc main_v7) = (TRef.of (T := ⟨S2048x1, .f32⟩) main_v7).toBuf (val_main_v7 (F := F) x0 x1 x4) := by
  after_results_simp
  try rw [h_v4]
  try rw [h_v6]
  simp only [ofBuf_toBuf]
  refine congrArg _ ?_
  rfl

theorem w6_v7 (h_v4 : V (Proc.devRef .tc main_v4) = val_main_v4 (F := F) x0 x1) (h_v6 : V (Proc.devRef .tc main_v6) = val_main_v6 (F := F) x4) :
    after (ops6 (F := F)) V (Proc.devRef .tc main_v7) = val_main_v7 (F := F) x0 x1 x4 :=
  w6_v7_carried V x0 x1 x2 x3 x4 h_v4 h_v6

theorem w7_v9 (h_v7 : V (Proc.devRef .tc main_v7) = val_main_v7 (F := F) x0 x1 x4) :
    after (ops7 (F := F)) V (Proc.devRef .tc main_v9) = val_main_v9 (F := F) x0 x1 x4 := by
  after_results_simp
  try rw [h_v7]
  rfl

theorem w7_cst (h_v7 : V (Proc.devRef .tc main_v7) = val_main_v7 (F := F) x0 x1 x4) :
    after (ops7 (F := F)) V (Proc.devRef .tc main_cst) = val_main_cst (F := F) := by
  after_results_simp
  try rw [h_v7]
  rfl

theorem w8_v10_carried (h_cst : V (Proc.devRef .tc main_cst) = (TRef.of (T := ⟨S_, .f32⟩) main_cst).toBuf (val_main_cst (F := F)))
    (h_v3 : V (Proc.devRef .tc main_v3) = (TRef.of (T := ⟨S2048, .i1⟩) main_v3).toBuf (val_main_v3 (F := F) x4))
    (h_v9 : V (Proc.devRef .tc main_v9) = (TRef.of (T := ⟨S2048, .f32⟩) main_v9).toBuf (val_main_v9 (F := F) x0 x1 x4)) :
    after (ops8 (F := F)) V (Proc.devRef .tc main_v10) = (TRef.of (T := ⟨S2048, .f32⟩) main_v10).toBuf (val_main_v10 (F := F) x0 x1 x4) := by
  after_results_simp
  try rw [h_cst]
  try rw [h_v3]
  try rw [h_v9]
  simp only [ofBuf_toBuf]
  refine congrArg _ ?_
  rfl

theorem w8_v10 (h_cst : V (Proc.devRef .tc main_cst) = val_main_cst (F := F)) (h_v3 : V (Proc.devRef .tc main_v3) = val_main_v3 (F := F) x4) (h_v9 : V (Proc.devRef .tc main_v9) = val_main_v9 (F := F) x0 x1 x4) :
    after (ops8 (F := F)) V (Proc.devRef .tc main_v10) = val_main_v10 (F := F) x0 x1 x4 :=
  w8_v10_carried V x0 x1 x2 x3 x4 h_cst h_v3 h_v9

theorem w9_v12 (h_v10 : V (Proc.devRef .tc main_v10) = val_main_v10 (F := F) x0 x1 x4) :
    after (ops9 (F := F)) V (Proc.devRef .tc main_v12) = val_main_v12 (F := F) x0 x1 x4 := by
  after_results_simp
  try rw [h_v10]
  rfl

theorem w10_v13_carried (h_v0 : V (Proc.devRef .tc main_v0) = (TRef.of (T := ⟨S2048x32000, .f32⟩) main_v0).toBuf (val_main_v0 (F := F) x0 x1)) :
    after (ops10 (F := F)) V (Proc.devRef .tc main_v13) = (TRef.of (T := ⟨S2048x1, .f32⟩) main_v13).toBuf (val_main_v13 (F := F) x0 x1) := by
  after_results_simp
  try rw [h_v0]
  simp only [ofBuf_toBuf]
  refine congrArg _ ?_
  rfl

theorem w10_v13 (h_v0 : V (Proc.devRef .tc main_v0) = val_main_v0 (F := F) x0 x1) :
    after (ops10 (F := F)) V (Proc.devRef .tc main_v13) = val_main_v13 (F := F) x0 x1 :=
  w10_v13_carried V x0 x1 x2 x3 x4 h_v0

theorem w11_v15 (h_v13 : V (Proc.devRef .tc main_v13) = val_main_v13 (F := F) x0 x1) :
    after (ops11 (F := F)) V (Proc.devRef .tc main_v15) = val_main_v15 (F := F) x0 x1 := by
  after_results_simp
  try rw [h_v13]
  rfl

theorem w12_v16_carried (h_v1 : V (Proc.devRef .tc main_v1) = (TRef.of (T := ⟨S2048x32000, .f32⟩) main_v1).toBuf (val_main_v1 (F := F) x2 x3)) :
    after (ops12 (F := F)) V (Proc.devRef .tc main_v16) = (TRef.of (T := ⟨S2048x1, .f32⟩) main_v16).toBuf (val_main_v16 (F := F) x2 x3) := by
  after_results_simp
  try rw [h_v1]
  simp only [ofBuf_toBuf]
  refine congrArg _ ?_
  rfl

theorem w12_v16 (h_v1 : V (Proc.devRef .tc main_v1) = val_main_v1 (F := F) x2 x3) :
    after (ops12 (F := F)) V (Proc.devRef .tc main_v16) = val_main_v16 (F := F) x2 x3 :=
  w12_v16_carried V x0 x1 x2 x3 x4 h_v1

theorem w13_v31 (h_v16 : V (Proc.devRef .tc main_v16) = val_main_v16 (F := F) x2 x3) (h_v15 : V (Proc.devRef .tc main_v15) = val_main_v15 (F := F) x0 x1) (h_v0 : V (Proc.devRef .tc main_v0) = val_main_v0 (F := F) x0 x1) (h_v1 : V (Proc.devRef .tc main_v1) = val_main_v1 (F := F) x2 x3) (h_v12 : V (Proc.devRef .tc main_v12) = val_main_v12 (F := F) x0 x1 x4) :
    after (ops13 (F := F)) V (Proc.devRef .tc main_v31) = val_main_v31 (F := F) x0 x1 x2 x3 x4 := by
  after_results_simp
  try rw [h_v16]
  try rw [h_v15]
  try rw [h_v0]
  try rw [h_v1]
  try rw [h_v12]
  rfl

/-! ## The buffers followed through the stretches -/

theorem s1 (h : V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4) :
    (after (ops1 (F := F)) V) (Proc.devRef .tc main_v0) = val_main_v0 (F := F) x0 x1 ∧ (after (ops1 (F := F)) V) (Proc.devRef .tc main_v1) = val_main_v1 (F := F) x2 x3 ∧ (after (ops1 (F := F)) V) (Proc.devRef .tc main_v3) = val_main_v3 (F := F) x4 ∧ (after (ops1 (F := F)) V) (Proc.devRef .tc main_arg4) = x4 :=
  ⟨w1_v0 V x0 x1 x2 x3 x4 (h.1) (h.2.1) (h.2.2.1) (h.2.2.2.1) (h.2.2.2.2),
   w1_v1 V x0 x1 x2 x3 x4 (h.1) (h.2.1) (h.2.2.1) (h.2.2.2.1) (h.2.2.2.2),
   w1_v3 V x0 x1 x2 x3 x4 (h.1) (h.2.1) (h.2.2.1) (h.2.2.2.1) (h.2.2.2.2),
   (k1_arg4 V).trans (h.2.2.2.2)⟩

theorem s2 (h : V (Proc.devRef .tc main_v0) = val_main_v0 (F := F) x0 x1 ∧ V (Proc.devRef .tc main_v1) = val_main_v1 (F := F) x2 x3 ∧ V (Proc.devRef .tc main_v3) = val_main_v3 (F := F) x4 ∧ V (Proc.devRef .tc main_arg4) = x4) :
    (after (ops2 (F := F)) V) (Proc.devRef .tc main_v0) = val_main_v0 (F := F) x0 x1 ∧ (after (ops2 (F := F)) V) (Proc.devRef .tc main_v1) = val_main_v1 (F := F) x2 x3 ∧ (after (ops2 (F := F)) V) (Proc.devRef .tc main_v3) = val_main_v3 (F := F) x4 ∧ (after (ops2 (F := F)) V) (Proc.devRef .tc main_arg4) = x4 ∧ (after (ops2 (F := F)) V) (Proc.devRef .tc main_v4) = val_main_v4 (F := F) x0 x1 :=
  ⟨(k2_v0 V).trans (h.1),
   (k2_v1 V).trans (h.2.1),
   (k2_v3 V).trans (h.2.2.1),
   (k2_arg4 V).trans (h.2.2.2),
   w2_v4 V x0 x1 x2 x3 x4 (h.1)⟩

theorem s3 (h : V (Proc.devRef .tc main_v0) = val_main_v0 (F := F) x0 x1 ∧ V (Proc.devRef .tc main_v1) = val_main_v1 (F := F) x2 x3 ∧ V (Proc.devRef .tc main_v3) = val_main_v3 (F := F) x4 ∧ V (Proc.devRef .tc main_arg4) = x4 ∧ V (Proc.devRef .tc main_v4) = val_main_v4 (F := F) x0 x1) :
    (after (ops3 (F := F)) V) (Proc.devRef .tc main_v0) = val_main_v0 (F := F) x0 x1 ∧ (after (ops3 (F := F)) V) (Proc.devRef .tc main_v1) = val_main_v1 (F := F) x2 x3 ∧ (after (ops3 (F := F)) V) (Proc.devRef .tc main_v3) = val_main_v3 (F := F) x4 ∧ (after (ops3 (F := F)) V) (Proc.devRef .tc main_arg4) = x4 ∧ (after (ops3 (F := F)) V) (Proc.devRef .tc main_v4) = val_main_v4 (F := F) x0 x1 ∧ (after (ops3 (F := F)) V) (Proc.devRef .tc main_c_0) = val_main_c_0 (F := F) :=
  ⟨(k3_v0 V).trans (h.1),
   (k3_v1 V).trans (h.2.1),
   (k3_v3 V).trans (h.2.2.1),
   (k3_arg4 V).trans (h.2.2.2.1),
   (k3_v4 V).trans (h.2.2.2.2),
   w3_c_0 V x0 x1 x2 x3 x4⟩

theorem s4 (h : V (Proc.devRef .tc main_v0) = val_main_v0 (F := F) x0 x1 ∧ V (Proc.devRef .tc main_v1) = val_main_v1 (F := F) x2 x3 ∧ V (Proc.devRef .tc main_v3) = val_main_v3 (F := F) x4 ∧ V (Proc.devRef .tc main_arg4) = x4 ∧ V (Proc.devRef .tc main_v4) = val_main_v4 (F := F) x0 x1 ∧ V (Proc.devRef .tc main_c_0) = val_main_c_0 (F := F)) :
    (after (ops4 (F := F)) V) (Proc.devRef .tc main_v0) = val_main_v0 (F := F) x0 x1 ∧ (after (ops4 (F := F)) V) (Proc.devRef .tc main_v1) = val_main_v1 (F := F) x2 x3 ∧ (after (ops4 (F := F)) V) (Proc.devRef .tc main_v3) = val_main_v3 (F := F) x4 ∧ (after (ops4 (F := F)) V) (Proc.devRef .tc main_v4) = val_main_v4 (F := F) x0 x1 ∧ (after (ops4 (F := F)) V) (Proc.devRef .tc main_v5) = val_main_v5 (F := F) x4 :=
  ⟨(k4_v0 V).trans (h.1),
   (k4_v1 V).trans (h.2.1),
   (k4_v3 V).trans (h.2.2.1),
   (k4_v4 V).trans (h.2.2.2.2.1),
   w4_v5 V x0 x1 x2 x3 x4 (h.2.2.2.2.2) (h.2.2.1) (h.2.2.2.1)⟩

theorem s5 (h : V (Proc.devRef .tc main_v0) = val_main_v0 (F := F) x0 x1 ∧ V (Proc.devRef .tc main_v1) = val_main_v1 (F := F) x2 x3 ∧ V (Proc.devRef .tc main_v3) = val_main_v3 (F := F) x4 ∧ V (Proc.devRef .tc main_v4) = val_main_v4 (F := F) x0 x1 ∧ V (Proc.devRef .tc main_v5) = val_main_v5 (F := F) x4) :
    (after (ops5 (F := F)) V) (Proc.devRef .tc main_v0) = val_main_v0 (F := F) x0 x1 ∧ (after (ops5 (F := F)) V) (Proc.devRef .tc main_v1) = val_main_v1 (F := F) x2 x3 ∧ (after (ops5 (F := F)) V) (Proc.devRef .tc main_v3) = val_main_v3 (F := F) x4 ∧ (after (ops5 (F := F)) V) (Proc.devRef .tc main_v4) = val_main_v4 (F := F) x0 x1 ∧ (after (ops5 (F := F)) V) (Proc.devRef .tc main_v6) = val_main_v6 (F := F) x4 :=
  ⟨(k5_v0 V).trans (h.1),
   (k5_v1 V).trans (h.2.1),
   (k5_v3 V).trans (h.2.2.1),
   (k5_v4 V).trans (h.2.2.2.1),
   w5_v6 V x0 x1 x2 x3 x4 (h.2.2.2.2)⟩

theorem s6 (h : V (Proc.devRef .tc main_v0) = val_main_v0 (F := F) x0 x1 ∧ V (Proc.devRef .tc main_v1) = val_main_v1 (F := F) x2 x3 ∧ V (Proc.devRef .tc main_v3) = val_main_v3 (F := F) x4 ∧ V (Proc.devRef .tc main_v4) = val_main_v4 (F := F) x0 x1 ∧ V (Proc.devRef .tc main_v6) = val_main_v6 (F := F) x4) :
    (after (ops6 (F := F)) V) (Proc.devRef .tc main_v0) = val_main_v0 (F := F) x0 x1 ∧ (after (ops6 (F := F)) V) (Proc.devRef .tc main_v1) = val_main_v1 (F := F) x2 x3 ∧ (after (ops6 (F := F)) V) (Proc.devRef .tc main_v3) = val_main_v3 (F := F) x4 ∧ (after (ops6 (F := F)) V) (Proc.devRef .tc main_v7) = val_main_v7 (F := F) x0 x1 x4 :=
  ⟨(k6_v0 V).trans (h.1),
   (k6_v1 V).trans (h.2.1),
   (k6_v3 V).trans (h.2.2.1),
   w6_v7 V x0 x1 x2 x3 x4 (h.2.2.2.1) (h.2.2.2.2)⟩

theorem s7 (h : V (Proc.devRef .tc main_v0) = val_main_v0 (F := F) x0 x1 ∧ V (Proc.devRef .tc main_v1) = val_main_v1 (F := F) x2 x3 ∧ V (Proc.devRef .tc main_v3) = val_main_v3 (F := F) x4 ∧ V (Proc.devRef .tc main_v7) = val_main_v7 (F := F) x0 x1 x4) :
    (after (ops7 (F := F)) V) (Proc.devRef .tc main_v0) = val_main_v0 (F := F) x0 x1 ∧ (after (ops7 (F := F)) V) (Proc.devRef .tc main_v1) = val_main_v1 (F := F) x2 x3 ∧ (after (ops7 (F := F)) V) (Proc.devRef .tc main_v3) = val_main_v3 (F := F) x4 ∧ (after (ops7 (F := F)) V) (Proc.devRef .tc main_v9) = val_main_v9 (F := F) x0 x1 x4 ∧ (after (ops7 (F := F)) V) (Proc.devRef .tc main_cst) = val_main_cst (F := F) :=
  ⟨(k7_v0 V).trans (h.1),
   (k7_v1 V).trans (h.2.1),
   (k7_v3 V).trans (h.2.2.1),
   w7_v9 V x0 x1 x2 x3 x4 (h.2.2.2),
   w7_cst V x0 x1 x2 x3 x4 (h.2.2.2)⟩

theorem s8 (h : V (Proc.devRef .tc main_v0) = val_main_v0 (F := F) x0 x1 ∧ V (Proc.devRef .tc main_v1) = val_main_v1 (F := F) x2 x3 ∧ V (Proc.devRef .tc main_v3) = val_main_v3 (F := F) x4 ∧ V (Proc.devRef .tc main_v9) = val_main_v9 (F := F) x0 x1 x4 ∧ V (Proc.devRef .tc main_cst) = val_main_cst (F := F)) :
    (after (ops8 (F := F)) V) (Proc.devRef .tc main_v0) = val_main_v0 (F := F) x0 x1 ∧ (after (ops8 (F := F)) V) (Proc.devRef .tc main_v1) = val_main_v1 (F := F) x2 x3 ∧ (after (ops8 (F := F)) V) (Proc.devRef .tc main_v10) = val_main_v10 (F := F) x0 x1 x4 :=
  ⟨(k8_v0 V).trans (h.1),
   (k8_v1 V).trans (h.2.1),
   w8_v10 V x0 x1 x2 x3 x4 (h.2.2.2.2) (h.2.2.1) (h.2.2.2.1)⟩

theorem s9 (h : V (Proc.devRef .tc main_v0) = val_main_v0 (F := F) x0 x1 ∧ V (Proc.devRef .tc main_v1) = val_main_v1 (F := F) x2 x3 ∧ V (Proc.devRef .tc main_v10) = val_main_v10 (F := F) x0 x1 x4) :
    (after (ops9 (F := F)) V) (Proc.devRef .tc main_v0) = val_main_v0 (F := F) x0 x1 ∧ (after (ops9 (F := F)) V) (Proc.devRef .tc main_v1) = val_main_v1 (F := F) x2 x3 ∧ (after (ops9 (F := F)) V) (Proc.devRef .tc main_v12) = val_main_v12 (F := F) x0 x1 x4 :=
  ⟨(k9_v0 V).trans (h.1),
   (k9_v1 V).trans (h.2.1),
   w9_v12 V x0 x1 x2 x3 x4 (h.2.2)⟩

theorem s10 (h : V (Proc.devRef .tc main_v0) = val_main_v0 (F := F) x0 x1 ∧ V (Proc.devRef .tc main_v1) = val_main_v1 (F := F) x2 x3 ∧ V (Proc.devRef .tc main_v12) = val_main_v12 (F := F) x0 x1 x4) :
    (after (ops10 (F := F)) V) (Proc.devRef .tc main_v0) = val_main_v0 (F := F) x0 x1 ∧ (after (ops10 (F := F)) V) (Proc.devRef .tc main_v1) = val_main_v1 (F := F) x2 x3 ∧ (after (ops10 (F := F)) V) (Proc.devRef .tc main_v12) = val_main_v12 (F := F) x0 x1 x4 ∧ (after (ops10 (F := F)) V) (Proc.devRef .tc main_v13) = val_main_v13 (F := F) x0 x1 :=
  ⟨(k10_v0 V).trans (h.1),
   (k10_v1 V).trans (h.2.1),
   (k10_v12 V).trans (h.2.2),
   w10_v13 V x0 x1 x2 x3 x4 (h.1)⟩

theorem s11 (h : V (Proc.devRef .tc main_v0) = val_main_v0 (F := F) x0 x1 ∧ V (Proc.devRef .tc main_v1) = val_main_v1 (F := F) x2 x3 ∧ V (Proc.devRef .tc main_v12) = val_main_v12 (F := F) x0 x1 x4 ∧ V (Proc.devRef .tc main_v13) = val_main_v13 (F := F) x0 x1) :
    (after (ops11 (F := F)) V) (Proc.devRef .tc main_v0) = val_main_v0 (F := F) x0 x1 ∧ (after (ops11 (F := F)) V) (Proc.devRef .tc main_v1) = val_main_v1 (F := F) x2 x3 ∧ (after (ops11 (F := F)) V) (Proc.devRef .tc main_v12) = val_main_v12 (F := F) x0 x1 x4 ∧ (after (ops11 (F := F)) V) (Proc.devRef .tc main_v15) = val_main_v15 (F := F) x0 x1 :=
  ⟨(k11_v0 V).trans (h.1),
   (k11_v1 V).trans (h.2.1),
   (k11_v12 V).trans (h.2.2.1),
   w11_v15 V x0 x1 x2 x3 x4 (h.2.2.2)⟩

theorem s12 (h : V (Proc.devRef .tc main_v0) = val_main_v0 (F := F) x0 x1 ∧ V (Proc.devRef .tc main_v1) = val_main_v1 (F := F) x2 x3 ∧ V (Proc.devRef .tc main_v12) = val_main_v12 (F := F) x0 x1 x4 ∧ V (Proc.devRef .tc main_v15) = val_main_v15 (F := F) x0 x1) :
    (after (ops12 (F := F)) V) (Proc.devRef .tc main_v0) = val_main_v0 (F := F) x0 x1 ∧ (after (ops12 (F := F)) V) (Proc.devRef .tc main_v1) = val_main_v1 (F := F) x2 x3 ∧ (after (ops12 (F := F)) V) (Proc.devRef .tc main_v12) = val_main_v12 (F := F) x0 x1 x4 ∧ (after (ops12 (F := F)) V) (Proc.devRef .tc main_v15) = val_main_v15 (F := F) x0 x1 ∧ (after (ops12 (F := F)) V) (Proc.devRef .tc main_v16) = val_main_v16 (F := F) x2 x3 :=
  ⟨(k12_v0 V).trans (h.1),
   (k12_v1 V).trans (h.2.1),
   (k12_v12 V).trans (h.2.2.1),
   (k12_v15 V).trans (h.2.2.2),
   w12_v16 V x0 x1 x2 x3 x4 (h.2.1)⟩

theorem s13 (h : V (Proc.devRef .tc main_v0) = val_main_v0 (F := F) x0 x1 ∧ V (Proc.devRef .tc main_v1) = val_main_v1 (F := F) x2 x3 ∧ V (Proc.devRef .tc main_v12) = val_main_v12 (F := F) x0 x1 x4 ∧ V (Proc.devRef .tc main_v15) = val_main_v15 (F := F) x0 x1 ∧ V (Proc.devRef .tc main_v16) = val_main_v16 (F := F) x2 x3) :
    (after (ops13 (F := F)) V) (Proc.devRef .tc main_v31) = val_main_v31 (F := F) x0 x1 x2 x3 x4 :=
  w13_v31 V x0 x1 x2 x3 x4 (h.2.2.2.2) (h.2.2.2.1) (h.1) (h.2.1) (h.2.2.1)

end

/-- After the whole line the result buffer holds the last stage of the argument arrays. -/
theorem result_after (m : (ℓ : Loc nD τ sig) → Buf (Elt F) ℓ) (c : Dev nD) :
    after (ops (F := F)) (launchContents m c) (Proc.devRef .tc main_v31)
      = val_main_v31 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [ops_split]
  simp only [StableHlo.after_append]
  exact s13 _ _ _ _ _ _ (s12 _ _ _ _ _ _ (s11 _ _ _ _ _ _ (s10 _ _ _ _ _ _ (s9 _ _ _ _ _ _ (s8 _ _ _ _ _ _ (s7 _ _ _ _ _ _ (s6 _ _ _ _ _ _ (s5 _ _ _ _ _ _ (s4 _ _ _ _ _ _ (s3 _ _ _ _ _ _ (s2 _ _ _ _ _ _ (s1 _ _ _ _ _ _ (⟨rfl, rfl, rfl, rfl, rfl⟩)))))))))))))

end Cert.ReferenceIdeal.Stages

end
-- ==== Proof.RefValue.lean ====
/-
  The whole-row side read off the host program: its result is `plainMean` of the argument arrays.

  The host program contracts the two pairs of arrays into student and teacher logits, takes the
  log-softmax of the student logits along the vocabulary (row maximum, shifted logits, sum of
  exponentials, logarithm), reads it at each row's label, negates, zeroes the rows whose label is the
  ignore value, and averages; beside that it divides each logit row by its clamped Euclidean norm, sums the
  products of the two normalised rows, subtracts from one, and averages; the result is half of each mean.

  Each lemma below reads one group of these stages at an explicit row `b` (and column `v`), in terms of
  the shared vocabulary: `logit`, `rowMax`, `ceRow`, `cosRow`, `plainMean`. The label is read through
  the "safe" word (the label, or 0 where it is the ignore value): under the range hypothesis that word is
  always below 32000, so it is not negative as a signed word, the wrap-around of negative indices does not
  fire, the in-range mask is set, and the row is read at that very column. Where the label is the ignore
  value the column read is 0, but the outer selection discards what was read.
-/
import proofs.«400147_j50714973831635_2_alg».proof.Proof.RefRead
import proofs.«400147_j50714973831635_2_alg».proof.Proof.Spec
import Idealize.ShloMosaic.Lib.StableHlo.Predicate
import Idealize.ShloMosaic.Lib.ValueIdxRank1

noncomputable section

namespace Cert.ReferenceIdeal.RefValue

open Cert.ReferenceIdeal Cert.ReferenceIdeal.Gen Cert.ReferenceIdeal.Read Cert.Distill
open Idealize.ShloMosaic Idealize.ShloMosaic.ValueIdx Idealize.ShloMosaic.StableHlo.Predicate

/-! ## Words: the label made safe, and signed comparisons of a small word -/

/-- The label word with the ignore value replaced by 0. -/
def safeWord (w : BitVec 32) : BitVec 32 := if w = ignoreWord then 0#32 else w

/-- A class label below 32000, or the ignore value: either way the safe word is below 32000. -/
theorem safeWord_lt {w : BitVec 32} (h : w.toNat < 32000 ∨ w = ignoreWord) : (safeWord w).toNat < 32000 := by
  unfold safeWord
  split
  · decide
  · rcases h with h | h
    · exact h
    · contradiction

/-- "Not the ignore value", as the bit the comparison produces. -/
theorem ne_bit (w : BitVec 32) : IntOp.cmpi .ne w ignoreWord = if w = ignoreWord then 0#1 else 1#1 := by
  unfold IntOp.cmpi
  by_cases h : w = ignoreWord
  · simp [h]
  · rw [if_neg h]
    have e : (w != ignoreWord) = true := bne_iff_ne.mpr h
    show BitVec.ofBool (w != ignoreWord) = 1#1
    rw [e]; rfl

/-- A word below 32000 is not negative as a signed word … -/
theorem slt_zero_small {s : BitVec 32} (hs : s.toNat < 32000) : IntOp.cmpi .slt s 0#32 = 0#1 :=
  eq_zero_of_ne_one fun h => by
    have := (slt_iff_toNat (a := s) (b := 0#32) (by omega) (by decide)).mp h
    simp at this

/-- … it is at least 0 … -/
theorem sge_zero_small {s : BitVec 32} (hs : s.toNat < 32000) : IntOp.cmpi .sge s 0#32 = 1#1 :=
  (sge_iff_toNat (a := s) (b := 0#32) (by omega) (by decide)).mpr (by simp)

/-- … at most 31999 … -/
theorem sle_top_small {s : BitVec 32} (hs : s.toNat < 32000) : IntOp.cmpi .sle s 31999#32 = 1#1 :=
  (sle_iff_toNat (a := s) (b := 31999#32) (by omega) (by decide)).mpr (by
    have : (31999#32 : BitVec 32).toNat = 31999 := by decide
    omega)

/-- … and clamping its signed value into [0, 31999] leaves its value. -/
theorem clamp_small {s : BitVec 32} (hs : s.toNat < 32000) : min s.toInt.toNat (32000 - 1) = s.toNat := by
  rw [toInt_eq_toNat_of_lt (by omega)]
  simp only [Int.toNat_natCast]
  omega

/-- The column a class label names is the label's value. -/
theorem labelCol_small {w : BitVec 32} (h : w.toNat < 32000) : labelCol w = ⟨w.toNat, h⟩ :=
  Fin.ext (Nat.mod_eq_of_lt h)

/-- A conjunction of set bits, started from a set bit, is set. -/
theorem fold_andi_one {ι : Type} [DecidableEq ι] (s : Finset ι) (g : ι → BitVec 1) (hg : ∀ k, g k = 1#1) :
    s.fold IntOp.andi 1#1 g = 1#1 := by
  induction s using Finset.induction_on with
  | empty => rfl
  | insert a s ha ih => rw [Finset.fold_insert ha, ih, hg]; rfl

/-- The word of −∞ is the bottom of the extended reals. -/
theorem neg_inf : Ideal.ofBits .f32 0xFF800000#32 = ⊥ := by simp [Ideal.ofBits, Ideal.ieee]

/-! ## A row gather: one column per row

The gather whose operand is a rectangle, whose start indices are one word per row, with the row axis a
batching axis on both sides and the column axis collapsed and start-indexed: row `b` of the result is the
operand's row `b` at the column its word names, read signed and clamped into the row. -/

/-- On the row axis the operand index is the result's row. -/
theorem gather_row_axis0 {R N w : Nat} (d : GatherDims ⟨2, ![R, N]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (idx : IVec ⟨3, ![R, 1, 1]⟩ w) (b : Fin R) :
    (d.operandIdx (ix2 b (0 : Fin 1)) idx (0 : Fin 2)).val = b.val := by
  obtain ⟨od, cd, ob, sb, sm, iv, ss, wf⟩ := d
  dsimp only at hoff hcoll hob hsb hsim hivd
  subst hoff hcoll hob hsb hsim hivd
  show GatherDims.start _ _ idx _ + GatherDims.batchCoord _ _ _ + GatherDims.offCoord _ _ _ = b.val
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (List.mem_singleton.mpr rfl)]
  rfl

/-- On the column axis it is the row's start word, read signed and clamped into the row. -/
theorem gather_row_axis1 {R N w : Nat} (d : GatherDims ⟨2, ![R, N]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (idx : IVec ⟨3, ![R, 1, 1]⟩ w) (b : Fin R) :
    (d.operandIdx (ix2 b (0 : Fin 1)) idx (1 : Fin 2)).val
      = min (idx (ix3 b (0 : Fin 1) (0 : Fin 1))).toInt.toNat (N - 1) := by
  have hsl : d.sliceSizes 1 = 1 := d.slice_collapsed 1 (by rw [hcoll]; exact List.mem_singleton.mpr rfl)
  obtain ⟨od, cd, ob, sb, sm, iv, ss, wf⟩ := d
  dsimp only at hoff hcoll hob hsb hsim hivd hsl
  subst hoff hcoll hob hsb hsim hivd
  show GatherDims.start _ _ idx _ + GatherDims.batchCoord _ _ _ + GatherDims.offCoord _ _ _ = _
  rw [GatherDims.batchCoord_eq_zero _ _ _ (by simp),
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min (idx _).toInt.toNat (N - ss 1) = _
  rw [hsl]
  congr 3
  congr 1
  funext a
  refine Fin.ext ?_
  match a with
  | ⟨0, _⟩ => rfl
  | ⟨1, _⟩ => rfl
  | ⟨2, _⟩ => rfl

/-- The row gather at row `b`. -/
theorem gather_row {α : Type} {R N w : Nat} (d : GatherDims ⟨2, ![R, N]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, N]⟩ : Shape).Idx → α) (idx : IVec ⟨3, ![R, 1, 1]⟩ w) (b : Fin R) (hN : 0 < N) :
    Host.gather d x idx (ix2 b (0 : Fin 1))
      = x (ix2 b ⟨min (idx (ix3 b (0 : Fin 1) (0 : Fin 1))).toInt.toNat (N - 1), by omega⟩) := by
  unfold Host.gather
  congr 1
  funext a
  refine Fin.ext ?_
  match a with
  | ⟨0, _⟩ => exact gather_row_axis0 d hoff hcoll hob hsb hsim hivd idx b
  | ⟨1, _⟩ => exact gather_row_axis1 d hoff hcoll hob hsb hsim hivd idx b

/-! ## Index functions of the generated reads, at explicit coordinates -/

/-- The operand indices of the two contractions at `(b, v)` and contraction position `k`: `(b, k)` on the
    left, `(v, k)` on the right. -/
theorem lidx0 (b : Fin 2048) (v : Fin 32000) (k : Fin 2048) : lidx_main_v0 (ix2 b v) k = ix2 b k :=
  funext fun a => Fin.ext (by match a with | ⟨0, _⟩ => rfl | ⟨1, _⟩ => rfl)
theorem ridx0 (b : Fin 2048) (v : Fin 32000) (k : Fin 2048) : ridx_main_v0 (ix2 b v) k = ix2 v k :=
  funext fun a => Fin.ext (by match a with | ⟨0, _⟩ => rfl | ⟨1, _⟩ => rfl)
theorem lidx1 (b : Fin 2048) (v : Fin 32000) (k : Fin 4096) : lidx_main_v1 (ix2 b v) k = ix2 b k :=
  funext fun a => Fin.ext (by match a with | ⟨0, _⟩ => rfl | ⟨1, _⟩ => rfl)
theorem ridx1 (b : Fin 2048) (v : Fin 32000) (k : Fin 4096) : ridx_main_v1 (ix2 b v) k = ix2 v k :=
  funext fun a => Fin.ext (by match a with | ⟨0, _⟩ => rfl | ⟨1, _⟩ => rfl)

/-- The rectangle's rows: dropping the column axis. -/
theorem redCols : S2048x32000.Reduces [1] S2048 := by decide
/-- The start indices' rows: dropping the unit index-vector axis. -/
theorem redUnit : S2048x1x1.Reduces [2] S2048x1 := by decide

/-- Row `b` with column `v` inserted is `(b, v)`. -/
theorem lift_row (b : Fin 2048) (v : Fin 32000) : redCols.lift (ix1 b) v = ix2 b v :=
  funext fun a => Fin.ext (by match a with | ⟨0, _⟩ => rfl | ⟨1, _⟩ => rfl)

/-! ## The logits -/

/-- The student logits: the contraction of row `b` of the activations with row `v` of the weights. -/
theorem student_logit (x : FVec Ideal S2048x2048 .f32) (ws : FVec Ideal S32000x2048 .f32) (b : Fin 2048) (v : Fin 32000) :
    val_main_v0 (F := Ideal) x ws (ix2 b v) = logit x ws b v := by
  rw [val_main_v0_apply]
  unfold logit
  exact Finset.sum_congr rfl fun k _ => by rw [lidx0, ridx0]

/-- The teacher logits likewise. -/
theorem teacher_logit (y : FVec Ideal S2048x4096 .f32) (wt : FVec Ideal S32000x4096 .f32) (b : Fin 2048) (v : Fin 32000) :
    val_main_v1 (F := Ideal) y wt (ix2 b v) = logit y wt b v := by
  rw [val_main_v1_apply]
  unfold logit
  exact Finset.sum_congr rfl fun k _ => by rw [lidx1, ridx1]

/-! ## The log-softmax of the student logits -/

section LogSoftmax
variable (x : FVec Ideal S2048x2048 .f32) (ws : FVec Ideal S32000x2048 .f32)

/-- The reduction by maximum from −∞ over the vocabulary is the row's maximum. -/
theorem row_max_fold (b : Fin 2048) : val_main_call0_v0 (F := Ideal) x ws (ix1 b) = rowMax (logit x ws b) := by
  unfold val_main_call0_v0
  rw [Host.reduce_eq_fold_single (FloatOps.maximumf (F := Ideal) (φ := .f32)) _ _ _ redCols h_S_]
  have hf : (val_main_v0 (F := Ideal) x ws ∘ redCols.lift (ix1 b)) = logit x ws b :=
    funext fun v => (congrArg (val_main_v0 (F := Ideal) x ws) (lift_row b v)).trans (student_logit x ws b v)
  rw [hf]
  show Finset.fold max (Ideal.ofBits .f32 0xFF800000#32) (logit x ws b) Finset.univ = Finset.fold max ⊥ (logit x ws b) Finset.univ
  rw [neg_inf]

/-- Taking the maximum with −∞ once more changes nothing. -/
theorem row_max (b : Fin 2048) : val_main_call0_v2 (F := Ideal) x ws (ix1 b) = rowMax (logit x ws b) := by
  rw [val_main_call0_v2_apply, val_main_call0_v1_apply, val_main_call0_cst_0_apply, row_max_fold]
  show max (Ideal.ofBits .f32 0xFF800000#32) _ = _
  rw [neg_inf, max_bot_left]

/-- The shifted logit at `(b, v)`. -/
theorem shifted (b : Fin 2048) (v : Fin 32000) :
    val_main_call0_v5 (F := Ideal) x ws (ix2 b v) = logit x ws b v - rowMax (logit x ws b) := by
  rw [val_main_call0_v5_apply, val_main_call0_v4_apply, val_main_call0_v3_apply,
    show idx_main_call0_v3 (idx_main_call0_v4 (ix2 b v)) = ix1 b from
      funext fun a => Fin.ext (by match a with | ⟨0, _⟩ => rfl),
    row_max, student_logit]
  rfl

/-- The sum of exponentials of row `b`'s shifted logits (the initial zero vanishes). -/
theorem sum_exp (b : Fin 2048) :
    val_main_call0_v7 (F := Ideal) x ws (ix1 b)
      = ∑ v : Fin 32000, Ideal.exp (logit x ws b v - rowMax (logit x ws b)) := by
  rw [val_main_call0_v7_apply, val_main_call0_cst_1_apply,
    show FloatOps.ofBits (F := Ideal) .f32 0x00000000#32 = 0 from Ideal.ofBits_zero_f32, zero_add]
  refine Finset.sum_congr rfl fun v _ => ?_
  rw [show idx_main_call0_v7 (ix1 b) v = ix2 b v from
      funext fun a => Fin.ext (by match a with | ⟨0, _⟩ => rfl | ⟨1, _⟩ => rfl),
    val_main_call0_v6_apply, shifted]
  rfl

/-- The log-softmax at `(b, v)`: the shifted logit minus the logarithm of the row's sum of exponentials. -/
theorem log_softmax_at (b : Fin 2048) (v : Fin 32000) :
    val_main_v4 (F := Ideal) x ws (ix2 b v)
      = (logit x ws b v - rowMax (logit x ws b))
          - Ideal.log (∑ u : Fin 32000, Ideal.exp (logit x ws b u - rowMax (logit x ws b))) := by
  rw [val_main_v4_apply, shifted, val_main_call0_v10_apply, val_main_call0_v9_apply, val_main_call0_v8_apply,
    show idx_main_call0_v8 (idx_main_call0_v10 (ix2 b v)) = ix1 b from
      funext fun a => Fin.ext (by match a with | ⟨0, _⟩ => rfl),
    sum_exp, Ideal.hostUnary_log_def, Ideal.subf_def]

end LogSoftmax

/-! ## The label: the validity bit, the safe index, the mask -/

section Label
variable (lab : IVec S2048 32)

/-- The validity bit of row `b`. -/
theorem valid_bit (b : Fin 2048) :
    val_main_v3 (F := Ideal) lab (ix1 b) = if lab (ix1 b) = ignoreWord then 0#1 else 1#1 := by
  rw [val_main_v3_apply, val_main_v2_apply, val_main_c_apply]
  exact ne_bit _

/-- The safe index of row `b`. -/
theorem safe_index (b : Fin 2048) : val_main_v5 (F := Ideal) lab (ix1 b) = safeWord (lab (ix1 b)) := by
  rw [val_main_v5_apply, valid_bit, val_main_call1_v1_apply, val_main_call1_v0_apply, val_main_c_0_apply]
  unfold safeWord
  by_cases hw : lab (ix1 b) = ignoreWord
  · rw [if_pos hw, if_pos hw]
    exact select_zero _ _
  · rw [if_neg hw, if_neg hw]
    exact select_one _ _

/-- The start index of row `b`: the safe word is not negative, so nothing is added to it. -/
theorem start_index (b : Fin 2048) (hs : (safeWord (lab (ix1 b))).toNat < 32000) :
    val_main_call2_v5 (F := Ideal) lab (ix3 b (0 : Fin 1) (0 : Fin 1)) = safeWord (lab (ix1 b)) := by
  rw [val_main_call2_v5_apply,
    show idx_main_call2_v5 (ix3 b (0 : Fin 1) (0 : Fin 1)) = ix2 b (0 : Fin 1) from
      funext fun a => Fin.ext (by
        match a with
        | ⟨0, _⟩ => show ((b.val * 1 + 0) * 1 + 0) / 1 = b.val; omega
        | ⟨1, _⟩ => rfl),
    val_main_call2_v4_apply, val_main_call2_v1_apply, val_main_v6_apply,
    show idx_main_v6 (ix2 b (0 : Fin 1)) = ix1 b from funext fun a => Fin.ext (by match a with | ⟨0, _⟩ => rfl),
    safe_index, val_main_call2_v0_apply, val_main_call2_c_apply, slt_zero_small hs]
  exact select_zero _ _

/-- The in-range mask of row `b` is set: the start index lies in [0, 31999]. -/
theorem mask_set (b : Fin 2048) (hs : (safeWord (lab (ix1 b))).toNat < 32000) :
    val_main_call2_v12 (F := Ideal) lab (ix2 b (0 : Fin 1)) = 1#1 := by
  unfold val_main_call2_v12
  rw [Host.reduce_eq_fold_single IntOp.andi _ _ _ redUnit h_S_]
  show Finset.fold IntOp.andi 1#1 _ _ = 1#1
  refine fold_andi_one _ _ fun k => ?_
  have hk : redUnit.lift (ix2 b (0 : Fin 1)) k = ix3 b (0 : Fin 1) (0 : Fin 1) :=
    funext fun a => Fin.ext (by
      match a with
      | ⟨0, _⟩ => rfl
      | ⟨1, _⟩ => rfl
      | ⟨2, _⟩ => show k.val = 0; have : k.val < 1 := k.isLt; omega)
  show val_main_call2_v11 (F := Ideal) lab (redUnit.lift (ix2 b (0 : Fin 1)) k) = 1#1
  rw [hk, val_main_call2_v11_apply, val_main_call2_v7_apply, val_main_call2_v10_apply, start_index lab b hs,
    val_main_call2_v6_apply, val_main_call2_c_2_apply, val_main_call2_v9_apply, val_main_call2_v8_apply,
    val_main_call2_c_1_apply, sge_zero_small hs, sle_top_small hs]
  rfl

end Label

/-! ## The cross-entropy term of a row -/

section Hard
variable (x : FVec Ideal S2048x2048 .f32) (ws : FVec Ideal S32000x2048 .f32) (lab : IVec S2048 32)

/-- What the gather reads in row `b`: the log-softmax at the column the safe word names. -/
theorem gathered (b : Fin 2048) (hs : (safeWord (lab (ix1 b))).toNat < 32000) :
    val_main_call2_v13 (F := Ideal) x ws lab (ix2 b (0 : Fin 1))
      = val_main_v4 (F := Ideal) x ws (ix2 b ⟨(safeWord (lab (ix1 b))).toNat, hs⟩) := by
  unfold val_main_call2_v13
  rw [gather_row _ rfl rfl rfl rfl rfl rfl _ _ b (by decide)]
  refine congrArg (fun k : Fin 32000 => val_main_v4 (F := Ideal) x ws (ix2 b k)) (Fin.ext ?_)
  show min (val_main_call2_v5 (F := Ideal) lab (ix3 b (0 : Fin 1) (0 : Fin 1))).toInt.toNat (32000 - 1) = _
  rw [start_index lab b hs, clamp_small hs]

/-- Row `b` of the masked negated log-probabilities is the row's cross-entropy term. -/
theorem hard_row (b : Fin 2048) (hb : (lab (ix1 b)).toNat < 32000 ∨ lab (ix1 b) = ignoreWord) :
    val_main_v10 (F := Ideal) x ws lab (ix1 b) = ceRow (logit x ws b) (lab (ix1 b)) := by
  rw [val_main_v10_apply, valid_bit]
  unfold ceRow
  by_cases hw : lab (ix1 b) = ignoreWord
  · rw [if_pos hw, if_pos hw, select_zero, val_main_call3_v1_apply, val_main_call3_v0_apply, val_main_cst_apply]
    exact Ideal.ofBits_zero_f32
  · have hlt : (lab (ix1 b)).toNat < 32000 := hb.resolve_right hw
    have hsw : safeWord (lab (ix1 b)) = lab (ix1 b) := if_neg hw
    have hs : (safeWord (lab (ix1 b))).toNat < 32000 := safeWord_lt hb
    rw [if_neg hw, if_neg hw, select_one, val_main_v9_apply, val_main_v8_apply,
      show idx_main_v8 (ix1 b) = ix2 b (0 : Fin 1) from
        funext fun a => Fin.ext (by
          match a with
          | ⟨0, _⟩ => show b.val / 1 = b.val; omega
          | ⟨1, _⟩ => rfl),
      val_main_v7_apply, mask_set lab b hs, select_one, gathered x ws lab b hs, log_softmax_at,
      labelCol_small hlt]
    have hcol : (⟨(safeWord (lab (ix1 b))).toNat, hs⟩ : Fin 32000) = ⟨(lab (ix1 b)).toNat, hlt⟩ :=
      Fin.ext (congrArg BitVec.toNat hsw)
    rw [hcol]
    rfl

end Hard

/-! ## The cosine term of a row -/

section Soft
variable (x : FVec Ideal S2048x2048 .f32) (ws : FVec Ideal S32000x2048 .f32)
  (y : FVec Ideal S2048x4096 .f32) (wt : FVec Ideal S32000x4096 .f32)

/-- The clamped norm of row `b` of the student logits. -/
theorem student_norm (b : Fin 2048) :
    val_main_v15 (F := Ideal) x ws (ix2 b (0 : Fin 1))
      = max (Ideal.sqrt (∑ u : Fin 32000, logit x ws b u * logit x ws b u)) eps := by
  rw [val_main_v15_apply, val_main_v13_apply, val_main_call4_v2_apply,
    show idx_main_call4_v2 (ix2 b (0 : Fin 1)) = ix1 b from funext fun a => Fin.ext (by match a with | ⟨0, _⟩ => rfl),
    val_main_call4_v1_apply, val_main_call4_cst_apply,
    show FloatOps.ofBits (F := Ideal) .f32 0x00000000#32 = 0 from Ideal.ofBits_zero_f32, zero_add,
    val_main_v14_apply, val_main_cst_3_apply]
  have hsum : ∑ k : Fin 32000, val_main_call4_v0 (F := Ideal) x ws (idx_main_call4_v1 (ix1 b) k)
      = ∑ u : Fin 32000, logit x ws b u * logit x ws b u :=
    Finset.sum_congr rfl fun k _ => by
      rw [show idx_main_call4_v1 (ix1 b) k = ix2 b k from
          funext fun a => Fin.ext (by match a with | ⟨0, _⟩ => rfl | ⟨1, _⟩ => rfl),
        val_main_call4_v0_apply, student_logit]
      rfl
  rw [hsum, Ideal.hostUnary_sqrt_def, Ideal.maximumf_def, Ideal.ofBits_def]
  rfl

/-- The clamped norm of row `b` of the teacher logits. -/
theorem teacher_norm (b : Fin 2048) :
    val_main_v18 (F := Ideal) y wt (ix2 b (0 : Fin 1))
      = max (Ideal.sqrt (∑ u : Fin 32000, logit y wt b u * logit y wt b u)) eps := by
  rw [val_main_v18_apply, val_main_v16_apply, val_main_call5_v2_apply,
    show idx_main_call5_v2 (ix2 b (0 : Fin 1)) = ix1 b from funext fun a => Fin.ext (by match a with | ⟨0, _⟩ => rfl),
    val_main_call5_v1_apply, val_main_call5_cst_apply,
    show FloatOps.ofBits (F := Ideal) .f32 0x00000000#32 = 0 from Ideal.ofBits_zero_f32, zero_add,
    val_main_v17_apply, val_main_cst_4_apply]
  have hsum : ∑ k : Fin 32000, val_main_call5_v0 (F := Ideal) y wt (idx_main_call5_v1 (ix1 b) k)
      = ∑ u : Fin 32000, logit y wt b u * logit y wt b u :=
    Finset.sum_congr rfl fun k _ => by
      rw [show idx_main_call5_v1 (ix1 b) k = ix2 b k from
          funext fun a => Fin.ext (by match a with | ⟨0, _⟩ => rfl | ⟨1, _⟩ => rfl),
        val_main_call5_v0_apply, teacher_logit]
      rfl
  rw [hsum, Ideal.hostUnary_sqrt_def, Ideal.maximumf_def, Ideal.ofBits_def]
  rfl

/-- Row `b` of one minus the summed products of the normalised rows is the row's cosine term. -/
theorem soft_row (b : Fin 2048) :
    val_main_v26 (F := Ideal) x ws y wt (ix1 b) = cosRow (logit x ws b) (logit y wt b) := by
  rw [val_main_v26_apply, val_main_v25_apply, val_main_cst_6_apply, val_main_v24_apply, val_main_cst_5_apply,
    show FloatOps.ofBits (F := Ideal) .f32 0x00000000#32 = 0 from Ideal.ofBits_zero_f32, zero_add]
  have hsum : ∑ k : Fin 32000, val_main_v23 (F := Ideal) x ws y wt (idx_main_v24 (ix1 b) k)
      = ∑ v : Fin 32000, Ideal.div (logit x ws b v) (max (Ideal.sqrt (∑ u : Fin 32000, logit x ws b u * logit x ws b u)) eps)
          * Ideal.div (logit y wt b v) (max (Ideal.sqrt (∑ u : Fin 32000, logit y wt b u * logit y wt b u)) eps) :=
    Finset.sum_congr rfl fun k _ => by
      rw [show idx_main_v24 (ix1 b) k = ix2 b k from
          funext fun a => Fin.ext (by match a with | ⟨0, _⟩ => rfl | ⟨1, _⟩ => rfl),
        val_main_v23_apply, val_main_v20_apply, val_main_v22_apply, student_logit, teacher_logit,
        val_main_v19_apply, val_main_v21_apply,
        show idx_main_v19 (ix2 b k) = ix2 b (0 : Fin 1) from
          funext fun a => Fin.ext (by match a with | ⟨0, _⟩ => rfl | ⟨1, _⟩ => rfl),
        show idx_main_v21 (ix2 b k) = ix2 b (0 : Fin 1) from
          funext fun a => Fin.ext (by match a with | ⟨0, _⟩ => rfl | ⟨1, _⟩ => rfl),
        student_norm, teacher_norm]
      rfl
  rw [hsum]
  rfl

end Soft

/-! ## The result -/

/-- A sum over the row indices is the sum over the rows. -/
theorem sum_rows (f : S2048.Idx → EReal) : ∑ j : S2048.Idx, f j = ∑ b : Fin 2048, f (ix1 b) :=
  (Equiv.sum_comp (idxEquiv1 (n := 2048)).symm f).symm

/-- The host program's result, as a function of its five argument arrays, is the whole-row mean: half the
    mean cross-entropy term plus half the mean cosine term — provided every label is a class below 32000 or
    the ignore value. -/
theorem result_eq (x : FVec Ideal S2048x2048 .f32) (ws : FVec Ideal S32000x2048 .f32)
    (y : FVec Ideal S2048x4096 .f32) (wt : FVec Ideal S32000x4096 .f32) (lab : IVec S2048 32)
    (hlab : ∀ b : Fin 2048, (lab (ValueIdx.ix1 b)).toNat < 32000 ∨ lab (ValueIdx.ix1 b) = Cert.Distill.ignoreWord) :
    val_main_v31 (F := Ideal) x ws y wt lab = fun _ => Cert.Distill.plainMean x ws y wt lab := by
  funext i
  have hhard : ∑ j : S2048.Idx, val_main_v10 (F := Ideal) x ws lab j
      = ∑ b : Fin 2048, ceRow (logit x ws b) (lab (ix1 b)) := by
    rw [sum_rows]
    exact Finset.sum_congr rfl fun b _ => hard_row x ws lab b (hlab b)
  have hsoft : ∑ j : S2048.Idx, val_main_v26 (F := Ideal) x ws y wt j
      = ∑ b : Fin 2048, cosRow (logit x ws b) (logit y wt b) := by
    rw [sum_rows]
    exact Finset.sum_congr rfl fun b _ => soft_row x ws y wt b
  rw [val_main_v31_apply, val_main_v29_apply, val_main_v30_apply, val_main_cst_9_apply, val_main_cst_10_apply,
    val_main_v12_apply, val_main_v28_apply, val_main_v11_apply, val_main_v27_apply, val_main_cst_1_apply,
    val_main_cst_7_apply, val_main_cst_2_apply, val_main_cst_8_apply,
    show FloatOps.ofBits (F := Ideal) .f32 0x00000000#32 = 0 from Ideal.ofBits_zero_f32, zero_add, zero_add,
    hhard, hsoft]
  rfl

end Cert.ReferenceIdeal.RefValue

end
-- ==== Proof.KernelPayloads.lean ====
/-
  The values the kernel's body computes, each read at one index over the extended reals.

  The body works on one tile: 512 batch rows against 256 vocabulary rows. Its two products contract the hidden axis,
  so entry `(p, j)` of the student tile is `∑ h, x p h · w j h` and likewise the teacher's (changes of float format
  are the identity here, and a product accumulated into a zero tile is the plain contraction). Everything else is a
  lane reduction of a tile stood up as a 512 × 1 column and combined, row by row, with the running columns: the tile's
  row maximum (the fold of `max` from `-∞`), the rescaled sum of exponentials, the logit whose column word equals the
  row's label word, the sums of squares and of products; and, after the last tile, the row loss read off the six
  running columns. The columns' starting values are `-∞` for the maximum and `0` for the sums.
-/
import proofs.«400147_j50714973831635_2_alg».proof.Proof.Gen.KernelIdeal.Skeleton
import proofs.«400147_j50714973831635_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Mathlib.Algebra.BigOperators.Group.Finset.Defs
import Mathlib.Algebra.BigOperators.Group.Finset.Basic
import Mathlib.Data.Finset.Fold
import Mathlib.Data.EReal.Basic

noncomputable section

namespace Cert.KernelIdeal.Pay

open Cert.KernelIdeal Cert.KernelIdeal.Gen Idealize.ShloMosaic Idealize.ShloMosaic.ValueIdx

/-! ## The two products: the contraction over the hidden axis

For each product, the operand indices at output `(p, j)` and contraction coordinate `h` are `(p, h)` on the left and
`(j, h)` on the right (both operands contract their second axis); one small fact per operand axis. -/

/-- Left operand, row axis: the output row. -/
theorem lhs9_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide),
    dif_pos (show (0 : Fin S512x2048.rank) ∈ dot_S512x2048_S256x2048_S512x256_1_1_0_0_n_n.lhsNonContracting by decide)]
  rfl

/-- Left operand, hidden axis: the contraction coordinate. -/
theorem lhs9_1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q

/-- Right operand, row axis: the output column. -/
theorem rhs9_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide),
    dif_pos (show (0 : Fin S256x2048.rank) ∈ dot_S512x2048_S256x2048_S512x256_1_1_0_0_n_n.rhsNonContracting by decide)]
  rfl

/-- Right operand, hidden axis: the contraction coordinate. -/
theorem rhs9_1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- Entry `(p, j)` of the student tile: row `p` of the activations against row `j` of the weights, summed over the hidden axis. -/
theorem pay9_apply (x0 : Vec Ideal S512x2048 .bf16) (x1 : Vec Ideal S256x2048 .f32) (p : Fin 512) (j : Fin 256) :
    k0_pay9 (F := Ideal) x0 x1 (ix2 p j) = ∑ h : Fin 2048, x0 (ix2 p h) * x1 (ix2 j h) := by
  unfold k0_pay9
  simp only [matmul]
  rw [Ideal.matmul_constant_zero_apply,
    ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p j)
      ((contrEquiv1 dot_S512x2048_S256x2048_S512x256_1_1_0_0_n_n 2048 rfl rfl).symm k) = ix2 p k :=
    funext fun a => Fin.ext (by
      match a with
      | ⟨0, _⟩ => exact lhs9_0 _ _
      | ⟨1, _⟩ => exact (lhs9_1 _ _).trans hk)
  have er : dot_S512x2048_S256x2048_S512x256_1_1_0_0_n_n.rhsIdx (ix2 p j)
      ((contrEquiv1 dot_S512x2048_S256x2048_S512x256_1_1_0_0_n_n 2048 rfl rfl).symm k) = ix2 j k :=
    funext fun a => Fin.ext (by
      match a with
      | ⟨0, _⟩ => exact rhs9_0 _ _
      | ⟨1, _⟩ => exact (rhs9_1 _ _).trans hk)
  rw [el, er, shapeCast_self]
  rfl

/-- Left operand, row axis: the output row. -/
theorem lhs10_0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl

/-- Left operand, hidden axis: the contraction coordinate. -/
theorem lhs10_1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q

/-- Right operand, row axis: the output column. -/
theorem rhs10_0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl

/-- Right operand, hidden axis: the contraction coordinate. -/
theorem rhs10_1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- Entry `(p, j)` of the teacher tile: row `p` of the activations against row `j` of the weights, summed over the hidden axis. -/
theorem pay10_apply (x2 : Vec Ideal S512x4096 .bf16) (x3 : Vec Ideal S256x4096 .f32) (p : Fin 512) (j : Fin 256) :
    k0_pay10 (F := Ideal) x2 x3 (ix2 p j) = ∑ h : Fin 4096, x2 (ix2 p h) * x3 (ix2 j h) := by
  unfold k0_pay10
  simp only [matmul]
  rw [Ideal.matmul_constant_zero_apply,
    ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p j)
      ((contrEquiv1 dot_S512x4096_S256x4096_S512x256_1_1_0_0_n_n 4096 rfl rfl).symm k) = ix2 p k :=
    funext fun a => Fin.ext (by
      match a with
      | ⟨0, _⟩ => exact lhs10_0 _ _
      | ⟨1, _⟩ => exact (lhs10_1 _ _).trans hk)
  have er : dot_S512x4096_S256x4096_S512x256_1_1_0_0_n_n.rhsIdx (ix2 p j)
      ((contrEquiv1 dot_S512x4096_S256x4096_S512x256_1_1_0_0_n_n 4096 rfl rfl).symm k) = ix2 j k :=
    funext fun a => Fin.ext (by
      match a with
      | ⟨0, _⟩ => exact rhs10_0 _ _
      | ⟨1, _⟩ => exact (rhs10_1 _ _).trans hk)
  rw [el, er, shapeCast_self]
  rfl

/-! ## Two layout steps at an index: a vector stood up as a column, a column copied across the lanes -/

/-- A vector of length `a` viewed as an `a × 1` column: the column's entry `(i, u)` is the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column copied across `b` lanes: entry `(p, c)` of the copy is the column's entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane reductions of a `512 × 256` tile, as columns -/

/-- Row `p` of the tile with lane `k` put back is the tile index `(p, k)`. -/
theorem lift_row (p : Fin 512) (k : Fin 256) : reduces_S512x256_S512.lift (ix1 p) k = ix2 p k :=
  funext fun c => Fin.ext (by
    match c with
    | ⟨0, _⟩ => rfl
    | ⟨1, _⟩ => rfl)

/-- The lane sum of a tile, stood up as a column, is at row `p` the sum of row `p`. -/
theorem colSum_apply (src : FVec Ideal S512x256 .f32) (hφ : FKind.Formats .f32)
    (hacc : (0x00000000#32 : BitVec 32) = FKind.add.neutral .f32 hφ) (p : Fin 512) (u : Fin 1) :
    shapeCast S512x1 (multiReduction (F := Ideal) .add [1] S512 src 0x00000000#32 reduces_S512x256_S512 hφ hacc)
        shapeCasts_S512_S512x1 (ix2 p u) = ∑ j : Fin 256, src (ix2 p j) := by
  refine (shapeCast_a_a1_apply _ shapeCasts_S512_S512x1 p u).trans ?_
  refine (Ideal.multiReduction_add_single src 0x00000000#32 reduces_S512x256_S512 hφ hacc (ix1 p)).trans ?_
  exact Finset.sum_congr rfl fun k _ => congrArg src (lift_row p k)

/-- The word `0xFF800000` is the pattern of `-∞`. -/
theorem ofBits_negInf_f32 : Ideal.ofBits .f32 0xFF800000#32 = ⊥ := by simp [Ideal.ofBits, Ideal.ieee]

/-- The lane maximum of a tile, stood up as a column, is at row `p` the fold of `max` from `-∞` over row `p`. -/
theorem colMax_apply (src : FVec Ideal S512x256 .f32) (hφ : FKind.Formats .f32)
    (hacc : (0xFF800000#32 : BitVec 32) = FKind.maximumf.neutral .f32 hφ) (p : Fin 512) (u : Fin 1) :
    shapeCast S512x1 (multiReduction (F := Ideal) .maximumf [1] S512 src 0xFF800000#32 reduces_S512x256_S512 hφ hacc)
        shapeCasts_S512_S512x1 (ix2 p u)
      = (Finset.univ : Finset (Fin 256)).fold max ⊥ (fun j => src (ix2 p j)) := by
  refine (shapeCast_a_a1_apply _ shapeCasts_S512_S512x1 p u).trans ?_
  refine (Ideal.multiReduction_maximumf_single src 0xFF800000#32 reduces_S512x256_S512 hφ hacc (ix1 p)).trans ?_
  have e0 : FloatOps.ofBits (F := Ideal) .f32 0xFF800000#32 = (⊥ : EReal) := ofBits_negInf_f32
  have e1 : src ∘ reduces_S512x256_S512.lift (ix1 p) = fun j : Fin 256 => src (ix2 p j) :=
    funext fun k => congrArg src (lift_row p k)
  rw [e0, e1]
  rfl

/-! ## The payloads that add a lane sum to a running column -/

/-- The running sum of products plus this tile's row sum of the product tile. -/
theorem pay1_apply (v66 : Vec Ideal S512x1 .f32) (v67 : FVec Ideal S512x256 .f32) (p : Fin 512) :
    k0_pay1 (F := Ideal) v66 v67 (ix2 p 0) = v66 (ix2 p 0) + ∑ j : Fin 256, v67 (ix2 p j) := by
  unfold k0_pay1
  refine (congrFun (shapeCast_self _ shapeCasts_S512x1_S512x1) (ix2 p 0)).trans ?_
  exact congrArg (v66 (ix2 p 0) + ·) (colSum_apply v67 _ _ p 0)

/-- The running sum of squared student logits plus this tile's. -/
theorem pay16_apply (v11 : FVec Ideal S512x256 .f32) (v50 : Vec Ideal S512x1 .f32) (p : Fin 512) :
    k0_pay16 (F := Ideal) v11 v50 (ix2 p 0) = v50 (ix2 p 0) + ∑ j : Fin 256, v11 (ix2 p j) * v11 (ix2 p j) := by
  unfold k0_pay16
  refine (congrFun (shapeCast_self _ shapeCasts_S512x1_S512x1) (ix2 p 0)).trans ?_
  exact congrArg (v50 (ix2 p 0) + ·) (colSum_apply (mulf v11 v11) _ _ p 0)

/-- The running sum of squared teacher logits plus this tile's. -/
theorem pay17_apply (v12 : FVec Ideal S512x256 .f32) (v58 : Vec Ideal S512x1 .f32) (p : Fin 512) :
    k0_pay17 (F := Ideal) v12 v58 (ix2 p 0) = v58 (ix2 p 0) + ∑ j : Fin 256, v12 (ix2 p j) * v12 (ix2 p j) := by
  unfold k0_pay17
  refine (congrFun (shapeCast_self _ shapeCasts_S512x1_S512x1) (ix2 p 0)).trans ?_
  exact congrArg (v58 (ix2 p 0) + ·) (colSum_apply (mulf v12 v12) _ _ p 0)

/-- The product tile of the two logit tiles, entry by entry. -/
theorem pay18_apply (v11 v12 : FVec Ideal S512x256 .f32) (p : Fin 512) (j : Fin 256) :
    k0_pay18 (F := Ideal) v11 v12 (ix2 p j) = v11 (ix2 p j) * v12 (ix2 p j) := rfl

/-! ## The running maximum -/

/-- The new running maximum: the old one against this tile's row maximum. -/
theorem pay15_apply (v31 v32 : Vec Ideal S512x1 .f32) (p : Fin 512) :
    k0_pay15 (F := Ideal) v31 v32 (ix2 p 0) = max (v32 (ix2 p 0)) (v31 (ix2 p 0)) := by
  unfold k0_pay15
  exact congrFun (shapeCast_self _ shapeCasts_S512x1_S512x1) (ix2 p 0)

/-- This tile's row maximum of the student logits. -/
theorem pay12_apply (x0 : Vec Ideal S512x2048 .bf16) (x1 : Vec Ideal S256x2048 .f32) (p : Fin 512) :
    k0_pay12 (F := Ideal) x0 x1 (ix2 p 0)
      = (Finset.univ : Finset (Fin 256)).fold max ⊥ (fun j => k0_pay9 (F := Ideal) x0 x1 (ix2 p j)) := by
  unfold k0_pay12
  exact colMax_apply (k0_pay9 (F := Ideal) x0 x1) _ _ p 0

/-! ## The first tile's initial values -/

/-- The maximum starts at `-∞`. -/
theorem pay3_apply (p : Fin 512) : k0_pay3 (F := Ideal) (ix2 p 0) = ⊥ := by
  unfold k0_pay3
  refine (congrFun (shapeCast_self _ shapeCasts_S512x1_S512x1) (ix2 p 0)).trans ?_
  exact ofBits_negInf_f32

/-- Each of the five running sums starts at `0`. -/
theorem pay4_apply (p : Fin 512) : k0_pay4 (F := Ideal) (ix2 p 0) = 0 := by
  unfold k0_pay4
  refine (congrFun (shapeCast_self _ shapeCasts_S512x1_S512x1) (ix2 p 0)).trans ?_
  exact Ideal.ofBits_zero_f32

theorem pay5_apply (p : Fin 512) : k0_pay5 (F := Ideal) (ix2 p 0) = 0 := by
  unfold k0_pay5
  refine (congrFun (shapeCast_self _ shapeCasts_S512x1_S512x1) (ix2 p 0)).trans ?_
  exact Ideal.ofBits_zero_f32

theorem pay6_apply (p : Fin 512) : k0_pay6 (F := Ideal) (ix2 p 0) = 0 := by
  unfold k0_pay6
  refine (congrFun (shapeCast_self _ shapeCasts_S512x1_S512x1) (ix2 p 0)).trans ?_
  exact Ideal.ofBits_zero_f32

theorem pay7_apply (p : Fin 512) : k0_pay7 (F := Ideal) (ix2 p 0) = 0 := by
  unfold k0_pay7
  refine (congrFun (shapeCast_self _ shapeCasts_S512x1_S512x1) (ix2 p 0)).trans ?_
  exact Ideal.ofBits_zero_f32

theorem pay8_apply (p : Fin 512) : k0_pay8 (F := Ideal) (ix2 p 0) = 0 := by
  unfold k0_pay8
  refine (congrFun (shapeCast_self _ shapeCasts_S512x1_S512x1) (ix2 p 0)).trans ?_
  exact Ideal.ofBits_zero_f32

/-! ## The rescaled sum of exponentials -/

/-- The old sum of exponentials rescaled from the old maximum to the new, plus this tile's exponentials taken against the
    new maximum. -/
theorem pay14_apply (v11 : FVec Ideal S512x256 .f32) (v31 v32 v39 : Vec Ideal S512x1 .f32) (p : Fin 512) :
    k0_pay14 (F := Ideal) v11 v31 v32 v39 (ix2 p 0)
      = v39 (ix2 p 0) * Ideal.exp (v32 (ix2 p 0) - max (v32 (ix2 p 0)) (v31 (ix2 p 0)))
        + ∑ j : Fin 256, Ideal.exp (v11 (ix2 p j) - max (v32 (ix2 p 0)) (v31 (ix2 p 0))) := by
  unfold k0_pay14
  refine (congrFun (shapeCast_self _ shapeCasts_S512x1_S512x1) (ix2 p 0)).trans ?_
  refine congrArg (v39 (ix2 p 0) * Ideal.exp (v32 (ix2 p 0) - max (v32 (ix2 p 0)) (v31 (ix2 p 0))) + ·) ?_
  refine (colSum_apply _ _ _ p 0).trans ?_
  refine Finset.sum_congr rfl fun j _ => ?_
  show Ideal.exp (v11 (ix2 p j)
    - broadcastTo S512x256 (k0_pay13 (F := Ideal) v31 v32) broadcasts_S512x1_S512x256 (ix2 p j)) = _
  rw [broadcastTo_a1_ab_apply]
  rfl

/-! ## The logit met at the label -/

/-- A select on the bit of a word equality is the `if` on that equality. -/
theorem select_cmpi_eq {α : Type} (a b : BitVec 32) (A B : α) :
    Scalar.select (IntOp.cmpi .eq a b) A B = if a = b then A else B := by
  by_cases h : a = b
  · rw [if_pos h, StableHlo.Predicate.cmpi_eq_iff.mpr h, select_one]
  · rw [if_neg h, eq_zero_of_ne_one (fun hc => h (StableHlo.Predicate.cmpi_eq_iff.mp hc)), select_zero]

/-- Tile `k`'s first column word plus the lane word is the word of column `k · 256 + j` (both sides wrap alike). -/
theorem tileCol_word (k j : ℕ) :
    IntOp.addi (Scalar.muli (BitVec.ofNat 32 k) 256#32) (BitVec.ofNat 32 j) = BitVec.ofNat 32 (k * 256 + j) := by
  show BitVec.ofNat 32 k * BitVec.ofNat 32 256 + BitVec.ofNat 32 j = _
  rw [BitVec.ofNat_add, BitVec.ofNat_mul]

/-- The running label logit plus, over this tile's columns, the student logit at the column whose word is the row's
    label word (`0` elsewhere). -/
theorem pay11_apply (i : grid0.Coords) (x0 : Vec Ideal S512x2048 .bf16) (x1 : Vec Ideal S256x2048 .f32)
    (v17 : Vec Ideal S512x1 .i32) (v25 : Vec Ideal S512x1 .f32) (p : Fin 512) :
    k0_pay11 (F := Ideal) i x0 x1 v17 v25 (ix2 p 0)
      = v25 (ix2 p 0) + ∑ j : Fin 256,
          (if BitVec.ofNat 32 ((i 1).val * 256 + j.val) = v17 (ix2 p 0) then k0_pay9 (F := Ideal) x0 x1 (ix2 p j) else 0) := by
  unfold k0_pay11
  refine (congrFun (shapeCast_self _ shapeCasts_S512x1_S512x1) (ix2 p 0)).trans ?_
  refine congrArg (v25 (ix2 p 0) + ·) ?_
  refine (colSum_apply _ _ _ p 0).trans ?_
  refine Finset.sum_congr rfl fun j _ => ?_
  show Scalar.select
      (IntOp.cmpi .eq
        (IntOp.addi (Scalar.muli (BitVec.ofNat 32 (i 1).val) 256#32) (iota .tc S512x256 32 [1] iota_S512x256_d1_w32 (ix2 p j)))
        (broadcastTo S512x256 (shapeCast S512x1 v17 shapeCasts_S512x1_S512x1) broadcasts_S512x1_S512x256 (ix2 p j)))
      (k0_pay9 (F := Ideal) x0 x1 (ix2 p j)) (Ideal.ofBits .f32 0x00000000#32) = _
  rw [iota_single_apply, broadcastTo_a1_ab_apply, shapeCast_self, Ideal.ofBits_zero_f32, select_cmpi_eq]
  show (if IntOp.addi (Scalar.muli (BitVec.ofNat 32 (i 1).val) 256#32) (BitVec.ofNat 32 j.val) = v17 (ix2 p 0) then _ else _) = _
  rw [tileCol_word]

/-! ## The row loss read off the six statistics -/

/-- The widened bit of "the label is not the ignore value", converted to a float, is `1` on a class label and `0` on the
    ignore value. -/
theorem validBit_apply (w : BitVec 32) :
    FloatOps.sitofp (F := Ideal) .f32 ((IntOp.cmpi .ne w 4294967196#32).setWidth 32) = Cert.Distill.validF w := by
  unfold Cert.Distill.validF Cert.Distill.ignoreWord
  by_cases h : w = 4294967196#32
  · have hb : IntOp.cmpi .ne w 4294967196#32 = 0#1 := by simp [IntOp.cmpi, h]
    have e : ((0#1 : BitVec 1).setWidth 32).toInt = 0 := by decide
    rw [if_pos h, hb]
    show ((((0#1 : BitVec 1).setWidth 32).toInt : ℝ) : EReal) = 0
    rw [e]; simp
  · have hne : (w != 4294967196#32) = true := bne_iff_ne.mpr h
    have hb : IntOp.cmpi .ne w 4294967196#32 = 1#1 := by
      show BitVec.ofBool (w != 4294967196#32) = 1#1
      rw [hne]; rfl
    have e : ((1#1 : BitVec 1).setWidth 32).toInt = 1 := by decide
    rw [if_neg h, hb]
    show ((((1#1 : BitVec 1).setWidth 32).toInt : ℝ) : EReal) = 1
    rw [e]; simp

/-- After the last tile: half the cross-entropy term (switched off on the ignore label) plus half the cosine term, from the
    running maximum, sum of exponentials, label logit and the three sums of squares and products. -/
theorem pay2_apply (v77 v81 v85 v88 v89 v91 : Vec Ideal S512x1 .f32) (v96 : Vec Ideal S512x1 .i32) (p : Fin 512) :
    k0_pay2 (F := Ideal) v77 v81 v85 v88 v89 v91 v96 (ix2 p 0)
      = Cert.Distill.Stats.loss
          ⟨v89 (ix2 p 0), v91 (ix2 p 0), v88 (ix2 p 0), v77 (ix2 p 0), v81 (ix2 p 0), v85 (ix2 p 0)⟩
          (Cert.Distill.validF (v96 (ix2 p 0))) := by
  unfold k0_pay2 Cert.Distill.Stats.loss
  show Cert.Distill.half
        * ((Ideal.ofBits .f32 0x00000000#32 - ((v88 (ix2 p 0) - v89 (ix2 p 0)) - Ideal.log (v91 (ix2 p 0))))
            * FloatOps.sitofp (F := Ideal) .f32
                ((IntOp.cmpi .ne (shapeCast S512x1 v96 shapeCasts_S512x1_S512x1 (ix2 p 0)) 4294967196#32).setWidth 32))
      + Cert.Distill.half
        * (Cert.Distill.one - Ideal.div (v85 (ix2 p 0))
            (max (Ideal.sqrt (v77 (ix2 p 0))) Cert.Distill.eps * max (Ideal.sqrt (v81 (ix2 p 0))) Cert.Distill.eps)) = _
  rw [shapeCast_self, validBit_apply, Ideal.ofBits_zero_f32]

end Cert.KernelIdeal.Pay

end
-- ==== Proof.KernelPieces.lean ====
/-
  One grid point of the tiled pass, read as pure arithmetic.

  The grid is 4 row blocks × 125 column tiles, walked tile by tile within a row block. At each point the body
  sees five input blocks — a block of 512 rows of the student's activations and a tile of 256 rows of the student's
  weight matrix, the same pair for the teacher, and the rows' labels — and six carried vectors of one entry per
  row: the running maximum of the student logits, the sum of their exponentials rescaled to that maximum, the
  student logit met at the label, and the three sums of squares and products of student and teacher logits.

  `upd` is the step that folds one tile into the six vectors. At the first tile of a row block the step is
  applied to the reset values `resetSc` (maximum −∞, every sum zero), which the body stores and reads back before
  it updates; at every later tile it is applied to what the tile before left. At the last tile the body also
  computes the row losses `outOf` from the six vectors it has JUST updated (its reads come after its writes), and
  stores them into the output block.

  Each theorem below identifies what the body's stores leave behind at a point with these terms.
-/
import proofs.«400147_j50714973831635_2_alg».proof.Proof.Gen.KernelIdeal.Frame
import Idealize.ShloMosaic.Lib.Pipeline.Value
import Idealize.ShloMosaic.PureOps.Ideal
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole-buffer offsets `![0, 0]` are the zero offsets. -/
theorem hz : (![0, 0] : Fin 2 → Nat) = fun _ => 0 := funext fun a => by fin_cases a <;> rfl

/-! ## What each case leaves in each carried vector, over arbitrary buffers and contents -/

section pieces

variable (c : Dev nD) (i : grid0.Coords) (arg2 : Memref sig .tc .vmem S512x2048 .bf16) (harg2 : arg2.IsWhole) (arg3 : Memref sig .tc .vmem S256x2048 .f32) (harg3 : arg3.IsWhole) (arg4 : Memref sig .tc .vmem S512x4096 .bf16) (harg4 : arg4.IsWhole) (arg5 : Memref sig .tc .vmem S256x4096 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
variable (x0 : Vec F S512x2048 .bf16) (x1 : Vec F S256x2048 .f32) (x2 : Vec F S512x4096 .bf16) (x3 : Vec F S256x4096 .f32) (x4 : Vec F S512x1 .i32)

/-- First tile of a row block, the running maximum of the student logits: the reset value is written, read back, and the tile folded in. -/
theorem sout_A_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay15 (k0_pay12 x0 x1) k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz, View.readCov_unit_zero (S := S512x1) _ hz]

/-- First tile of a row block, the sum of exponentials rescaled to the maximum: the reset value is written, read back, and the tile folded in. -/
theorem sout_A_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay14 (k0_pay9 x0 x1) (k0_pay12 x0 x1) k0_pay3 k0_pay4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz, View.readCov_unit_zero (S := S512x1) _ hz]

/-- First tile of a row block, the student logit met at the label: the reset value is written, read back, and the tile folded in. -/
theorem sout_A_2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay11 i x0 x1 x4 k0_pay5 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz, View.readCov_unit_zero (S := S512x1) _ hz]

/-- First tile of a row block, the sum of squared student logits: the reset value is written, read back, and the tile folded in. -/
theorem sout_A_3 (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay16 (k0_pay9 x0 x1) k0_pay6 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz, View.readCov_unit_zero (S := S512x1) _ hz]

/-- First tile of a row block, the sum of squared teacher logits: the reset value is written, read back, and the tile folded in. -/
theorem sout_A_4 (hc0 : cond0_0 i) (hc1 : ¬cond0_1 i) :
    sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay17 (k0_pay10 x2 x3) k0_pay7 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz, View.readCov_unit_zero (S := S512x1) _ hz]

/-- First tile of a row block, the sum of products of student and teacher logits: the reset value is written, read back, and the tile folded in. -/
theorem sout_A_5 (hc0 : cond0_0 i) (hc1 : ¬cond0_1 i) :
    sout0_A_5 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay1 k0_pay8 (k0_pay18 (k0_pay9 x0 x1) (k0_pay10 x2 x3)) := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz, View.readCov_unit_zero (S := S512x1) _ hz]

variable (xs0 xs1 xs2 xs3 xs4 xs5 : Vec F S512x1 .f32)

/-- A middle tile, the running maximum of the student logits: the tile folded into what the tile before left. -/
theorem sout_B_0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay15 (k0_pay12 x0 x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- A middle tile, the sum of exponentials rescaled to the maximum: the tile folded into what the tile before left. -/
theorem sout_B_1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay14 (k0_pay9 x0 x1) (k0_pay12 x0 x1) xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- A middle tile, the student logit met at the label: the tile folded into what the tile before left. -/
theorem sout_B_2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay11 i x0 x1 x4 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- A middle tile, the sum of squared student logits: the tile folded into what the tile before left. -/
theorem sout_B_3 (hc0 : ¬cond0_0 i) (hc1 : ¬cond0_1 i) :
    sout0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay16 (k0_pay9 x0 x1) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- A middle tile, the sum of squared teacher logits: the tile folded into what the tile before left. -/
theorem sout_B_4 (hc0 : ¬cond0_0 i) (hc1 : ¬cond0_1 i) :
    sout0_B_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay17 (k0_pay10 x2 x3) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- A middle tile, the sum of products of student and teacher logits: the tile folded into what the tile before left. -/
theorem sout_B_5 (hc0 : ¬cond0_0 i) (hc1 : ¬cond0_1 i) :
    sout0_B_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay1 xs5 (k0_pay18 (k0_pay9 x0 x1) (k0_pay10 x2 x3)) := by
  unfold sout0_B_5
  rw [View.read_writes_eq_canon _ _ _ (scover0_B_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- The last tile, the running maximum of the student logits: the tile folded into what the tile before left. -/
theorem sout_C_0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay15 (k0_pay12 x0 x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- The last tile, the sum of exponentials rescaled to the maximum: the tile folded into what the tile before left. -/
theorem sout_C_1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay14 (k0_pay9 x0 x1) (k0_pay12 x0 x1) xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- The last tile, the student logit met at the label: the tile folded into what the tile before left. -/
theorem sout_C_2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay11 i x0 x1 x4 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- The last tile, the sum of squared student logits: the tile folded into what the tile before left. -/
theorem sout_C_3 (hc0 : ¬cond0_0 i) (hc1 : cond0_1 i) :
    sout0_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay16 (k0_pay9 x0 x1) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- The last tile, the sum of squared teacher logits: the tile folded into what the tile before left. -/
theorem sout_C_4 (hc0 : ¬cond0_0 i) (hc1 : cond0_1 i) :
    sout0_C_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay17 (k0_pay10 x2 x3) xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- The last tile, the sum of products of student and teacher logits: the tile folded into what the tile before left. -/
theorem sout_C_5 (hc0 : ¬cond0_0 i) (hc1 : cond0_1 i) :
    sout0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5 = k0_pay1 xs5 (k0_pay18 (k0_pay9 x0 x1) (k0_pay10 x2 x3)) := by
  unfold sout0_C_5
  rw [View.read_writes_eq_canon _ _ _ (scover0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz]

/-- The last tile, the output block: the row losses of the six vectors as just updated (each is read after the
    store that updated it), and of the labels. -/
theorem out_C_5 (hc0 : ¬cond0_0 i) (hc1 : cond0_1 i) :
    out0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5
      = k0_pay2 (k0_pay16 (k0_pay9 x0 x1) xs3) (k0_pay17 (k0_pay10 x2 x3) xs4) (k0_pay1 xs5 (k0_pay18 (k0_pay9 x0 x1) (k0_pay10 x2 x3))) (k0_pay11 i x0 x1 x4 xs2) (k0_pay15 (k0_pay12 x0 x1) xs0) (k0_pay14 (k0_pay9 x0 x1) (k0_pay12 x0 x1) xs0 xs1) x4 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, harg10.read_unread, harg11.read_unread, harg12.read_unread, harg13.read_unread, View.ld_unit_zero (S := S512x1) hz, View.ld_unit_zero (S := S512x2048) hz, View.ld_unit_zero (S := S256x2048) hz, View.ld_unit_zero (S := S512x4096) hz, View.ld_unit_zero (S := S256x4096) hz, View.readCov_unit_zero (S := S512x1) _ hz]

end pieces

/-! ## The step and the read-off -/

/-- The six carried vectors, in the order the body takes them: running maximum, rescaled sum of exponentials,
    logit met at the label, sum of squared student logits, sum of squared teacher logits, sum of their products. -/
abbrev Sc := Vec Ideal S512x1 .f32 × Vec Ideal S512x1 .f32 × Vec Ideal S512x1 .f32 × Vec Ideal S512x1 .f32 × Vec Ideal S512x1 .f32 × Vec Ideal S512x1 .f32

/-- What the first tile of a row block starts from: maximum −∞, every sum zero. -/
def resetSc : Sc := (k0_pay3 (F := Ideal), k0_pay4 (F := Ideal), k0_pay5 (F := Ideal), k0_pay6 (F := Ideal), k0_pay7 (F := Ideal), k0_pay8 (F := Ideal))

/-- One tile folded into the six vectors `o`: `x0`, `x1` are the student's rows and its tile of weight rows (their
    contraction is the tile's student logits), `x2`, `x3` the teacher's, `x4` the labels, `i` the grid position
    (its second coordinate says which columns the tile holds, for the comparison with the labels). The new
    maximum is the larger of the old one and the tile's; the new sum of exponentials is the old sum rescaled from
    the old maximum to the new one, plus the tile's exponentials taken against the new one: both are computed from
    the OLD maximum `o.1`, not from the first component of the result. -/
def upd (i : grid0.Coords) (x0 : Vec Ideal S512x2048 .bf16) (x1 : Vec Ideal S256x2048 .f32) (x2 : Vec Ideal S512x4096 .bf16) (x3 : Vec Ideal S256x4096 .f32) (x4 : Vec Ideal S512x1 .i32) (o : Sc) : Sc :=
  (k0_pay15 (k0_pay12 x0 x1) o.1,
   k0_pay14 (k0_pay9 x0 x1) (k0_pay12 x0 x1) o.1 o.2.1,
   k0_pay11 i x0 x1 x4 o.2.2.1,
   k0_pay16 (k0_pay9 x0 x1) o.2.2.2.1,
   k0_pay17 (k0_pay10 x2 x3) o.2.2.2.2.1,
   k0_pay1 o.2.2.2.2.2 (k0_pay18 (k0_pay9 x0 x1) (k0_pay10 x2 x3)))

/-- The row losses read off six vectors `n` and the labels `x4`. -/
def outOf (x4 : Vec Ideal S512x1 .i32) (n : Sc) : Vec Ideal S512x1 .f32 :=
  k0_pay2 n.2.2.2.1 n.2.2.2.2.1 n.2.2.2.2.2 n.2.2.1 n.1 n.2.1 x4

section cases

variable (c : Dev nD) (i : grid0.Coords) (arg2 : Memref sig .tc .vmem S512x2048 .bf16) (harg2 : arg2.IsWhole) (arg3 : Memref sig .tc .vmem S256x2048 .f32) (harg3 : arg3.IsWhole) (arg4 : Memref sig .tc .vmem S512x4096 .bf16) (harg4 : arg4.IsWhole) (arg5 : Memref sig .tc .vmem S256x4096 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
variable (x0 : Vec Ideal S512x2048 .bf16) (x1 : Vec Ideal S256x2048 .f32) (x2 : Vec Ideal S512x4096 .bf16) (x3 : Vec Ideal S256x4096 .f32) (x4 : Vec Ideal S512x1 .i32)

/-- First tile of a row block: the six vectors left are the step applied to the reset values. -/
theorem souts_A (hc0 : cond0_0 i) (hc1 : ¬cond0_1 i) :
    (sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4,
     sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4,
     sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4,
     sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4,
     sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4,
     sout0_A_5 c i arg2 harg2 arg3 harg3 arg4 harg4 arg5 harg5 arg6 harg6 arg7 harg7 arg8 harg8 arg9 harg9 arg10 harg10 arg11 harg11 arg12 harg12 arg13 harg13 hc0 hc1 x0 x1 x2 x3 x4)
      = upd i x0 x1 x2 x3 x4 resetSc := by
  rw [sout_A_0 (F := Ideal) c i arg2 harg2 arg3 harg3 arg4 harg4 arg5 harg5 arg6 harg6 arg7 harg7 arg8 harg8 arg9 harg9 arg10 harg10 arg11 harg11 arg12 harg12 arg13 harg13 x0 x1 x2 x3 x4 hc0 hc1,
    sout_A_1 (F := Ideal) c i arg2 harg2 arg3 harg3 arg4 harg4 arg5 harg5 arg6 harg6 arg7 harg7 arg8 harg8 arg9 harg9 arg10 harg10 arg11 harg11 arg12 harg12 arg13 harg13 x0 x1 x2 x3 x4 hc0 hc1,
    sout_A_2 (F := Ideal) c i arg2 harg2 arg3 harg3 arg4 harg4 arg5 harg5 arg6 harg6 arg7 harg7 arg8 harg8 arg9 harg9 arg10 harg10 arg11 harg11 arg12 harg12 arg13 harg13 x0 x1 x2 x3 x4 hc0 hc1,
    sout_A_3 (F := Ideal) c i arg2 harg2 arg3 harg3 arg4 harg4 arg5 harg5 arg6 harg6 arg7 harg7 arg8 harg8 arg9 harg9 arg10 harg10 arg11 harg11 arg12 harg12 arg13 harg13 x0 x1 x2 x3 x4 hc0 hc1,
    sout_A_4 (F := Ideal) c i arg2 harg2 arg3 harg3 arg4 harg4 arg5 harg5 arg6 harg6 arg7 harg7 arg8 harg8 arg9 harg9 arg10 harg10 arg11 harg11 arg12 harg12 arg13 harg13 x0 x1 x2 x3 x4 hc0 hc1,
    sout_A_5 (F := Ideal) c i arg2 harg2 arg3 harg3 arg4 harg4 arg5 harg5 arg6 harg6 arg7 harg7 arg8 harg8 arg9 harg9 arg10 harg10 arg11 harg11 arg12 harg12 arg13 harg13 x0 x1 x2 x3 x4 hc0 hc1]
  rfl

variable (o : Sc)

/-- A middle tile: the six vectors left are the step applied to the six found. -/
theorem souts_B (hc0 : ¬cond0_0 i) (hc1 : ¬cond0_1 i) :
    (sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2,
     sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2,
     sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2,
     sout0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2,
     sout0_B_4 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2,
     sout0_B_5 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2)
      = upd i x0 x1 x2 x3 x4 o := by
  rw [sout_B_0 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1,
    sout_B_1 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1,
    sout_B_2 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1,
    sout_B_3 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1,
    sout_B_4 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1,
    sout_B_5 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1]
  rfl

/-- The last tile: the six vectors left are the step applied to the six found. -/
theorem souts_C (hc0 : ¬cond0_0 i) (hc1 : cond0_1 i) :
    (sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2,
     sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2,
     sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2,
     sout0_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2,
     sout0_C_4 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2,
     sout0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2)
      = upd i x0 x1 x2 x3 x4 o := by
  rw [sout_C_0 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1,
    sout_C_1 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1,
    sout_C_2 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1,
    sout_C_3 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1,
    sout_C_4 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1,
    sout_C_5 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1]
  rfl

/-- The last tile: the output block holds the row losses of the six vectors AFTER the step. -/
theorem out_C (hc0 : ¬cond0_0 i) (hc1 : cond0_1 i) :
    out0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 o.1 o.2.1 o.2.2.1 o.2.2.2.1 o.2.2.2.2.1 o.2.2.2.2.2 = outOf x4 (upd i x0 x1 x2 x3 x4 o) := by
  rw [out_C_5 (F := Ideal) c i arg2 harg2 arg3 harg3 arg4 harg4 arg5 harg5 arg6 harg6 arg7 harg7 arg8 harg8 arg9 harg9 arg10 harg10 arg11 harg11 arg12 harg12 arg13 harg13 x0 x1 x2 x3 x4 o.1 o.2.1 o.2.2.1 o.2.2.2.1 o.2.2.2.2.1 o.2.2.2.2.2 hc0 hc1]
  rfl

end cases

/-! ## Point by point -/

variable (m : (ℓ : Loc nD τ sig) → Buf (Elt Ideal) ℓ)

/-- The input blocks at point `t`, under their literal types: the student's rows, -/
abbrev blk0 (c : Dev nD) (t : Fin cfg0.N) : Vec Ideal S512x2048 .bf16 := iblk m c 0 t
/-- the student's tile of weight rows, -/
abbrev blk1 (c : Dev nD) (t : Fin cfg0.N) : Vec Ideal S256x2048 .f32 := iblk m c 1 t
/-- the teacher's rows, -/
abbrev blk2 (c : Dev nD) (t : Fin cfg0.N) : Vec Ideal S512x4096 .bf16 := iblk m c 2 t
/-- the teacher's tile of weight rows, -/
abbrev blk3 (c : Dev nD) (t : Fin cfg0.N) : Vec Ideal S256x4096 .f32 := iblk m c 3 t
/-- the rows' labels. -/
abbrev blk4 (c : Dev nD) (t : Fin cfg0.N) : Vec Ideal S512x1 .i32 := iblk m c 4 t

/-- At the first tile of a row block (`t ≡ 0 mod 125`) the six vectors are the step applied to the reset values. -/
theorem outs_A (c : Dev nD) (t : Fin cfg0.N) (h0 : t.val % 125 = 0) (h1 : ¬t.val % 125 = 124) :
    (outsAt0 m c t.val t.isLt).2 = upd (grid0.coords t) (blk0 m c t) (blk1 m c t) (blk2 m c t) (blk3 m c t) (blk4 m c t) resetSc := by
  rw [outsAt0_A m c t h0 h1]
  dsimp only
  exact souts_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (blk0 m c t) (blk1 m c t) (blk2 m c t) (blk3 m c t) (blk4 m c t)
    ((hcond0_0 t).mpr h0) (fun h => h1 ((hcond0_1 t).mp h))

/-- At a middle tile the six vectors are the step applied to what the point before left. -/
theorem outs_B (c : Dev nD) (t : Fin cfg0.N) (h0 : ¬t.val % 125 = 0) (h1 : ¬t.val % 125 = 124) :
    (outsAt0 m c t.val t.isLt).2 = upd (grid0.coords t) (blk0 m c t) (blk1 m c t) (blk2 m c t) (blk3 m c t) (blk4 m c t) (outsAt0 m c (t.val - 1) (Nat.lt_of_le_of_lt (Nat.sub_le _ _) t.isLt)).2 := by
  rw [outsAt0_B m c t h0 h1]
  dsimp only
  exact souts_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (blk0 m c t) (blk1 m c t) (blk2 m c t) (blk3 m c t) (blk4 m c t)
    (outsAt0 m c (t.val - 1) (Nat.lt_of_le_of_lt (Nat.sub_le _ _) t.isLt)).2
    (fun h => h0 ((hcond0_0 t).mp h)) (fun h => h1 ((hcond0_1 t).mp h))

/-- At the last tile of a row block (`t ≡ 124 mod 125`) the six vectors are the step applied to what the point before
    left, and the output block holds the row losses read off those stepped vectors. -/
theorem outs_C (c : Dev nD) (t : Fin cfg0.N) (h0 : ¬t.val % 125 = 0) (h1 : t.val % 125 = 124) :
    (outsAt0 m c t.val t.isLt).2 = upd (grid0.coords t) (blk0 m c t) (blk1 m c t) (blk2 m c t) (blk3 m c t) (blk4 m c t) (outsAt0 m c (t.val - 1) (Nat.lt_of_le_of_lt (Nat.sub_le _ _) t.isLt)).2
    ∧ (outsAt0 m c t.val t.isLt).1 = outOf (blk4 m c t) (upd (grid0.coords t) (blk0 m c t) (blk1 m c t) (blk2 m c t) (blk3 m c t) (blk4 m c t) (outsAt0 m c (t.val - 1) (Nat.lt_of_le_of_lt (Nat.sub_le _ _) t.isLt)).2) := by
  rw [outsAt0_C m c t h0 h1]
  dsimp only
  exact ⟨souts_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (blk0 m c t) (blk1 m c t) (blk2 m c t) (blk3 m c t) (blk4 m c t)
      (outsAt0 m c (t.val - 1) (Nat.lt_of_le_of_lt (Nat.sub_le _ _) t.isLt)).2
      (fun h => h0 ((hcond0_0 t).mp h)) ((hcond0_1 t).mpr h1),
    out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (blk0 m c t) (blk1 m c t) (blk2 m c t) (blk3 m c t) (blk4 m c t)
      (outsAt0 m c (t.val - 1) (Nat.lt_of_le_of_lt (Nat.sub_le _ _) t.isLt)).2
      (fun h => h0 ((hcond0_0 t).mp h)) ((hcond0_1 t).mpr h1)⟩

end Cert.KernelIdeal.Pieces

end
-- ==== Proof.KernelBlocks.lean ====
/-
  The kernel's blocks as pieces of the argument arrays, and the array it returns.

  The call runs over a grid of 4 row blocks by 125 vocabulary tiles; point `t` is row block `t / 125`, tile `t % 125`.
  Every input block is a rectangle of one argument: rows `512 · (t / 125) + p` of the activations and of the labels,
  rows `256 · (t % 125) + j` of the two weight matrices, all columns. The two activation arrays reach the call through
  a change of number format and the labels through a reshape to one column; over the extended reals the first is the
  identity and the second keeps the row-major position, so each block entry IS an entry of the argument.

  The output holds one number per batch row. Its block for row block `i` is written back once, at the last tile of
  that row block, so row `b` of the returned array is what the point `(b / 512) · 125 + 124` left at position
  `b % 512`. The program then adds the 2048 rows up and divides by the row count.
-/
import proofs.«400147_j50714973831635_2_alg».proof.Proof.Gen.KernelIdeal.Frame
import proofs.«400147_j50714973831635_2_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal.Gen

variable (m : (ℓ : Loc nD τ sig) → Buf (Elt Ideal) ℓ)

/-! ## The argument arrays -/

/-- The student activations, one row per batch row. -/
abbrev argX (c : Dev nD) : FVec Ideal S2048x2048 .f32 := m ((c.tc : Thread nD τ).loc main_arg0)
/-- The student weights, one row per vocabulary column. -/
abbrev argWs (c : Dev nD) : FVec Ideal S32000x2048 .f32 := m ((c.tc : Thread nD τ).loc main_arg1)
/-- The teacher activations. -/
abbrev argY (c : Dev nD) : FVec Ideal S2048x4096 .f32 := m ((c.tc : Thread nD τ).loc main_arg2)
/-- The teacher weights. -/
abbrev argWt (c : Dev nD) : FVec Ideal S32000x4096 .f32 := m ((c.tc : Thread nD τ).loc main_arg3)
/-- The labels, one word per batch row. -/
abbrev argLab (c : Dev nD) : IVec S2048 32 := m ((c.tc : Thread nD τ).loc main_arg4)

/-! ## The grid and the block indices -/

/-- The second grid coordinate of point `t` is the vocabulary tile `t % 125`. -/
theorem coords1 (t : Fin cfg0.N) : (grid0.coords t 1).val = t.val % 125 :=
  (by decide +kernel : ∀ t : Fin grid0.N, (grid0.coords t 1).val = t.val % 125) t

/-- The first grid coordinate of point `t` is the row block `t / 125`. -/
theorem coords0 (t : Fin cfg0.N) : (grid0.coords t 0).val = t.val / 125 :=
  (by decide +kernel : ∀ t : Fin grid0.N, (grid0.coords t 0).val = t.val / 125) t

/-- The block indices of the two student windows: the activations' block follows the row block, the weights' block
    the vocabulary tile; neither moves along the hidden axis. -/
theorem idx_student : ∀ t : Fin cfg0.N,
    win0_0.index t (0 : Fin 2) = t.val / 125 ∧ win0_0.index t (1 : Fin 2) = 0
    ∧ win0_1.index t (0 : Fin 2) = t.val % 125 ∧ win0_1.index t (1 : Fin 2) = 0 :=
  (by decide +kernel : ∀ t : Fin grid0.N, _)

/-- The same for the teacher windows, the labels and the output: the last two follow the row block. -/
theorem idx_rest : ∀ t : Fin cfg0.N,
    win0_2.index t (0 : Fin 2) = t.val / 125 ∧ win0_2.index t (1 : Fin 2) = 0
    ∧ win0_3.index t (0 : Fin 2) = t.val % 125 ∧ win0_3.index t (1 : Fin 2) = 0
    ∧ win0_4.index t (0 : Fin 2) = t.val / 125 ∧ win0_4.index t (1 : Fin 2) = 0
    ∧ win0_5.index t (0 : Fin 2) = t.val / 125 ∧ win0_5.index t (1 : Fin 2) = 0 :=
  (by decide +kernel : ∀ t : Fin grid0.N, _)

/-! ## The arrays the call reads that the program computes first -/

/-- The array window 0 reads is the student activations in the narrower format. -/
theorem V1_eq (c : Dev nD) :
    (V m c main_v1 : FVec Ideal S2048x2048 .bf16) = truncf .bf16 (argX m c) Facts₀.bitsLt_bf16_f32 := by
  show StableHlo.after hostOps0 (fun b => m (c, b)) (Proc.devRef .tc main_v1) = _
  after_results

/-- The array window 2 reads is the teacher activations in the narrower format. -/
theorem V2_eq (c : Dev nD) :
    (V m c main_v2 : FVec Ideal S2048x4096 .bf16) = truncf .bf16 (argY m c) Facts₀.bitsLt_bf16_f32 := by
  show StableHlo.after hostOps0 (fun b => m (c, b)) (Proc.devRef .tc main_v2) = _
  after_results

/-- The array window 4 reads is the labels as one column. -/
theorem V0_eq (c : Dev nD) :
    (V m c main_v0 : IVec S2048x1 32) = shapeCast S2048x1 (argLab m c) Facts₀.shapeCasts_S2048_S2048x1 := by
  show StableHlo.after hostOps0 (fun b => m (c, b)) (Proc.devRef .tc main_v0) = _
  after_results
  rfl

/-! ## The input blocks, entry by entry

A block's coordinate on an axis is the block index times the block's extent plus the coordinate inside the block. -/

/-- Entry `(p, h)` of the student activation block at point `t` is the activation of batch row
    `512 · (t / 125) + p` at hidden unit `h`. -/
theorem blk0_apply (c : Dev nD) (t : Fin cfg0.N) (p : Fin 512) (h : Fin 2048) :
    (iblk m c 0 t : Vec Ideal S512x2048 .bf16) (ix2 p h) = argX m c (ix2 (Cert.Distill.row (t.val / 125) p) h) := by
  obtain ⟨e0, e1, -, -⟩ := idx_student t
  show (V m c main_v1 : FVec Ideal S2048x2048 .bf16) (((cfg0.win 0).blk t).view.emb (ix2 p h)) = _
  rw [V1_eq]
  show argX m c (((cfg0.win 0).blk t).view.emb (ix2 p h)) = _
  refine congrArg (argX m c) (funext fun a => Fin.ext ?_)
  have ht : t.val < 500 := lt_of_lt_of_eq t.isLt N_0
  have hp : p.val < 512 := p.isLt
  match a with
  | ⟨0, _⟩ =>
    show win0_0.index t (0 : Fin 2) * 512 + 1 * p.val = (t.val / 125 * 512 + p.val) % 2048
    omega
  | ⟨1, _⟩ =>
    show win0_0.index t (1 : Fin 2) * 2048 + 1 * h.val = h.val
    omega

/-- Entry `(j, h)` of the student weight block at point `t` is the weight of vocabulary column
    `256 · (t % 125) + j` at hidden unit `h`. -/
theorem blk1_apply (c : Dev nD) (t : Fin cfg0.N) (j : Fin 256) (h : Fin 2048) :
    (iblk m c 1 t : Vec Ideal S256x2048 .f32) (ix2 j h) = argWs m c (ix2 (Cert.Distill.col (t.val % 125) j) h) := by
  obtain ⟨-, -, e0, e1⟩ := idx_student t
  show (V m c main_arg1 : FVec Ideal S32000x2048 .f32) (((cfg0.win 1).blk t).view.emb (ix2 j h)) = _
  rw [V_main_arg1 m c]
  show argWs m c (((cfg0.win 1).blk t).view.emb (ix2 j h)) = _
  refine congrArg (argWs m c) (funext fun a => Fin.ext ?_)
  have hj : j.val < 256 := j.isLt
  match a with
  | ⟨0, _⟩ =>
    show win0_1.index t (0 : Fin 2) * 256 + 1 * j.val = (t.val % 125 * 256 + j.val) % 32000
    omega
  | ⟨1, _⟩ =>
    show win0_1.index t (1 : Fin 2) * 2048 + 1 * h.val = h.val
    omega

/-- Entry `(p, h)` of the teacher activation block at point `t` is the activation of batch row
    `512 · (t / 125) + p` at hidden unit `h`. -/
theorem blk2_apply (c : Dev nD) (t : Fin cfg0.N) (p : Fin 512) (h : Fin 4096) :
    (iblk m c 2 t : Vec Ideal S512x4096 .bf16) (ix2 p h) = argY m c (ix2 (Cert.Distill.row (t.val / 125) p) h) := by
  obtain ⟨e0, e1, -, -, -, -, -, -⟩ := idx_rest t
  show (V m c main_v2 : FVec Ideal S2048x4096 .bf16) (((cfg0.win 2).blk t).view.emb (ix2 p h)) = _
  rw [V2_eq]
  show argY m c (((cfg0.win 2).blk t).view.emb (ix2 p h)) = _
  refine congrArg (argY m c) (funext fun a => Fin.ext ?_)
  have ht : t.val < 500 := lt_of_lt_of_eq t.isLt N_0
  have hp : p.val < 512 := p.isLt
  match a with
  | ⟨0, _⟩ =>
    show win0_2.index t (0 : Fin 2) * 512 + 1 * p.val = (t.val / 125 * 512 + p.val) % 2048
    omega
  | ⟨1, _⟩ =>
    show win0_2.index t (1 : Fin 2) * 4096 + 1 * h.val = h.val
    omega

/-- Entry `(j, h)` of the teacher weight block at point `t` is the weight of vocabulary column
    `256 · (t % 125) + j` at hidden unit `h`. -/
theorem blk3_apply (c : Dev nD) (t : Fin cfg0.N) (j : Fin 256) (h : Fin 4096) :
    (iblk m c 3 t : Vec Ideal S256x4096 .f32) (ix2 j h) = argWt m c (ix2 (Cert.Distill.col (t.val % 125) j) h) := by
  obtain ⟨-, -, e0, e1, -, -, -, -⟩ := idx_rest t
  show (V m c main_arg3 : FVec Ideal S32000x4096 .f32) (((cfg0.win 3).blk t).view.emb (ix2 j h)) = _
  rw [V_main_arg3 m c]
  show argWt m c (((cfg0.win 3).blk t).view.emb (ix2 j h)) = _
  refine congrArg (argWt m c) (funext fun a => Fin.ext ?_)
  have hj : j.val < 256 := j.isLt
  match a with
  | ⟨0, _⟩ =>
    show win0_3.index t (0 : Fin 2) * 256 + 1 * j.val = (t.val % 125 * 256 + j.val) % 32000
    omega
  | ⟨1, _⟩ =>
    show win0_3.index t (1 : Fin 2) * 4096 + 1 * h.val = h.val
    omega

/-- Entry `p` of the label block at point `t` is the label of batch row `512 · (t / 125) + p`: the one-column
    array keeps each label at its row-major position. -/
theorem blk4_apply (c : Dev nD) (t : Fin cfg0.N) (p : Fin 512) :
    (iblk m c 4 t : Vec Ideal S512x1 .i32) (ix2 p 0) = argLab m c (ix1 (Cert.Distill.row (t.val / 125) p)) := by
  obtain ⟨-, -, -, -, e0, e1, -, -⟩ := idx_rest t
  show (V m c main_v0 : IVec S2048x1 32) (((cfg0.win 4).blk t).view.emb (ix2 p 0)) = _
  rw [V0_eq]
  refine shapeCast_apply (argLab m c) Facts₀.shapeCasts_S2048_S2048x1 _ _ ?_
  rw [Shape.rowMajor_val_two, Shape.rowMajor_val_one]
  have ht : t.val < 500 := lt_of_lt_of_eq t.isLt N_0
  have hp : p.val < 512 := p.isLt
  show (t.val / 125 * 512 + p.val) % 2048
    = (win0_4.index t (0 : Fin 2) * 512 + 1 * p.val) * 1 + (win0_4.index t (1 : Fin 2) * 1 + 1 * 0)
  omega

/-! ## The output array

The output block of row block `i` stays in its staging buffer through the 125 tiles of that row block and is written
back once, after the last. The four written blocks are the four quarters of the array, so each row is written exactly
by its own row block's last tile. -/

/-- The point that writes the block of batch row `b` back: the last vocabulary tile of the row's block. -/
def lastPt (b : Fin 2048) : Fin cfg0.N :=
  ⟨b.val / 512 * 125 + 124, by rw [show cfg0.N = 500 from N_0]; have := b.isLt; omega⟩

theorem lastPt_val (b : Fin 2048) : (lastPt b).val = b.val / 512 * 125 + 124 := rfl

/-- What the staging buffers and the carried statistics hold after a point depends on the point only. -/
theorem outsAt0_congr (c : Dev nD) (n n' : ℕ) (h : n < cfg0.N) (h' : n' < cfg0.N) (e : n = n') :
    outsAt0 m c n h = outsAt0 m c n' h' := by
  subst e; rfl

/-- Row `b` of the array the call returns: what the point `lastPt b` left at position `b % 512` of the output block. -/
def outRow (c : Dev nD) (b : Fin 2048) : EReal :=
  ((outsAt0 m c (lastPt b).val (lastPt b).isLt).1 : FVec Ideal S512x1 .f32)
    (ix2 (⟨b.val % 512, Nat.mod_lt _ (by norm_num)⟩ : Fin 512) 0)

/-- The array the call returns, one column of 2048 rows. -/
def outArr (c : Dev nD) : FVec Ideal S2048x1 .f32 := fun i => outRow m c ⟨(i 0).val, idx2_lt0 i⟩

/-- At a point `t` that is the last tile of its row block, the rows of that block read the point's own output. -/
theorem outArr_at (c : Dev nD) (t : Fin cfg0.N) (h124 : t.val % 125 = 124) (i : S2048x1.Idx) (y : S512x1.Idx)
    (h0 : (i 0).val = t.val / 125 * 512 + (y 0).val) :
    outArr m c i = ((outsAt0 m c t.val t.isLt).1 : FVec Ideal S512x1 .f32) y := by
  have hy0 : (y 0).val < 512 := (y 0).isLt
  have hy1 : (y 1).val < 1 := (y 1).isLt
  have ht : t.val < 500 := lt_of_lt_of_eq t.isLt N_0
  show ((outsAt0 m c (lastPt ⟨(i 0).val, idx2_lt0 i⟩).val (lastPt ⟨(i 0).val, idx2_lt0 i⟩).isLt).1 : FVec Ideal S512x1 .f32)
      (ix2 (⟨(i 0).val % 512, Nat.mod_lt _ (by norm_num)⟩ : Fin 512) 0) = _
  rw [outsAt0_congr m c _ t.val _ t.isLt (by rw [lastPt_val]; show (i 0).val / 512 * 125 + 124 = t.val; omega)]
  refine congrArg ((outsAt0 m c t.val t.isLt).1 : FVec Ideal S512x1 .f32) (funext fun a => Fin.ext ?_)
  match a with
  | ⟨0, _⟩ => show (i 0).val % 512 = (y 0).val; omega
  | ⟨1, _⟩ => show 0 = (y 1).val; omega

/-- What a point that writes the output block back writes is its block of the returned array. -/
theorem flushed_eq (c : Dev nD) (t : Fin cfg0.N) (hf : (cfg0.win 5).flush t = true) :
    (dats m 0 c).flushed 5 t = ((cfg0.win 5).blk t).view.read (Elt Ideal) (outArr m c) := by
  show (cfg0.win 5).cut (grid0.coords t) ((dats m 0 c).after 5 t) = _
  rw [after0_5]
  funext y
  obtain ⟨-, -, -, -, -, -, e0, e1⟩ := idx_rest t
  have h124 : t.val % 125 = 124 := (flush0_5 t).mp hf
  show _ = outArr m c (((cfg0.win 5).blk t).view.emb y)
  refine (outArr_at m c t h124 _ _ ?_).symm
  show win0_5.index t (0 : Fin 2) * 512 + 1 * (y 0).val = t.val / 125 * 512 + (y 0).val
  omega

/-- Every row lies in the block its row block's last tile writes back, so the array ends holding `outArr`. -/
theorem final_out (c : Dev nD) : (dats m 0 c).arrAt 5 cfg0.N = outArr m c :=
  (dats m 0 c).arrAt_eq_of_cover 5 (outArr m c) (flushed_eq m c) fun (i : S2048x1.Idx) => by
    have hi1 : (i 1).val < 1 := idx2_lt1 i
    obtain ⟨b, hb⟩ : ∃ b : Fin 2048, b.val = (i 0).val := ⟨⟨(i 0).val, idx2_lt0 i⟩, rfl⟩
    have hb' : b.val < 2048 := b.isLt
    obtain ⟨-, -, -, -, -, -, e0, e1⟩ := idx_rest (lastPt b)
    rw [lastPt_val] at e0
    refine ⟨lastPt b, (flush0_5 _).mpr (by rw [lastPt_val]; omega), ?_⟩
    show i ∈ ((View.whole main_v3).slice (win0_5.rect (lastPt b))).set
    rw [View.set_slice_whole, Rect.mem_set_unit]
    intro a
    match a with
    | ⟨0, _⟩ =>
      show win0_5.index (lastPt b) (0 : Fin 2) * 512 ≤ (i 0).val
        ∧ (i 0).val < win0_5.index (lastPt b) (0 : Fin 2) * 512 + 512
      omega
    | ⟨1, _⟩ =>
      show win0_5.index (lastPt b) (1 : Fin 2) * 1 ≤ (i 1).val
        ∧ (i 1).val < win0_5.index (lastPt b) (1 : Fin 2) * 1 + 1
      omega

/-! ## The scalar the program returns -/

/-- THE RESULT. After the call the program adds the 2048 rows of the returned array, starting from zero, and divides
    by the row count: the scalar it returns is the mean of the rows. -/
theorem result_eq (c : Dev nD) :
    Pipeline.afterTail₀ cfgs (dats m) 0 (V0 m) [hostOps1] c main_v5
      = fun _ => Ideal.div (∑ b : Fin 2048, ((outsAt0 m c (lastPt b).val (lastPt b).isLt).1 : FVec Ideal S512x1 .f32)
          (ix2 (⟨b.val % 512, Nat.mod_lt _ (by norm_num)⟩ : Fin 512) 0)) Cert.Distill.count := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.devRef .tc main_v3)
      = outArr m c :=
    (Pipeline.withArrays_arr spec0 launch0.win.arr_inj c _ _ 5).trans (final_out m c)
  rw [hA]
  funext x
  show Ideal.div (Ideal.hostReduceAdd Facts₀.reducesTo_S2048x1_S_d0_1 (outArr m c) (Ideal.ofBits .f32 0x00000000#32) x)
      (Ideal.ofBits .f32 0x45000000#32) = _
  rw [Ideal.hostReduceAdd_total _ (fun b => b.elim0), Ideal.ofBits_zero_f32, zero_add, sum_idx2]
  simp only [Fin.sum_univ_one]
  rfl

/-- THE RUN, READ. Every fair run of the program ends with the scalar result at the mean of the rows the last tiles
    left, and with the five arguments as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v5)
        = (fun _ => Ideal.div (∑ b : Fin 2048, ((outsAt0 m c (lastPt b).val (lastPt b).isLt).1 : FVec Ideal S512x1 .f32)
            (ix2 (⟨b.val % 512, Nat.mod_lt _ (by norm_num)⟩ : Fin 512) 0)) Cert.Distill.count)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Blocks

end
-- ==== Proof.KernelRows.lean ====
/-
  Row by row, the kernel's six scratch vectors hold the running statistics of the specification.

  The grid walks the vocabulary tiles k = 0 … 124 inside each row block i = 0 … 3 (point t = i · 125 + k). Row p of
  the block is batch row `row i p`. Its student and teacher logits against the tile's 256 vocabulary rows are the
  contractions of its row of activations with the rows of the weight tile, that is `logit … (row i p) (col k j)`;
  one point's update of the six scratch entries of row p is exactly `Stats.step` on those 256 logits, and the reset
  at k = 0 is `Stats.init`. So after point t the scratch entries of row p are `stats … (k + 1)`, and at the
  block's last tile the output entry is the loss read off `stats … 125`: `rowLoss`.
-/
import proofs.«400147_j50714973831635_2_alg».proof.Proof.Gen.KernelIdeal.Frame
import proofs.«400147_j50714973831635_2_alg».proof.Proof.Spec
import proofs.«400147_j50714973831635_2_alg».proof.Proof.KernelPayloads
import proofs.«400147_j50714973831635_2_alg».proof.Proof.KernelPieces
import proofs.«400147_j50714973831635_2_alg».proof.Proof.KernelBlocks
import Idealize.ShloMosaic.PureOps.Ideal.Laws
import Idealize.ShloMosaic.Lib.ValueIdx

noncomputable section

namespace Cert.KernelIdeal.Rows

open Idealize.ShloMosaic Idealize.ShloMosaic.ValueIdx Idealize.SL.Sem
open Cert.KernelIdeal Cert.KernelIdeal.Gen Cert.Distill
open Cert.KernelIdeal.Pay Cert.KernelIdeal.Pieces Cert.KernelIdeal.Blocks

/-- Row `p` of the six scratch vectors, as a record of statistics. -/
def scAt (o : Sc) (p : Fin 512) : Stats :=
  ⟨o.1 (ix2 p 0), o.2.1 (ix2 p 0), o.2.2.1 (ix2 p 0), o.2.2.2.1 (ix2 p 0), o.2.2.2.2.1 (ix2 p 0), o.2.2.2.2.2 (ix2 p 0)⟩

/-- The reset values are the statistics before the first tile. -/
theorem scAt_reset (p : Fin 512) : scAt resetSc p = Stats.init := by
  unfold scAt resetSc Stats.init
  dsimp only
  rw [pay3_apply, pay4_apply, pay5_apply, pay6_apply, pay7_apply, pay8_apply]

/-- One point's update, at row `p`, is one tile folded into the row's statistics. -/
theorem scAt_upd (i : grid0.Coords) (x0 : Vec Ideal S512x2048 .bf16) (x1 : Vec Ideal S256x2048 .f32)
    (x2 : Vec Ideal S512x4096 .bf16) (x3 : Vec Ideal S256x4096 .f32) (x4 : Vec Ideal S512x1 .i32) (o : Sc) (p : Fin 512)
    (S T : Fin 256 → EReal) (H : Fin 256 → Bool)
    (hS : ∀ j, k0_pay9 (F := Ideal) x0 x1 (ix2 p j) = S j) (hT : ∀ j, k0_pay10 (F := Ideal) x2 x3 (ix2 p j) = T j)
    (hH : ∀ j, decide (BitVec.ofNat 32 ((i 1).val * 256 + j.val) = x4 (ix2 p 0)) = H j) :
    scAt (upd i x0 x1 x2 x3 x4 o) p = (scAt o p).step S T H := by
  have hS' : (fun j => k0_pay9 (F := Ideal) x0 x1 (ix2 p j)) = S := funext hS
  unfold scAt upd Stats.step
  dsimp only
  rw [pay15_apply, pay14_apply, pay11_apply, pay16_apply, pay17_apply, pay1_apply, pay12_apply, hS']
  simp only [pay18_apply, hS, hT, ← hH, decide_eq_true_eq]

variable (m : (ℓ : Loc nD τ sig) → Buf (Elt Ideal) ℓ)

/-- The statistics of batch row `row i p` after its first `k` vocabulary tiles, over the argument arrays. -/
def rowStats (c : Dev nD) (i : ℕ) (p : Fin 512) (k : ℕ) : Stats :=
  stats (fun k j => logit (argX m c) (argWs m c) (row i p) (col k j))
    (fun k j => logit (argY m c) (argWt m c) (row i p) (col k j))
    (fun k j => decide (BitVec.ofNat 32 (k * 256 + j.val) = argLab m c (ix1 (row i p)))) k

/-- The student logits of a point's tile: row `p` of the activation block against row `j` of the weight block is the
    logit of batch row `row i p` against vocabulary row `col k j`. -/
theorem tileS (c : Dev nD) (t : Fin cfg0.N) (p : Fin 512) (j : Fin 256) :
    k0_pay9 (F := Ideal) (blk0 m c t) (blk1 m c t) (ix2 p j)
      = logit (argX m c) (argWs m c) (row (t.val / 125) p) (col (t.val % 125) j) := by
  rw [pay9_apply]
  unfold logit
  refine Finset.sum_congr rfl fun h _ => ?_
  rw [show blk0 m c t (ix2 p h) = _ from blk0_apply m c t p h, show blk1 m c t (ix2 j h) = _ from blk1_apply m c t j h]

/-- The teacher logits of a point's tile, likewise. -/
theorem tileT (c : Dev nD) (t : Fin cfg0.N) (p : Fin 512) (j : Fin 256) :
    k0_pay10 (F := Ideal) (blk2 m c t) (blk3 m c t) (ix2 p j)
      = logit (argY m c) (argWt m c) (row (t.val / 125) p) (col (t.val % 125) j) := by
  rw [pay10_apply]
  unfold logit
  refine Finset.sum_congr rfl fun h _ => ?_
  rw [show blk2 m c t (ix2 p h) = _ from blk2_apply m c t p h, show blk3 m c t (ix2 j h) = _ from blk3_apply m c t j h]

/-- One point's update of row `p`: tile `t % 125` of batch row `row (t / 125) p` folded in. -/
theorem step_at (c : Dev nD) (t : Fin cfg0.N) (o : Sc) (p : Fin 512) :
    scAt (upd (grid0.coords t) (blk0 m c t) (blk1 m c t) (blk2 m c t) (blk3 m c t) (blk4 m c t) o) p
      = (scAt o p).step (fun j => logit (argX m c) (argWs m c) (row (t.val / 125) p) (col (t.val % 125) j))
          (fun j => logit (argY m c) (argWt m c) (row (t.val / 125) p) (col (t.val % 125) j))
          (fun j => decide (BitVec.ofNat 32 (t.val % 125 * 256 + j.val) = argLab m c (ix1 (row (t.val / 125) p)))) :=
  scAt_upd (grid0.coords t) (blk0 m c t) (blk1 m c t) (blk2 m c t) (blk3 m c t) (blk4 m c t) o p _ _ _
    (fun j => tileS m c t p j) (fun j => tileT m c t p j)
    (fun j => by rw [coords1 t, show blk4 m c t (ix2 p 0) = _ from blk4_apply m c t p])

/-- After point `n` the scratch entries of row `p` are the statistics of batch row `row (n / 125) p` after
    `n % 125 + 1` tiles: by induction on the point, the first tile of a row block starting from the reset values. -/
theorem scratch_after (c : Dev nD) : ∀ (n : ℕ) (hn : n < cfg0.N) (p : Fin 512),
    scAt (outsAt0 m c n hn).2 p = rowStats m c (n / 125) p (n % 125 + 1) := by
  intro n
  induction n with
  | zero =>
    intro hn p
    have e := outs_A m c ⟨0, hn⟩ (Nat.zero_mod _) (show ¬(0 : ℕ) % 125 = 124 by decide)
    have e' : (outsAt0 m c 0 hn).2 = _ := e
    rw [e', step_at m c ⟨0, hn⟩ resetSc p, scAt_reset]
    rfl
  | succ n ih =>
    intro hn p
    have hN : n + 1 < 500 := lt_of_lt_of_eq hn (show cfg0.N = 500 from N_0)
    by_cases h0 : (n + 1) % 125 = 0
    · have h1 : ¬(n + 1) % 125 = 124 := by omega
      have e : (outsAt0 m c (n + 1) hn).2 = _ := outs_A m c ⟨n + 1, hn⟩ h0 h1
      rw [e, step_at m c ⟨n + 1, hn⟩ resetSc p, scAt_reset]
      unfold rowStats
      show _ = stats _ _ _ ((n + 1) % 125 + 1)
      rw [h0]
      rfl
    · have hq : (n + 1) / 125 = n / 125 := by omega
      have hr : (n + 1) % 125 = n % 125 + 1 := by omega
      have e : (outsAt0 m c (n + 1) hn).2
          = upd (grid0.coords ⟨n + 1, hn⟩) (blk0 m c ⟨n + 1, hn⟩) (blk1 m c ⟨n + 1, hn⟩) (blk2 m c ⟨n + 1, hn⟩)
              (blk3 m c ⟨n + 1, hn⟩) (blk4 m c ⟨n + 1, hn⟩) (outsAt0 m c n (Nat.lt_of_succ_lt hn)).2 := by
        by_cases h1 : (n + 1) % 125 = 124
        · exact (outs_C m c ⟨n + 1, hn⟩ h0 h1).1
        · exact outs_B m c ⟨n + 1, hn⟩ h0 h1
      rw [e, step_at m c ⟨n + 1, hn⟩ _ p, ih (Nat.lt_of_succ_lt hn) p]
      unfold rowStats
      show _ = stats _ _ _ ((n + 1) % 125 + 1)
      rw [hq, hr]
      rfl

/-- At the last tile of a row block the output entry of row `p` is the tiled loss of batch row `row (t / 125) p`. -/
theorem out_row (c : Dev nD) (t : Fin cfg0.N) (h1 : t.val % 125 = 124) (p : Fin 512) :
    (outsAt0 m c t.val t.isLt).1 (ix2 p 0)
      = rowLoss (argX m c) (argWs m c) (argY m c) (argWt m c) (argLab m c) (row (t.val / 125) p) := by
  have h0 : ¬t.val % 125 = 0 := by omega
  obtain ⟨e2, e1⟩ := outs_C m c t h0 h1
  rw [e1, ← e2]
  unfold outOf
  rw [pay2_apply]
  have hs := scratch_after m c t.val t.isLt p
  unfold scAt at hs
  rw [hs, show blk4 m c t (ix2 p 0) = _ from blk4_apply m c t p, h1]
  rfl

end Cert.KernelIdeal.Rows

end
-- ==== Proof.KernelValue.lean ====
/-
  The kernel's result: the mean over the batch of the tiled row losses of the argument arrays.

  The pallas_call's output array holds, at batch row b, what the last vocabulary tile of b's row block left in the
  output block: the row loss (the row-by-row invariant). The host lines after the call sum the array and divide by
  the batch size.
-/
import proofs.«400147_j50714973831635_2_alg».proof.Proof.KernelRows

noncomputable section

namespace Cert.KernelIdeal.KernelValue

open Idealize.ShloMosaic Idealize.ShloMosaic.ValueIdx Idealize.ShloMosaic.TcCoe Idealize.SL.Sem
open Cert.KernelIdeal Cert.KernelIdeal.Gen Cert.Distill
open Cert.KernelIdeal.Blocks Cert.KernelIdeal.Rows

variable (m : (ℓ : Loc nD τ sig) → Buf (Elt Ideal) ℓ)

/-- Batch row `b` is row `b % 512` of row block `b / 512`. -/
theorem row_div_mod (b : Fin 2048) : row (b.val / 512) (⟨b.val % 512, Nat.mod_lt _ (by norm_num)⟩ : Fin 512) = b := by
  apply Fin.ext
  show (b.val / 512 * 512 + b.val % 512) % 2048 = b.val
  have := b.isLt
  omega

/-- The summand of the host's mean at batch row `b` is the tiled row loss of `b`. -/
theorem out_at (c : Dev nD) (b : Fin 2048) :
    (outsAt0 m c (lastPt b).val (lastPt b).isLt).1 (ix2 (⟨b.val % 512, Nat.mod_lt _ (by norm_num)⟩ : Fin 512) 0)
      = rowLoss (argX m c) (argWs m c) (argY m c) (argWt m c) (argLab m c) b := by
  have hb := b.isLt
  have hv : (lastPt b).val = b.val / 512 * 125 + 124 := rfl
  have h1 : (lastPt b).val % 125 = 124 := by rw [hv]; omega
  have hq : (lastPt b).val / 125 = b.val / 512 := by rw [hv]; omega
  rw [out_row m c (lastPt b) h1, hq, row_div_mod]

/-- Every weakly fair execution of the kernel program ends with its result at the tiled mean of the argument arrays,
    the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v5)
          = (fun _ => fusedMean (argX m c) (argWs m c) (argY m c) (argWt m c) (argLab m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨(h c).1.trans ?_, (h c).2⟩) (Blocks.run m ρ)
  funext _
  unfold fusedMean
  exact congrArg (fun s => Ideal.div s count) (Finset.sum_congr rfl fun b _ => out_at m c b)

end Cert.KernelIdeal.KernelValue

end
-- ==== Proof.lean ====
/-
  The claim: the fused kernel — student and teacher logits by tiled contraction, an online softmax with running
  maximum and rescaled sum of exponentials, the label's logit picked out tile by tile, the three running sums for the
  cosine, the loss read off at the last vocabulary tile, and the mean taken by the host — against the plain
  reference, which forms whole rows of logits, takes log-softmax at the label, normalises both rows and averages the
  two terms separately.

  Under the precondition (every float entry finite; every label a class id below 32000 or the ignore value −100) all
  logits are real numbers, the tiled statistics equal the whole-row ones (the exponential's addition law carries the
  rescaling from one running maximum to the next), a label names exactly one column of exactly one tile, the quotient
  of the row's dot product by the product of the clamped norms is the sum of the products of the normalised entries,
  and the mean of a sum of halves is the sum of the half means: both programs end at one extended real.

  The three frames are the frames of the runs; the idealization changes no operation.
-/
import proofs.«400147_j50714973831635_2_alg».proof.Defs
import proofs.«400147_j50714973831635_2_alg».proof.Proof.Gen.Kernel
import proofs.«400147_j50714973831635_2_alg».proof.Proof.Gen.Kernel.Frame
import proofs.«400147_j50714973831635_2_alg».proof.Proof.Gen.KernelIdeal
import proofs.«400147_j50714973831635_2_alg».proof.Proof.Gen.KernelIdeal.Frame
import proofs.«400147_j50714973831635_2_alg».proof.Proof.Gen.ReferenceIdeal
import proofs.«400147_j50714973831635_2_alg».proof.Proof.Gen.Pre_finite_inputs
import proofs.«400147_j50714973831635_2_alg».proof.Proof.Spec
import proofs.«400147_j50714973831635_2_alg».proof.Proof.RowClosed
import proofs.«400147_j50714973831635_2_alg».proof.Proof.MeanAlgebra
import proofs.«400147_j50714973831635_2_alg».proof.Proof.PreFacts
import proofs.«400147_j50714973831635_2_alg».proof.Proof.RefStages
import proofs.«400147_j50714973831635_2_alg».proof.Proof.RefValue
import proofs.«400147_j50714973831635_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel ends at the tiled mean, the reference at the whole-row mean, of arrays that agree; under the
    precondition the two means are one extended real. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨((h c).1.trans (Cert.ReferenceIdeal.Stages.result_after m' c)).trans ?_, (h c).2⟩)
    (Cert.ReferenceIdeal.Value.run (F := Ideal) m' ρ')
  obtain ⟨hx, hws, hy, hwt, hlab⟩ := Cert.Distill.Pre.of_pre _ _ _ _ _ (hpre c)
  rw [(hagree c).1, (hagree c).2.1, (hagree c).2.2.1, (hagree c).2.2.2.1,
    (hagree c).2.2.2.2, Cert.ReferenceIdeal.RefValue.result_eq _ _ _ _ _ hlab]
  funext _
  exact (Cert.Distill.fusedMean_eq_plainMean _ _ _ _ _ hx hws hy hwt hlab Cert.Distill.stats_closed).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
